-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![8192, 512]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![8192, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v22) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x512 : Shape := ⟨2, ![512, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel

variable [Facts]

def fn {F : FTy → Type} [FloatOps F] (main_arg0 : FVec F S512x512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  main_v3
-- ==== Pre_finite_inputs_ReferenceIdeal.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S512x512 : Shape := ⟨2, ![512, 512]⟩
abbrev S1x512 : Shape := ⟨2, ![1, 512]⟩
abbrev S2 : Shape := ⟨1, ![2]⟩
abbrev S_ : Shape := ⟨0, ![]⟩
abbrev S255x512 : Shape := ⟨2, ![255, 512]⟩
abbrev S256x512 : Shape := ⟨2, ![256, 512]⟩
abbrev S1 : Shape := ⟨1, ![1]⟩
abbrev S2x512 : Shape := ⟨2, ![2, 512]⟩

abbrev nBuf : Space → Nat
  | .hbm => 2
  | .vmem => 4
  | .smem => 0
  | _ => 0

abbrev bufTy : (tb : Table) → Fin (tcTables nBuf tb) → BufTy
  | .hbm, ⟨0, _⟩ => ⟨S512x512, .f32⟩
  | .hbm, ⟨1, _⟩ => ⟨S512x512, .bf16⟩
  | .local _ .vmem, ⟨0, _⟩ => ⟨S512x512, .f32⟩
  | .local _ .vmem, ⟨1, _⟩ => ⟨S512x512, .bf16⟩
  | .local _ .vmem, ⟨2, _⟩ => ⟨S1x512, .f32⟩
  | .local _ .vmem, ⟨3, _⟩ => ⟨S1x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .sgt v2 c0_i32
  let v6 : BitVec 32 := Scalar.extui v3
  let c0_i32_0 : BitVec 32 := 0#32
  let v7 : BitVec 1 := Scalar.cmpi .ne v6 c0_i32_0
  v7

def k0_dev1 (d0 : Dev nD) : Nat :=
  let c0_i32_54 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_51 : BitVec 32 := 1#32
  let v100 : BitVec 32 := Scalar.subi v2 c1_i32_51
  let c1_i32_53 : BitVec 32 := 1#32
  let v101 : BitVec 32 := Scalar.muli v100 c1_i32_53
  let v102 : BitVec 32 := Scalar.addi c0_i32_54 v101
  v102.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v4 : BitVec 1 := Scalar.cmpi .slt v2 c15_i32
  let v8 : BitVec 32 := Scalar.extui v4
  let c0_i32_1 : BitVec 32 := 0#32
  let v9 : BitVec 1 := Scalar.cmpi .ne v8 c0_i32_1
  v9

def k0_dev2 (d0 : Dev nD) : Nat :=
  let c0_i32_54 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_51 : BitVec 32 := 1#32
  let v100 : BitVec 32 := Scalar.addi v2 c1_i32_51
  let c1_i32_53 : BitVec 32 := 1#32
  let v101 : BitVec 32 := Scalar.muli v100 c1_i32_53
  let v102 : BitVec 32 := Scalar.addi c0_i32_54 v101
  v102.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .sgt v2 c0_i32
  let v32 : BitVec 32 := Scalar.extui v3
  let c0_i32_11 : BitVec 32 := 0#32
  let v33 : BitVec 1 := Scalar.cmpi .ne v32 c0_i32_11
  v33

def k0_dev3 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_51 : BitVec 32 := 1#32
  let v100 : BitVec 32 := Scalar.subi v2 c1_i32_51
  let c1_i32_54 : BitVec 32 := 1#32
  let v101 : BitVec 32 := Scalar.muli v100 c1_i32_54
  let v102 : BitVec 32 := Scalar.addi c0_i32_55 v101
  v102.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v4 : BitVec 1 := Scalar.cmpi .slt v2 c15_i32
  let v34 : BitVec 32 := Scalar.extui v4
  let c0_i32_12 : BitVec 32 := 0#32
  let v35 : BitVec 1 := Scalar.cmpi .ne v34 c0_i32_12
  v35

def k0_dev4 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_51 : BitVec 32 := 1#32
  let v100 : BitVec 32 := Scalar.addi v2 c1_i32_51
  let c1_i32_54 : BitVec 32 := 1#32
  let v101 : BitVec 32 := Scalar.muli v100 c1_i32_54
  let v102 : BitVec 32 := Scalar.addi c0_i32_55 v101
  v102.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S512x512_S255x512_0_0 : ∀ a, (![0, 0] : Fin 2 → Nat) a + S255x512.size a ≤ S512x512.size a
  h_S255x512 : 0 < S255x512.numel
  shapeCasts_S255x512_S255x512 : S255x512.ShapeCasts S255x512
  bitsLt_bf16_f32 : FTy.bits .bf16 < FTy.bits .f32
  inb_S512x512_S255x512_1_0 : ∀ a, (![1, 0] : Fin 2 → Nat) a + S255x512.size a ≤ S512x512.size a
  inb_S512x512_S255x512_2_0 : ∀ a, (![2, 0] : Fin 2 → Nat) a + S255x512.size a ≤ S512x512.size a
  inb_S512x512_S256x512_0_0 : ∀ a, (![0, 0] : Fin 2 → Nat) a + S256x512.size a ≤ S512x512.size a
  h_S256x512 : 0 < S256x512.numel
  slices_S256x512_S255x512_1_0 : S256x512.Slices ![1, 0] S255x512
  packedbf16_S512x512_S256x512_0_0 : (Rect.unit (s := S512x512) ![0, 0] S256x512.size inb_S512x512_S256x512_0_0).PackedRows (EltTy.packing .bf16)
  inb_S2_S1_0 : ∀ a, (![0] : Fin 1 → Nat) a + S1.size a ≤ S2.size a
  squeezes_S1_S_ : S1.Squeezes S_
  inb_S2_S1_1 : ∀ a, (![1] : Fin 1 → Nat) a + S1.size a ≤ S2.size a
  inb_S512x512_S1x512_0_0 : ∀ a, (![0, 0] : Fin 2 → Nat) a + S1x512.size a ≤ S512x512.size a
  inb_S512x512_S1x512_511_0 : ∀ a, (![511, 0] : Fin 2 → Nat) a + S1x512.size a ≤ S512x512.size a
  inb_S512x512_S255x512_255_0 : ∀ a, (![255, 0] : Fin 2 → Nat) a + S255x512.size a ≤ S512x512.size a
  inb_S512x512_S255x512_256_0 : ∀ a, (![256, 0] : Fin 2 → Nat) a + S255x512.size a ≤ S512x512.size a
  inb_S512x512_S255x512_257_0 : ∀ a, (![257, 0] : Fin 2 → Nat) a + S255x512.size a ≤ S512x512.size a
  inb_S512x512_S256x512_256_0 : ∀ a, (![256, 0] : Fin 2 → Nat) a + S256x512.size a ≤ S512x512.size a
  slices_S256x512_S255x512_0_0 : S256x512.Slices ![0, 0] S255x512
  packedbf16_S512x512_S256x512_256_0 : (Rect.unit (s := S512x512) ![256, 0] S256x512.size inb_S512x512_S256x512_256_0).PackedRows (EltTy.packing .bf16)
  h_S1x512 : 0 < S1x512.numel
  shapeCasts_S1x512_S1x512 : S1x512.ShapeCasts S1x512
  inb_S1x512_S1x512_0_0 : ∀ a, (![0, 0] : Fin 2 → Nat) a + S1x512.size a ≤ S1x512.size a
  inb_S512x512_S1x512_1_0 : ∀ a, (![1, 0] : Fin 2 → Nat) a + S1x512.size a ≤ S512x512.size a
  inb_S512x512_S2x512_0_0 : ∀ a, (![0, 0] : Fin 2 → Nat) a + S2x512.size a ≤ S512x512.size a
  h_S2x512 : 0 < S2x512.numel
  slices_S2x512_S1x512_0_0 : S2x512.Slices ![0, 0] S1x512
  packedbf16_S512x512_S2x512_0_0 : (Rect.unit (s := S512x512) ![0, 0] S2x512.size inb_S512x512_S2x512_0_0).PackedRows (EltTy.packing .bf16)
  inb_S512x512_S1x512_510_0 : ∀ a, (![510, 0] : Fin 2 → Nat) a + S1x512.size a ≤ S512x512.size a
  inb_S512x512_S2x512_510_0 : ∀ a, (![510, 0] : Fin 2 → Nat) a + S2x512.size a ≤ S512x512.size a
  slices_S2x512_S1x512_1_0 : S2x512.Slices ![1, 0] S1x512
  packedbf16_S512x512_S2x512_510_0 : (Rect.unit (s := S512x512) ![510, 0] S2x512.size inb_S512x512_S2x512_510_0).PackedRows (EltTy.packing .bf16)
  hcc0_scratch2 : 2 + S2.numel ≤ 6
  hcc0_scratch3 : 4 + S2.numel ≤ 6
  k0_dev1_lt : ∀ d0 : Dev nD, ∀ (k0_h1 : k0_cond1 d0 = 1#1), (k0_dev1 d0) < nD
  k0_dev2_lt : ∀ d0 : Dev nD, ∀ (k0_h2 : k0_cond2 d0 = 1#1), (k0_dev2 d0) < nD
  k0_dev3_lt : ∀ d0 : Dev nD, ∀ (k0_h5 : k0_cond5 d0 = 1#1), (k0_dev3 d0) < nD
  k0_dev4_lt : ∀ d0 : Dev nD, ∀ (k0_h6 : k0_cond6 d0 = 1#1), (k0_dev4 d0) < nD
  hstage0_0 : ∀ j, (stage0_0 j).IsWhole
  hstage0_1 : ∀ j, (stage0_1 j).IsWhole

variable [Facts₀]

abbrev cc0_scratch2 : DmaSems sig S2 := SemArray.consecutive 2 S2 hcc0_scratch2
abbrev cc0_scratch3 : DmaSems sig S2 := SemArray.consecutive 4 S2 hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x512 : Shape := ⟨2, ![8192, 512]⟩
abbrev S1x512 : Shape := ⟨2, ![1, 512]⟩
abbrev S512 : Shape := ⟨1, ![512]⟩
abbrev S_ : Shape := ⟨0, ![]⟩
abbrev S1 : Shape := ⟨1, ![1]⟩
abbrev S8190x512 : Shape := ⟨2, ![8190, 512]⟩

abbrev nBuf : Space → Nat
  | .hbm => 30
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x512, .f32⟩
  | .hbm, ⟨3, _⟩ => ⟨S512, .f32⟩
  | .hbm, ⟨4, _⟩ => ⟨S_, .i32⟩
  | .hbm, ⟨5, _⟩ => ⟨S1, .i32⟩
  | .hbm, ⟨6, _⟩ => ⟨S8192x512, .f32⟩
  | .hbm, ⟨7, _⟩ => ⟨S1x512, .f32⟩
  | .hbm, ⟨8, _⟩ => ⟨S512, .f32⟩
  | .hbm, ⟨9, _⟩ => ⟨S_, .i32⟩
  | .hbm, ⟨10, _⟩ => ⟨S1, .i32⟩
  | .hbm, ⟨11, _⟩ => ⟨S8192x512, .f32⟩
  | .hbm, ⟨12, _⟩ => ⟨S8190x512, .f32⟩
  | .hbm, ⟨13, _⟩ => ⟨S_, .f32⟩
  | .hbm, ⟨14, _⟩ => ⟨S8190x512, .f32⟩
  | .hbm, ⟨15, _⟩ => ⟨S8190x512, .f32⟩
  | .hbm, ⟨16, _⟩ => ⟨S8190x512, .f32⟩
  | .hbm, ⟨17, _⟩ => ⟨S_, .f32⟩
  | .hbm, ⟨18, _⟩ => ⟨S8190x512, .f32⟩
  | .hbm, ⟨19, _⟩ => ⟨S8190x512, .f32⟩
  | .hbm, ⟨20, _⟩ => ⟨S8190x512, .f32⟩
  | .hbm, ⟨21, _⟩ => ⟨S8190x512, .f32⟩
  | .hbm, ⟨22, _⟩ => ⟨S_, .f32⟩
  | .hbm, ⟨23, _⟩ => ⟨S8190x512, .f32⟩
  | .hbm, ⟨24, _⟩ => ⟨S8190x512, .f32⟩
  | .hbm, ⟨25, _⟩ => ⟨S8190x512, .f32⟩
  | .hbm, ⟨26, _⟩ => ⟨S_, .i32⟩
  | .hbm, ⟨27, _⟩ => ⟨S1, .i32⟩
  | .hbm, ⟨28, _⟩ => ⟨S8192x512, .f32⟩
  | .hbm, ⟨29, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c_0 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]

class Facts₀ : Prop where
  slices_S8192x512_S1x512_0_0 : S8192x512.Slices ![0, 0] S1x512
  shapeCasts_S1x512_S512 : S1x512.ShapeCasts S512
  bcast_S_S1 : S_.BroadcastsInDim S1 (![] : Fin 0 → Fin S1.rank)
  slices_S8192x512_S1x512_8191_0 : S8192x512.Slices ![8191, 0] S1x512
  slices_S8192x512_S8190x512_0_0 : S8192x512.Slices ![0, 0] S8190x512
  bcast_S_S8190x512 : S_.BroadcastsInDim S8190x512 (![] : Fin 0 → Fin S8190x512.rank)
  slices_S8192x512_S8190x512_1_0 : S8192x512.Slices ![1, 0] S8190x512
  slices_S8192x512_S8190x512_2_0 : S8192x512.Slices ![2, 0] S8190x512
  bitsLt_bf16_f32 : FTy.bits .bf16 < FTy.bits .f32
  scatter_S8192x512_S1_S512_0_0_0_0_wf : ScatterDims.WF S8192x512 S1 S512 [0] [0] [0] 0
  scatter_S8192x512_S1_S8190x512_01_n_0_0_wf : ScatterDims.WF S8192x512 S1 S8190x512 [0, 1] [] [0] 0

variable [Facts₀]

def scatter_S8192x512_S1_S512_0_0_0_0 : ScatterDims S8192x512 S1 S512 where
  updateWindowDims := [0]
  insertedWindowDims := [0]
  scatterDimsToOperandDims := [0]
  indexVectorDim := 0
  wf := scatter_S8192x512_S1_S512_0_0_0_0_wf
def scatter_S8192x512_S1_S8190x512_01_n_0_0 : ScatterDims S8192x512 S1 S8190x512 where
  updateWindowDims := [0, 1]
  insertedWindowDims := []
  scatterDimsToOperandDims := [0]
  indexVectorDim := 0
  wf := scatter_S8192x512_S1_S8190x512_01_n_0_0_wf

class Facts : Prop extends Facts₀ where

variable [Facts]
-- ==== Proof.Proto.lean ====
/-
  The halo exchange's protocol on the line of sixteen devices, read on the ring ℤ/16 so that every device has a
  predecessor `prv` and a successor `nxt`; the two ends simply have no duty towards the neighbour the line lacks.
  Per device five cells: the barrier semaphore (one unit from each existing neighbour, signalled at entry), the two
  send semaphores (row 0 leaving upwards, row 511 leaving downwards) and the two receive semaphores (the halo row
  above landing from `prv`, the halo row below landing from `nxt`).  A barrier unit from a neighbour hands over that
  neighbour's landing buffer for this device's row, with the fact that the neighbour is at round 0 of the receive
  cell the row will credit: this is what lets the row be sent only after the neighbour is inside the kernel.
-/
import proofs.«900541_g7700000000000542_dist_halo_stencil_i_m512_n512_v7x_i16_bf16_1_alg».proof.Proof.Gen.KernelIdeal
import proofs.«900541_g7700000000000542_dist_halo_stencil_i_m512_n512_v7x_i16_bf16_1_alg».proof.Proof.Gen.KernelIdeal.Skeleton
import proofs.«900541_g7700000000000542_dist_halo_stencil_i_m512_n512_v7x_i16_bf16_1_alg».proof.Proof.Gen.KernelIdeal.Launch
import proofs.«900541_g7700000000000542_dist_halo_stencil_i_m512_n512_v7x_i16_bf16_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the rounds of the exchange (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The line, read on the ring -/

def nxt (c : Dev nD) : Dev nD := ⟨(c.val + 1) % 16, Nat.mod_lt _ (by decide)⟩
def prv (c : Dev nD) : Dev nD := ⟨(c.val + 15) % 16, Nat.mod_lt _ (by decide)⟩

theorem prv_nxt (c : Dev nD) : prv (nxt c) = c := by revert c; decide
theorem nxt_prv (c : Dev nD) : nxt (prv c) = c := by revert c; decide

def ring : Dev nD ≃ Dev nD := ⟨nxt, prv, prv_nxt, nxt_prv⟩

/-- A device has a neighbour above it (it is not the first), below it (it is not the last). -/
abbrev hasUp (c : Dev nD) : Prop := 0 < c.val
abbrev hasDn (c : Dev nD) : Prop := c.val < 15

theorem hasUp_nxt {c : Dev nD} (h : hasDn c) : hasUp (nxt c) := by revert c; decide
theorem hasDn_prv {c : Dev nD} (h : hasUp c) : hasDn (prv c) := by revert c; decide

/-- The printed conditions, decided over the mesh. -/
theorem cond1_iff (c : Dev nD) : k0_cond1 c = 1#1 ↔ hasUp c := by revert c; decide +kernel
theorem cond2_iff (c : Dev nD) : k0_cond2 c = 1#1 ↔ hasDn c := by revert c; decide +kernel
theorem cond5_iff (c : Dev nD) : k0_cond5 c = 1#1 ↔ hasUp c := by revert c; decide +kernel
theorem cond6_iff (c : Dev nD) : k0_cond6 c = 1#1 ↔ hasDn c := by revert c; decide +kernel

/-- The device's position as the body computes it, and the two flags it carries through its parts. -/
abbrev posW (c : Dev nD) : BitVec 32 := Scalar.remsi (Scalar.divsi (Dev.word c) 1#32) 16#32
abbrev upW (c : Dev nD) : BitVec 1 := Scalar.cmpi .sgt (posW c) 0#32
abbrev dnW (c : Dev nD) : BitVec 1 := Scalar.cmpi .slt (posW c) 15#32

theorem upFlag_iff (c : Dev nD) : Scalar.cmpi .ne (Scalar.extui (upW c) : BitVec 32) 0#32 = 1#1 ↔ hasUp c := by revert c; decide +kernel
theorem dnFlag_iff (c : Dev nD) : Scalar.cmpi .ne (Scalar.extui (dnW c) : BitVec 32) 0#32 = 1#1 ↔ hasDn c := by revert c; decide +kernel
theorem isFirst_iff (c : Dev nD) : Scalar.cmpi .eq (posW c) 0#32 = 1#1 ↔ c.val = 0 := by revert c; decide +kernel
theorem isLast_iff (c : Dev nD) : Scalar.cmpi .eq (posW c) 15#32 = 1#1 ↔ c.val = 15 := by revert c; decide +kernel

/-- The printed device chains: both signals and both rows go to the ring neighbours. -/
theorem dev1_val : ∀ c : Dev nD, k0_cond1 c = 1#1 → k0_dev1 c = (prv c).val := by decide +kernel
theorem dev2_val : ∀ c : Dev nD, k0_cond2 c = 1#1 → k0_dev2 c = (nxt c).val := by decide +kernel
theorem dev3_val : ∀ c : Dev nD, k0_cond5 c = 1#1 → k0_dev3 c = (prv c).val := by decide +kernel
theorem dev4_val : ∀ c : Dev nD, k0_cond6 c = 1#1 → k0_dev4 c = (nxt c).val := by decide +kernel
theorem dev1_eq (c : Dev nD) (h : k0_cond1 c = 1#1) : (⟨k0_dev1 c, k0_dev1_lt c h⟩ : Dev nD) = prv c := Fin.ext (dev1_val c h)
theorem dev2_eq (c : Dev nD) (h : k0_cond2 c = 1#1) : (⟨k0_dev2 c, k0_dev2_lt c h⟩ : Dev nD) = nxt c := Fin.ext (dev2_val c h)
theorem dev3_eq (c : Dev nD) (h : k0_cond5 c = 1#1) : (⟨k0_dev3 c, k0_dev3_lt c h⟩ : Dev nD) = prv c := Fin.ext (dev3_val c h)
theorem dev4_eq (c : Dev nD) (h : k0_cond6 c = 1#1) : (⟨k0_dev4 c, k0_dev4_lt c h⟩ : Dev nD) = nxt c := Fin.ext (dev4_val c h)

/-! ## The memrefs and cells -/

abbrev xM : Memref sig .tc .vmem S512x512 .f32 := Memref.whole cc0_stg0_0
abbrev oM : Memref sig .tc .vmem S512x512 .bf16 := Memref.whole cc0_stg1_0
/-- the landing buffer of the row above (from `prv`), of the row below (from `nxt`) -/
abbrev upM : Memref sig .tc .vmem S1x512 .f32 := Memref.whole cc0_scratch0
abbrev dnM : Memref sig .tc .vmem S1x512 .f32 := Memref.whole cc0_scratch1
/-- the device's own first and last row, as the rows it sends -/
abbrev x0M : Memref sig .tc .vmem S1x512 .f32 := xM.slice (Rect.unit (s := S512x512) ![0, 0] S1x512.size inb_S512x512_S1x512_0_0) (fun _ => rfl)
abbrev x511M : Memref sig .tc .vmem S1x512 .f32 := xM.slice (Rect.unit (s := S512x512) ![511, 0] S1x512.size inb_S512x512_S1x512_511_0) (fun _ => rfl)

abbrev barS : Sem sig := (SemArray.scalar (sig.barrier 0 rfl) : Sems sig S_).sem
abbrev s0S : DmaSem sig := ((cc0_scratch2.slice (Rect.unit (s := S2) ![0] S1.size inb_S2_S1_0)).squeeze S_ squeezes_S1_S_).sem
abbrev s1S : DmaSem sig := ((cc0_scratch2.slice (Rect.unit (s := S2) ![1] S1.size inb_S2_S1_1)).squeeze S_ squeezes_S1_S_).sem
abbrev r0S : DmaSem sig := ((cc0_scratch3.slice (Rect.unit (s := S2) ![0] S1.size inb_S2_S1_0)).squeeze S_ squeezes_S1_S_).sem
abbrev r1S : DmaSem sig := ((cc0_scratch3.slice (Rect.unit (s := S2) ![1] S1.size inb_S2_S1_1)).squeeze S_ squeezes_S1_S_).sem

theorem s0S_eq : s0S = (2 : DmaSem sig) := by decide
theorem s1S_eq : s1S = (3 : DmaSem sig) := by decide
theorem r0S_eq : r0S = (4 : DmaSem sig) := by decide
theorem r1S_eq : r1S = (5 : DmaSem sig) := by decide

abbrev barCell (c : Dev nD) : GSem nD τ sig := ((c : Thread nD τ), .reg barS)
abbrev s0Cell (c : Dev nD) : GSem nD τ sig := ((c : Thread nD τ), .dma s0S)
abbrev s1Cell (c : Dev nD) : GSem nD τ sig := ((c : Thread nD τ), .dma s1S)
abbrev r0Cell (c : Dev nD) : GSem nD τ sig := ((c : Thread nD τ), .dma r0S)
abbrev r1Cell (c : Dev nD) : GSem nD τ sig := ((c : Thread nD τ), .dma r1S)

/-- The kernel's own (scoped) semaphores as the launch indexes them; all five cells as this proof does. -/
abbrev osem : Fin 4 → SemLoc sig := fun | 0 => .dma s0S | 1 => .dma s1S | 2 => .dma r0S | 3 => .dma r1S
abbrev csem : Fin 5 → SemLoc sig := fun | 0 => .reg barS | 1 => .dma s0S | 2 => .dma s1S | 3 => .dma r0S | 4 => .dma r1S
abbrev kcell (ck : Dev nD × Fin 5) : GSem nD τ sig := ((ck.1 : Thread nD τ), csem ck.2)

abbrev N : ℕ := (upM : Memref sig .tc .vmem S1x512 .f32).view.dmaCredit
theorem N_pos : 0 < N := View.dmaCredit_pos _ (by decide)

/-! ## Contents -/

/-- Device `c`'s block of `x`, as its staging buffer holds it. -/
def xstg (c : Dev nD) : (cc0_stg0_0 : Ref sig .tc).ty.Contents (Elt F) :=
  (win0_0.blk (0 : Fin 1)).view.read (Elt F) (m ((c : Thread nD τ).loc main_arg0))

/-- What lands above: the last row of `prv c`'s block; below: the first row of `nxt c`'s. -/
def landedUp (c : Dev nD) : (cc0_scratch0 : Ref sig .tc).ty.Contents (Elt F) := (x511M : Memref sig .tc .vmem S1x512 .f32).view.read (Elt F) (xstg m (prv c))
def landedDn (c : Dev nD) : (cc0_scratch1 : Ref sig .tc).ty.Contents (Elt F) := (x0M : Memref sig .tc .vmem S1x512 .f32).view.read (Elt F) (xstg m (nxt c))

def upPts (c : Dev nD) (f : Buf (Elt F) ((upM : Memref sig .tc .vmem S1x512 .f32).view.loc (c : Thread nD τ))) : sProp 𝕄 :=
  (upM : Memref sig .tc .vmem S1x512 .f32).view.loc (c : Thread nD τ) ↦[(upM : Memref sig .tc .vmem S1x512 .f32).view.set]{fullShare} f
def dnPts (c : Dev nD) (f : Buf (Elt F) ((dnM : Memref sig .tc .vmem S1x512 .f32).view.loc (c : Thread nD τ))) : sProp 𝕄 :=
  (dnM : Memref sig .tc .vmem S1x512 .f32).view.loc (c : Thread nD τ) ↦[(dnM : Memref sig .tc .vmem S1x512 .f32).view.set]{fullShare} f
/-- The shares of its own rows a device lends to its two transfers while it goes on reading the block. -/
def x0Pts (c : Dev nD) : sProp 𝕄 :=
  (x0M : Memref sig .tc .vmem S1x512 .f32).view.loc (c : Thread nD τ) ↦[(x0M : Memref sig .tc .vmem S1x512 .f32).view.set]{fullShare.right.left} xstg m c
def x511Pts (c : Dev nD) : sProp 𝕄 :=
  (x511M : Memref sig .tc .vmem S1x512 .f32).view.loc (c : Thread nD τ) ↦[(x511M : Memref sig .tc .vmem S1x512 .f32).view.set]{fullShare.right.right} xstg m c

omit [FloatOps F] in
instance upPts_storable (c : Dev nD) (f) : BI.Storable (upEmb : UEmb _ 𝕄) (upPts (F := F) c f) := by unfold upPts; infer_instance
omit [FloatOps F] in
instance dnPts_storable (c : Dev nD) (f) : BI.Storable (upEmb : UEmb _ 𝕄) (dnPts (F := F) c f) := by unfold dnPts; infer_instance
omit [FloatOps F] in
instance x0Pts_storable (c : Dev nD) : BI.Storable (upEmb : UEmb _ 𝕄) (x0Pts (F := F) m c) := by unfold x0Pts; infer_instance
omit [FloatOps F] in
instance x511Pts_storable (c : Dev nD) : BI.Storable (upEmb : UEmb _ 𝕄) (x511Pts (F := F) m c) := by unfold x511Pts; infer_instance

/-! ## The schedule -/

/-- A barrier unit from `prv c` (duty `false`) hands `c` the buffer below `prv c` and that `prv c` is at round 0 of the
    receive cell `c`'s first row will credit; one from `nxt c` (duty `true`) the buffer above `nxt c`, likewise. -/
def barPayF (c : Dev nD) : sProp 𝕄 := iprop((∃ f, dnPts (prv c) f) ∗ reached ER (r1Cell (prv c)) 0)
def barPayT (c : Dev nD) : sProp 𝕄 := iprop((∃ f, upPts (nxt c) f) ∗ reached ER (r0Cell (nxt c)) 0)

abbrev IsBar (g : GSem nD τ sig) : Prop := g.1.2 = .tc ∧ g.2 = .reg barS
abbrev IsUpX (g : GSem nD τ sig) : Prop := g.1.2 = .tc ∧ (g.2 = .dma s0S ∨ g.2 = .dma r0S)
abbrev IsDnX (g : GSem nD τ sig) : Prop := g.1.2 = .tc ∧ (g.2 = .dma s1S ∨ g.2 = .dma r1S)

/-- One round. A barrier cell has duty `false` when the device has a neighbour above and `true` when it has one below,
    a unit each; the send and receive cells of the upward (downward) exchange one duty `false` of a row's credit when
    that neighbour exists. -/
def haloRd : Rounds.Schedule (GSem nD τ sig) Bool 𝕄 where
  duties g r :=
    if r = 0 ∧ IsBar g then (if hasUp g.1.1 then {false} else ∅) ∪ (if hasDn g.1.1 then {true} else ∅)
    else if r = 0 ∧ IsUpX g then (if hasUp g.1.1 then {false} else ∅)
    else if r = 0 ∧ IsDnX g then (if hasDn g.1.1 then {false} else ∅)
    else ∅
  unitless _ := False
  amount g _ _ := if g.2 = .reg barS then 1 else N
  payload g _ d :=
    if g.2 = .reg barS then (if d then barPayT g.1.1 else barPayF g.1.1)
    else if g.2 = .dma r0S then upPts g.1.1 (landedUp m g.1.1)
    else if g.2 = .dma r1S then dnPts g.1.1 (landedDn m g.1.1)
    else if g.2 = .dma s0S then x0Pts m g.1.1
    else if g.2 = .dma s1S then x511Pts m g.1.1
    else iprop(emp)
  amount_pos g _ _ _ := by
    by_cases h : g.2 = .reg barS
    · rw [if_pos h]; exact Nat.one_pos
    · rw [if_neg h]; exact N_pos

instance haloRd_payload_storable (g : GSem nD τ sig) (r : ℕ) (d : Bool) :
    BI.Storable (upEmb : UEmb _ 𝕄) ((haloRd (F := F) m).payload g r d) := by
  show BI.Storable upEmb (if g.2 = .reg barS then (if d then barPayT g.1.1 else barPayF g.1.1)
    else if g.2 = .dma r0S then upPts g.1.1 (landedUp m g.1.1)
    else if g.2 = .dma r1S then dnPts g.1.1 (landedDn m g.1.1)
    else if g.2 = .dma s0S then x0Pts m g.1.1
    else if g.2 = .dma s1S then x511Pts m g.1.1
    else iprop(emp))
  unfold barPayT barPayF
  (repeat' split) <;> infer_instance

end Cert.KernelIdeal.Halo

end
-- ==== Proof.OutSpec.lean ====
/-
  The kernel's result on one device as ONE function of the device's block and the two halo rows.
  The body writes the result block by four read-modify-write stores (rows 0..255 with rows 1..255 replaced, rows
  256..511 with rows 256..510 replaced, rows 0..1 with row 0 replaced, rows 510..511 with row 511 replaced); whatever
  the block held before, every row is replaced exactly once at the end: row 0 by the top row's value, rows 1..255 and
  256..510 by the two interior slabs, row 511 by the bottom row's value.
-/
import proofs.«900541_g7700000000000542_dist_halo_stencil_i_m512_n512_v7x_i16_bf16_1_alg».proof.Proof.Gen.KernelIdeal
import proofs.«900541_g7700000000000542_dist_halo_stencil_i_m512_n512_v7x_i16_bf16_1_alg».proof.Proof.Gen.KernelIdeal.Skeleton
import Idealize.ShloMosaic.Lib.Pipeline.Value
import Idealize.ShloMosaic.Lib.ValueIdx

noncomputable section

namespace Cert.KernelIdeal.OutSpec

open Cert.KernelIdeal Cert.KernelIdeal.Gen
open Idealize.ShloMosaic Idealize.ShloMosaic.TcCoe Idealize.SL.Sem

variable {F : FTy → Type} [FloatOps F]

abbrev xM : Memref sig .tc .vmem S512x512 .f32 := Memref.whole cc0_stg0_0
abbrev oM : Memref sig .tc .vmem S512x512 .bf16 := Memref.whole cc0_stg1_0
abbrev upM : Memref sig .tc .vmem S1x512 .f32 := Memref.whole cc0_scratch0
abbrev dnM : Memref sig .tc .vmem S1x512 .f32 := Memref.whole cc0_scratch1

abbrev XC := (cc0_stg0_0 : Ref sig .tc).ty.Contents (Elt F)
abbrev OC := (cc0_stg1_0 : Ref sig .tc).ty.Contents (Elt F)
abbrev HC := (cc0_scratch0 : Ref sig .tc).ty.Contents (Elt F)

/-! ## The four stores, as functions of the block's contents -/

abbrev RA : Rect S512x512 := Rect.unit (s := S512x512) ![0, 0] S256x512.size inb_S512x512_S256x512_0_0
abbrev RB : Rect S512x512 := Rect.unit (s := S512x512) ![256, 0] S256x512.size inb_S512x512_S256x512_256_0
abbrev RT : Rect S512x512 := Rect.unit (s := S512x512) ![0, 0] S2x512.size inb_S512x512_S2x512_0_0
abbrev RL : Rect S512x512 := Rect.unit (s := S512x512) ![510, 0] S2x512.size inb_S512x512_S2x512_510_0

def stA (p : FVec F S255x512 .bf16) (g : OC (F := F)) : OC (F := F) :=
  ((oM : Memref sig .tc .vmem S512x512 .bf16).access RA : View sig .tc _ _ _).write (Elt F) g
    (updateSlice ((oM : Memref sig .tc .vmem S512x512 .bf16).view.readAt (Elt F) RA.toLoadRect g) p ![1, 0] slices_S256x512_S255x512_1_0) Finset.univ
def stB (p : FVec F S255x512 .bf16) (g : OC (F := F)) : OC (F := F) :=
  ((oM : Memref sig .tc .vmem S512x512 .bf16).access RB : View sig .tc _ _ _).write (Elt F) g
    (updateSlice ((oM : Memref sig .tc .vmem S512x512 .bf16).view.readAt (Elt F) RB.toLoadRect g) p ![0, 0] slices_S256x512_S255x512_0_0) Finset.univ
def stT (p : FVec F S1x512 .bf16) (g : OC (F := F)) : OC (F := F) :=
  ((oM : Memref sig .tc .vmem S512x512 .bf16).access RT : View sig .tc _ _ _).write (Elt F) g
    (updateSlice ((oM : Memref sig .tc .vmem S512x512 .bf16).view.readAt (Elt F) RT.toLoadRect g) p ![0, 0] slices_S2x512_S1x512_0_0) Finset.univ
def stL (p : FVec F S1x512 .bf16) (g : OC (F := F)) : OC (F := F) :=
  ((oM : Memref sig .tc .vmem S512x512 .bf16).access RL : View sig .tc _ _ _).write (Elt F) g
    (updateSlice ((oM : Memref sig .tc .vmem S512x512 .bf16).view.readAt (Elt F) RL.toLoadRect g) p ![1, 0] slices_S2x512_S1x512_1_0) Finset.univ

/-- The block every row of which has been replaced: the function the four stores leave. -/
def outFn (pA pB : FVec F S255x512 .bf16) (pT pL : FVec F S1x512 .bf16) : OC (F := F) := fun i =>
  if h0 : (i 0).val = 0 then pT (ValueIdx.ix2 (0 : Fin 1) (i 1))
  else if h1 : (i 0).val ≤ 255 then pA (ValueIdx.ix2 (⟨(i 0).val - 1, by omega⟩ : Fin 255) (i 1))
  else if h2 : (i 0).val ≤ 510 then pB (ValueIdx.ix2 (⟨(i 0).val - 256, by omega⟩ : Fin 255) (i 1))
  else pL (ValueIdx.ix2 (0 : Fin 1) (i 1))

open ValueIdx in
/-- A block with some rows replaced, read at an index: the update's row inside the replaced rows, the old block elsewhere. -/
theorem updateSlice_ix2 {α : Type} {n m c : ℕ} (s0 : ℕ) (hs : (⟨2, ![n, c]⟩ : Shape).Slices ![s0, 0] ⟨2, ![m, c]⟩)
    (x : (⟨2, ![n, c]⟩ : Shape).Idx → α) (p : (⟨2, ![m, c]⟩ : Shape).Idx → α) (a : Fin n) (j : Fin c) :
    updateSlice x p ![s0, 0] hs (ix2 a j)
      = if h : s0 ≤ a.val ∧ a.val < s0 + m then p (ix2 (⟨a.val - s0, by omega⟩ : Fin m) j) else x (ix2 a j) := by
  unfold updateSlice
  by_cases h : s0 ≤ a.val ∧ a.val < s0 + m
  · have hin : ∀ b : Fin 2, (![s0, 0] : Fin 2 → ℕ) b ≤ ((ix2 a j : (⟨2, ![n, c]⟩ : Shape).Idx) b).val
        ∧ ((ix2 a j : (⟨2, ![n, c]⟩ : Shape).Idx) b).val < (![s0, 0] : Fin 2 → ℕ) b + (![m, c] : Fin 2 → ℕ) b := by
      intro b
      match b with
      | ⟨0, _⟩ => exact h
      | ⟨1, _⟩ => exact ⟨Nat.zero_le _, by show j.val < 0 + c; have := j.isLt; omega⟩
    rw [dif_pos h]
    refine (dif_pos hin).trans ?_
    refine congrArg p (funext fun b => Fin.ext ?_)
    match b with
    | ⟨0, _⟩ => rfl
    | ⟨1, _⟩ => rfl
  · have hin : ¬ ∀ b : Fin 2, (![s0, 0] : Fin 2 → ℕ) b ≤ ((ix2 a j : (⟨2, ![n, c]⟩ : Shape).Idx) b).val
        ∧ ((ix2 a j : (⟨2, ![n, c]⟩ : Shape).Idx) b).val < (![s0, 0] : Fin 2 → ℕ) b + (![m, c] : Fin 2 → ℕ) b :=
      fun hall => h (hall 0)
    rw [dif_neg h]
    exact dif_neg hin

open ValueIdx in
/-- One read-modify-write store of `m` rows at row `k + s0`, through the rectangle of `n` rows at row `k`, read at
    an index: the payload's row inside the replaced rows, the old contents elsewhere. -/
theorem store_apply {n m : ℕ} (k s0 : ℕ)
    (inb : ∀ a, (![k, 0] : Fin 2 → Nat) a + (⟨2, ![n, 512]⟩ : Shape).size a ≤ S512x512.size a)
    (hs : (⟨2, ![n, 512]⟩ : Shape).Slices ![s0, 0] ⟨2, ![m, 512]⟩)
    (p : FVec F ⟨2, ![m, 512]⟩ .bf16) (g : OC (F := F)) (r : Fin 512) (j : Fin 512) :
    (((oM : Memref sig .tc .vmem S512x512 .bf16).access (Rect.unit (s := S512x512) ![k, 0] (⟨2, ![n, 512]⟩ : Shape).size inb) : View sig .tc _ _ _).write (Elt F) g
      (updateSlice ((oM : Memref sig .tc .vmem S512x512 .bf16).view.readAt (Elt F) (Rect.unit (s := S512x512) ![k, 0] (⟨2, ![n, 512]⟩ : Shape).size inb).toLoadRect g) p ![s0, 0] hs) Finset.univ) (ix2 r j)
    = if h : k + s0 ≤ r.val ∧ r.val < k + s0 + m then p (ix2 (⟨r.val - (k + s0), by omega⟩ : Fin m) j) else g (ix2 r j) := by
  have hn : k + n ≤ 512 := inb 0
  have hm : s0 + m ≤ n := hs.2 0
  by_cases hr : k ≤ r.val ∧ r.val < k + n
  · -- the index is the image of the rectangle's own index (r - k, j)
    have hx : ((oM : Memref sig .tc .vmem S512x512 .bf16).access (Rect.unit (s := S512x512) ![k, 0] (⟨2, ![n, 512]⟩ : Shape).size inb) : View sig .tc _ _ _).emb
        (ix2 (⟨r.val - k, by omega⟩ : Fin n) j) = ix2 r j := by
      funext a; apply Fin.ext
      match a with
      | ⟨0, _⟩ => show k + 1 * (r.val - k) = r.val; omega
      | ⟨1, _⟩ => show 0 + 1 * j.val = j.val; omega
    conv_lhs => rw [← hx]
    rw [View.write_emb_of_mem _ _ (Finset.mem_univ _), cast_eq, updateSlice_ix2]
    by_cases h : k + s0 ≤ r.val ∧ r.val < k + s0 + m
    · rw [dif_pos h, dif_pos (show s0 ≤ r.val - k ∧ r.val - k < s0 + m by omega)]
      refine congrArg p (congrArg (fun a => ix2 a j) (Fin.ext ?_))
      show r.val - k - s0 = r.val - (k + s0); omega
    · rw [dif_neg h, dif_neg (show ¬ (s0 ≤ r.val - k ∧ r.val - k < s0 + m) by omega)]
      rw [View.readAt_apply, View.read_apply, cast_eq]
      exact congrArg g hx
  · -- outside the rectangle nothing is written
    have hne : ∀ x, ((oM : Memref sig .tc .vmem S512x512 .bf16).access (Rect.unit (s := S512x512) ![k, 0] (⟨2, ![n, 512]⟩ : Shape).size inb) : View sig .tc _ _ _).emb x ≠ ix2 r j := by
      intro x hx
      have h0 := congrArg (fun i : S512x512.Idx => (i 0).val) hx
      have hlt : (x 0).val < n := (x 0).isLt
      have h0' : k + 1 * (x 0).val = r.val := h0
      omega
    unfold View.write
    rw [preimage?_eq_none hne]
    rw [dif_neg (by omega)]

open ValueIdx in
/-- `outFn` read at coordinates. -/
theorem outFn_ix2 (pA pB : FVec F S255x512 .bf16) (pT pL : FVec F S1x512 .bf16) (r j : Fin 512) :
    outFn pA pB pT pL (ix2 r j) =
      if h0 : r.val = 0 then pT (ix2 (0 : Fin 1) j)
      else if h1 : r.val ≤ 255 then pA (ix2 (⟨r.val - 1, by omega⟩ : Fin 255) j)
      else if h2 : r.val ≤ 510 then pB (ix2 (⟨r.val - 256, by omega⟩ : Fin 255) j)
      else pL (ix2 (0 : Fin 1) j) := rfl

/-- Whatever the block held, after the four stores it is `outFn`. -/
theorem stores_eq (pA pB : FVec F S255x512 .bf16) (pT pL : FVec F S1x512 .bf16) (g : OC (F := F)) :
    stL pL (stT pT (stB pB (stA pA g))) = outFn pA pB pT pL := by
  funext i
  obtain ⟨r, j, rfl⟩ : ∃ (r j : Fin 512), i = ValueIdx.ix2 r j := ⟨i 0, i 1, ValueIdx.eq_ix2 (n0 := 512) (n1 := 512) i⟩
  rw [outFn_ix2]
  unfold stL
  refine (store_apply (n := 2) (m := 1) 510 1 inb_S512x512_S2x512_510_0 slices_S2x512_S1x512_1_0 pL _ r j).trans ?_
  by_cases hL : 510 + 1 ≤ r.val ∧ r.val < 510 + 1 + 1
  · rw [dif_pos hL, dif_neg (show ¬ r.val = 0 by omega), dif_neg (show ¬ r.val ≤ 255 by omega),
      dif_neg (show ¬ r.val ≤ 510 by omega)]
    exact congrArg pL (congrArg (fun a => ValueIdx.ix2 a j) (Fin.ext (by show r.val - (510 + 1) = 0; omega)))
  rw [dif_neg hL]
  unfold stT
  refine (store_apply (n := 2) (m := 1) 0 0 inb_S512x512_S2x512_0_0 slices_S2x512_S1x512_0_0 pT _ r j).trans ?_
  by_cases hT : 0 + 0 ≤ r.val ∧ r.val < 0 + 0 + 1
  · rw [dif_pos hT, dif_pos (show r.val = 0 by omega)]
    exact congrArg pT (congrArg (fun a => ValueIdx.ix2 a j) (Fin.ext (by show r.val - (0 + 0) = 0; omega)))
  rw [dif_neg hT, dif_neg (show ¬ r.val = 0 by omega)]
  unfold stB
  refine (store_apply (n := 256) (m := 255) 256 0 inb_S512x512_S256x512_256_0 slices_S256x512_S255x512_0_0 pB _ r j).trans ?_
  by_cases hB : 256 + 0 ≤ r.val ∧ r.val < 256 + 0 + 255
  · rw [dif_pos hB, dif_neg (show ¬ r.val ≤ 255 by omega), dif_pos (show r.val ≤ 510 by omega)]
  rw [dif_neg hB]
  unfold stA
  refine (store_apply (n := 256) (m := 255) 0 1 inb_S512x512_S256x512_0_0 slices_S256x512_S255x512_1_0 pA _ r j).trans ?_
  rw [dif_pos (show 0 + 1 ≤ r.val ∧ r.val < 0 + 1 + 255 by omega), dif_pos (show r.val ≤ 255 by omega)]

/-! ## The result block from the device's block and its two halo rows -/

abbrev ld255 (k : ℕ) (h : ∀ a, (![k, 0] : Fin 2 → Nat) a + S255x512.size a ≤ S512x512.size a) (X : XC (F := F)) : Vec F S255x512 .f32 :=
  (xM : Memref sig .tc .vmem S512x512 .f32).view.readAt (Elt F) (Rect.unit (s := S512x512) ![k, 0] S255x512.size h).toLoadRect X
abbrev ld1 (k : ℕ) (h : ∀ a, (![k, 0] : Fin 2 → Nat) a + S1x512.size a ≤ S512x512.size a) (X : XC (F := F)) : Vec F S1x512 .f32 :=
  (xM : Memref sig .tc .vmem S512x512 .f32).view.readAt (Elt F) (Rect.unit (s := S512x512) ![k, 0] S1x512.size h).toLoadRect X
abbrev ldUp (u : HC (F := F)) : Vec F S1x512 .f32 :=
  (upM : Memref sig .tc .vmem S1x512 .f32).view.readAt (Elt F) (Rect.unit (s := S1x512) ![0, 0] S1x512.size inb_S1x512_S1x512_0_0).toLoadRect u
abbrev ldDn (d : (cc0_scratch1 : Ref sig .tc).ty.Contents (Elt F)) : Vec F S1x512 .f32 :=
  (dnM : Memref sig .tc .vmem S1x512 .f32).view.readAt (Elt F) (Rect.unit (s := S1x512) ![0, 0] S1x512.size inb_S1x512_S1x512_0_0).toLoadRect d

/-- The two interior slabs, the top row and the bottom row as the body computes them from its loads. -/
def slabA (X : XC (F := F)) : FVec F S255x512 .bf16 :=
  k0_pay1 (ld255 0 inb_S512x512_S255x512_0_0 X) (ld255 1 inb_S512x512_S255x512_1_0 X) (ld255 2 inb_S512x512_S255x512_2_0 X)
def slabB (X : XC (F := F)) : FVec F S255x512 .bf16 :=
  k0_pay2 (ld255 255 inb_S512x512_S255x512_255_0 X) (ld255 256 inb_S512x512_S255x512_256_0 X) (ld255 257 inb_S512x512_S255x512_257_0 X)
def rowTop (pos : BitVec 32) (X : XC (F := F)) (u : HC (F := F)) : FVec F S1x512 .bf16 :=
  k0_pay6 (Scalar.cmpi .eq pos 0#32) (k0_pay3 (ld1 0 inb_S512x512_S1x512_0_0 X)) (k0_pay4 (ldUp u)) (k0_pay5 (ld1 0 inb_S512x512_S1x512_0_0 X))
    (Scalar.ofBits .f32 0x3F000000#32) (ld1 1 inb_S512x512_S1x512_1_0 X)
def rowBot (pos : BitVec 32) (X : XC (F := F)) (d : (cc0_scratch1 : Ref sig .tc).ty.Contents (Elt F)) : FVec F S1x512 .bf16 :=
  k0_pay7 pos (ld1 511 inb_S512x512_S1x512_511_0 X) (ld1 510 inb_S512x512_S1x512_510_0 X) (ld1 511 inb_S512x512_S1x512_511_0 X) (ldDn d)

/-- The result block of the device at position word `pos`. -/
def outOf (pos : BitVec 32) (X : XC (F := F)) (u : HC (F := F)) (d : (cc0_scratch1 : Ref sig .tc).ty.Contents (Elt F)) : OC (F := F) :=
  outFn (slabA X) (slabB X) (rowTop pos X u) (rowBot pos X d)

/-- On the first device the top row does not depend on what the buffer above holds; on the last the bottom row not on the buffer below. -/
theorem rowTop_first (X : XC (F := F)) (u u' : HC (F := F)) : rowTop 0#32 X u = rowTop 0#32 X u' := by
  have hc : Scalar.cmpi .eq (0#32 : BitVec 32) 0#32 = 1#1 := by decide
  unfold rowTop k0_pay6
  simp only [hc, ValueIdx.select_one]
theorem rowBot_last (X : XC (F := F)) (d d' : (cc0_scratch1 : Ref sig .tc).ty.Contents (Elt F)) : rowBot 15#32 X d = rowBot 15#32 X d' := by
  have hc : Scalar.cmpi .eq (15#32 : BitVec 32) 15#32 = 1#1 := by decide
  unfold rowBot k0_pay7
  simp only [hc, ValueIdx.select_one]

/-- info: 'Cert.KernelIdeal.OutSpec.stores_eq' depends on axioms: [propext, Classical.choice, Quot.sound] -/
#guard_msgs in #print axioms stores_eq

/-- info: 'Cert.KernelIdeal.OutSpec.rowTop_first' depends on axioms: [propext, Classical.choice, Quot.sound] -/
#guard_msgs in #print axioms rowTop_first

/-- info: 'Cert.KernelIdeal.OutSpec.rowBot_last' depends on axioms: [propext, Classical.choice, Quot.sound] -/
#guard_msgs in #print axioms rowBot_last

end Cert.KernelIdeal.OutSpec

end
-- ==== Proof.Data.lean ====
/-
  What each device owes at launch, the levels that order the waits, the proof data of the one pipeline point and
  the resources a device's body starts from and ends with.  A device owes each existing neighbour one barrier unit and
  the credit of the row it sends it; barrier cells sit at level 1 and receive cells at level 2, so that a device may
  wait on its barrier while it still owes its rows, and on everything else only when it owes nothing above.
-/
import proofs.«900541_g7700000000000542_dist_halo_stencil_i_m512_n512_v7x_i16_bf16_1_alg».proof.Proof.Proto
import proofs.«900541_g7700000000000542_dist_halo_stencil_i_m512_n512_v7x_i16_bf16_1_alg».proof.Proof.OutSpec

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What each core owes at launch; the levels -/

def Oup (c : Dev nD) : CellTallies nD τ sig Unit := tallyAt (r1Cell (prv c)) () N + tallyAt (barCell (prv c)) () 1
def Odn (c : Dev nD) : CellTallies nD τ sig Unit := tallyAt (r0Cell (nxt c)) () N + tallyAt (barCell (nxt c)) () 1
def O₀ (c : Dev nD) : CellTallies nD τ sig Unit := (if hasUp c then Oup c else 0) + (if hasDn c then Odn c else 0)

def L (g : GSem nD τ sig) : Finset Unit := if g.1.2 = .tc then {()} else ∅
/-- barrier cells at 1, receive cells at 2, everything else (staging, send) at 0. -/
def lv (g : GSem nD τ sig) (_ : Unit) : ℕ := if g.2 = .reg barS then 1 else if g.2 = .dma r0S ∨ g.2 = .dma r1S then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## The pipeline's proof data -/

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The kernel's result on device `c`: the stencil of its block with the row above from `prv c` and the row below
    from `nxt c`, the first and the last device keeping their outer row. -/
def outAt (c : Dev nD) : (cc0_stg1_0 : Ref sig .tc).ty.Contents (Elt F) :=
  OutSpec.outOf (posW c) (xstg m c) (landedUp m c) (landedDn m c)

/-- The cells' invariants device `c`'s body opens, under the names `K` the launch allocated them at: its own five, both
    neighbours' barrier cells (its signals), and the receive cells its two rows credit. -/
def invs (K : Dev nD × Fin 5 → ℕ) (c : Dev nD) : sProp 𝕄 :=
  iprop(cellInv ER (haloRd m) (K (c, 0)) (barCell c) ∗ cellInv ER (haloRd m) (K (c, 1)) (s0Cell c) ∗ cellInv ER (haloRd m) (K (c, 2)) (s1Cell c)
    ∗ cellInv ER (haloRd m) (K (c, 3)) (r0Cell c) ∗ cellInv ER (haloRd m) (K (c, 4)) (r1Cell c)
    ∗ cellInv ER (haloRd m) (K (prv c, 0)) (barCell (prv c)) ∗ cellInv ER (haloRd m) (K (nxt c, 0)) (barCell (nxt c))
    ∗ cellInv ER (haloRd m) (K (prv c, 4)) (r1Cell (prv c)) ∗ cellInv ER (haloRd m) (K (nxt c, 3)) (r0Cell (nxt c)))

instance invs_persistent (K : Dev nD × Fin 5 → ℕ) (c : Dev nD) : BI.Persistent (invs m K c) := by unfold invs; infer_instance

/-- The marks that round 0 is reached, of every cell the body pays or waits on. -/
def marks (c : Dev nD) : sProp 𝕄 :=
  iprop(reached ER (barCell (prv c)) 0 ∗ reached ER (barCell (nxt c)) 0 ∗ reached ER (r1Cell (prv c)) 0 ∗ reached ER (r0Cell (nxt c)) 0
    ∗ reached ER (s0Cell c) 0 ∗ reached ER (s1Cell c) 0 ∗ reached ER (r0Cell c) 0 ∗ reached ER (r1Cell c) 0)

instance marks_persistent (c : Dev nD) : BI.Persistent (marks (F := F) c) := by unfold marks; infer_instance

/-- The tokens of the duties device `c` pays: `prv c`'s barrier duty `true` and `nxt c`'s `false` (its two signals), the
    receive duties of the two rows it sends, and its own two send duties. (At an end of the line the tokens towards
    the missing neighbour are of no duty and are never used.) -/
def payToks (c : Dev nD) : sProp 𝕄 :=
  iprop(dutyTok ER (barCell (prv c)) 0 true ∗ dutyTok ER (barCell (nxt c)) 0 false
    ∗ dutyTok ER (r1Cell (prv c)) 0 false ∗ dutyTok ER (r0Cell (nxt c)) 0 false
    ∗ dutyTok ER (s0Cell c) 0 false ∗ dutyTok ER (s1Cell c) 0 false)

/-- Its positions: round 0 of its five cells, nothing taken. -/
def poss (c : Dev nD) : sProp 𝕄 :=
  iprop(atPos ER (barCell c) 0 ∅ 0 ∗ atPos ER (s0Cell c) 0 ∅ 0 ∗ atPos ER (s1Cell c) 0 ∅ 0 ∗ atPos ER (r0Cell c) 0 ∅ 0 ∗ atPos ER (r1Cell c) 0 ∅ 0)

def ghost (K : Dev nD × Fin 5 → ℕ) (c : Dev nD) : sProp 𝕄 :=
  iprop(invs m K c ∗ marks c ∗ poss c ∗ payToks c)

/-- The units its neighbours will signal on its barrier. -/
abbrev nbar (c : Dev nD) : ℕ := (if hasUp c then 1 else 0) + (if hasDn c then 1 else 0)

/-- The credit tokens dealt at launch: the barrier's units, and a row's credit on each receive cell that has a duty. -/
def creds (c : Dev nD) : sProp 𝕄 :=
  iprop(cred (tallyAt (barCell c) () (nbar c)) ∗ (if hasUp c then cred (tallyAt (r0Cell c) () N) else emp)
    ∗ (if hasDn c then cred (tallyAt (r1Cell c) () N) else emp))

/-- What device `c`'s body starts from. -/
def start (c : Dev nD) : sProp 𝕄 :=
  iprop((∃ K, ghost m K c) ∗ creds c ∗ levAts L lv)

def Φ₀ (c : Dev nD) : sProp 𝕄 := iprop(start m c ∗ (∃ f, upPts c f) ∗ (∃ f, dnPts c f))
/-- After the point: the two landing buffers at some contents, the four own cells at zero, closed. -/
def Φ₁ (c : Dev nD) : sProp 𝕄 :=
  iprop((∃ f, upPts (F := F) c f) ∗ (∃ f, dnPts (F := F) c f)
    ∗ semVal (s0Cell c) 0 ∗ semVal (s1Cell c) 0 ∗ semVal (r0Cell c) 0 ∗ semVal (r1Cell c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body is run from, and to. -/
def bodyPre (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ (F := F) c ∗ (dats m 0 c).owesAt () t₀.succ ∗ stg c cc0_stg0_0 (xstg m c) ∗ stg c cc0_stg1_0 (outAt m c))

end Cert.KernelIdeal.Halo

end
-- ==== Proof.Tables.lean ====
/-
  The schedule read off cell by cell: which duties a cell has (by whether the device has the neighbour), their
  amounts, what a round expects, and what each duty hands over.
-/
import proofs.«900541_g7700000000000542_dist_halo_stencil_i_m512_n512_v7x_i16_bf16_1_alg».proof.Proof.Data

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem dma_ne_bar (q : DmaSem sig) : (SemLoc.dma q : SemLoc sig) ≠ .reg barS := fun h => by cases h
theorem s0_ne_s1 : (SemLoc.dma s0S : SemLoc sig) ≠ .dma s1S := by decide
theorem s0_ne_r0 : (SemLoc.dma s0S : SemLoc sig) ≠ .dma r0S := by decide
theorem s0_ne_r1 : (SemLoc.dma s0S : SemLoc sig) ≠ .dma r1S := by decide
theorem s1_ne_s0 : (SemLoc.dma s1S : SemLoc sig) ≠ .dma s0S := by decide
theorem s1_ne_r0 : (SemLoc.dma s1S : SemLoc sig) ≠ .dma r0S := by decide
theorem s1_ne_r1 : (SemLoc.dma s1S : SemLoc sig) ≠ .dma r1S := by decide
theorem r0_ne_s0 : (SemLoc.dma r0S : SemLoc sig) ≠ .dma s0S := by decide
theorem r0_ne_s1 : (SemLoc.dma r0S : SemLoc sig) ≠ .dma s1S := by decide
theorem r0_ne_r1 : (SemLoc.dma r0S : SemLoc sig) ≠ .dma r1S := by decide
theorem r1_ne_s0 : (SemLoc.dma r1S : SemLoc sig) ≠ .dma s0S := by decide
theorem r1_ne_s1 : (SemLoc.dma r1S : SemLoc sig) ≠ .dma s1S := by decide
theorem r1_ne_r0 : (SemLoc.dma r1S : SemLoc sig) ≠ .dma r0S := by decide

section Sched
variable (c : Dev nD)

omit [FloatOps F] in
theorem duties_bar : (haloRd (F := F) m).duties (barCell c) 0 = (if hasUp c then {false} else ∅) ∪ (if hasDn c then {true} else ∅) := by
  dsimp only [haloRd]; exact if_pos ⟨rfl, rfl, rfl⟩
omit [FloatOps F] in
theorem duties_bar_both (hu : hasUp c) (hd : hasDn c) : (haloRd (F := F) m).duties (barCell c) 0 = Finset.univ := by
  rw [duties_bar, if_pos hu, if_pos hd]; decide
omit [FloatOps F] in
theorem duties_bar_dn (hu : ¬ hasUp c) (hd : hasDn c) : (haloRd (F := F) m).duties (barCell c) 0 = {true} := by
  rw [duties_bar, if_neg hu, if_pos hd]; rfl
omit [FloatOps F] in
theorem duties_bar_up (hu : hasUp c) (hd : ¬ hasDn c) : (haloRd (F := F) m).duties (barCell c) 0 = {false} := by
  rw [duties_bar, if_pos hu, if_neg hd]; rfl

omit [FloatOps F] in
theorem duties_s0 : (haloRd (F := F) m).duties (s0Cell c) 0 = if hasUp c then {false} else ∅ := by
  dsimp only [haloRd]; rw [if_neg (fun h => dma_ne_bar _ h.2.2)]; exact if_pos ⟨rfl, rfl, .inl rfl⟩
omit [FloatOps F] in
theorem duties_r0 : (haloRd (F := F) m).duties (r0Cell c) 0 = if hasUp c then {false} else ∅ := by
  dsimp only [haloRd]; rw [if_neg (fun h => dma_ne_bar _ h.2.2)]; exact if_pos ⟨rfl, rfl, .inr rfl⟩
omit [FloatOps F] in
theorem duties_s1 : (haloRd (F := F) m).duties (s1Cell c) 0 = if hasDn c then {false} else ∅ := by
  dsimp only [haloRd]; rw [if_neg (fun h => dma_ne_bar _ h.2.2), if_neg (fun h => h.2.2.elim s1_ne_s0 s1_ne_r0)]; exact if_pos ⟨rfl, rfl, .inl rfl⟩
omit [FloatOps F] in
theorem duties_r1 : (haloRd (F := F) m).duties (r1Cell c) 0 = if hasDn c then {false} else ∅ := by
  dsimp only [haloRd]; rw [if_neg (fun h => dma_ne_bar _ h.2.2), if_neg (fun h => h.2.2.elim r1_ne_s0 r1_ne_r0)]; exact if_pos ⟨rfl, rfl, .inr rfl⟩

omit [FloatOps F] in
theorem duties_later (g : GSem nD τ sig) : ∀ r, 1 ≤ r → (haloRd (F := F) m).duties g r = ∅ :=
  fun r hr => by dsimp only [haloRd]; rw [if_neg fun h => by omega, if_neg fun h => by omega, if_neg fun h => by omega]

omit [FloatOps F] in
theorem amount_bar (d : Bool) : (haloRd (F := F) m).amount (barCell c) 0 d = 1 := by dsimp only [haloRd]; exact if_pos rfl
omit [FloatOps F] in
theorem amount_dma (q : DmaSem sig) (d : Bool) : (haloRd (F := F) m).amount ((c : Thread nD τ), .dma q) 0 d = N := by
  dsimp only [haloRd]; exact if_neg (dma_ne_bar q)

omit [FloatOps F] in
theorem payload_bar_true : (haloRd (F := F) m).payload (barCell c) 0 true = barPayT c := by dsimp only [haloRd]; rw [if_pos rfl, if_pos rfl]
omit [FloatOps F] in
theorem payload_bar_false : (haloRd (F := F) m).payload (barCell c) 0 false = barPayF c := by
  dsimp only [haloRd]; rw [if_pos rfl]; exact if_neg Bool.false_ne_true
omit [FloatOps F] in
theorem payload_r0 (d : Bool) : (haloRd (F := F) m).payload (r0Cell c) 0 d = upPts c (landedUp m c) := by
  dsimp only [haloRd]; rw [if_neg (dma_ne_bar _), if_pos rfl]
omit [FloatOps F] in
theorem payload_r1 (d : Bool) : (haloRd (F := F) m).payload (r1Cell c) 0 d = dnPts c (landedDn m c) := by
  dsimp only [haloRd]; rw [if_neg (dma_ne_bar _), if_neg r1_ne_r0, if_pos rfl]
omit [FloatOps F] in
theorem payload_s0 (d : Bool) : (haloRd (F := F) m).payload (s0Cell c) 0 d = x0Pts m c := by
  dsimp only [haloRd]; rw [if_neg (dma_ne_bar _), if_neg s0_ne_r0, if_neg s0_ne_r1, if_pos rfl]
omit [FloatOps F] in
theorem payload_s1 (d : Bool) : (haloRd (F := F) m).payload (s1Cell c) 0 d = x511Pts m c := by
  dsimp only [haloRd]; rw [if_neg (dma_ne_bar _), if_neg s1_ne_r0, if_neg s1_ne_r1, if_neg s1_ne_s0, if_pos rfl]

omit [FloatOps F] in
theorem expect_bar : (haloRd (F := F) m).expect (barCell c) 0 = nbar c := by
  unfold Schedule.expect Schedule.amountOf
  rw [duties_bar, Finset.sum_congr rfl fun d _ => amount_bar m c d, Finset.sum_const, smul_eq_mul, Nat.mul_one]
  by_cases hu : hasUp c <;> by_cases hd : hasDn c <;> simp only [nbar, hu, hd, if_true, if_false] <;> decide
omit [FloatOps F] in
theorem expect_dma (q : DmaSem sig) (b : Prop) [Decidable b]
    (hq : (haloRd (F := F) m).duties ((c : Thread nD τ), .dma q) 0 = if b then {false} else ∅) :
    (haloRd (F := F) m).expect ((c : Thread nD τ), .dma q) 0 = if b then N else 0 := by
  unfold Schedule.expect Schedule.amountOf
  rw [hq]
  split
  · rw [Finset.sum_singleton, amount_dma]
  · rfl

end Sched

end Cert.KernelIdeal.Halo

end
-- ==== Proof.Levels.lean ====
/-
  The order of the waits: a device may wait on its barrier cell (level 1) while all it still owes lies on receive
  cells (level 2).
-/
import proofs.«900541_g7700000000000542_dist_halo_stencil_i_m512_n512_v7x_i16_bf16_1_alg».proof.Proof.Data

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem r0_ne_bar : (SemLoc.dma r0S : SemLoc sig) ≠ .reg barS := fun h => by cases h
theorem r1_ne_bar : (SemLoc.dma r1S : SemLoc sig) ≠ .reg barS := fun h => by cases h

omit [FloatOps F] in
/-- At its barrier waits a device owes only rows' credits: receive cells, level 2, above its barrier cell at 1. -/
theorem mayWait_bar (c : Dev nD) (O : CellTallies nD τ sig Unit)
    (hO : ∀ g u, 0 < O g u → g = r1Cell (prv c) ∨ g = r0Cell (nxt c)) :
    (levAts L lv : sProp 𝕄) ⊢ MayWait (c : Thread nD τ) (.reg barS) () O :=
  MayOwe.of_cut (L := L) (lev := lv) 1 (fun p hp => by rw [Finset.mem_singleton.mp hp, L_tc]; exact Finset.mem_singleton_self _)
    (fun g u hg => by rcases hO g u hg with rfl | rfl <;> exact Finset.mem_singleton_self _)
    (fun p hp => by rw [Finset.mem_singleton.mp hp]; dsimp only [lv]; rw [if_pos rfl])
    (fun g u hg => by
      rcases hO g u hg with rfl | rfl
      · dsimp only [lv]; rw [if_neg r1_ne_bar, if_pos (Or.inr rfl)]; decide
      · dsimp only [lv]; rw [if_neg r0_ne_bar, if_pos (Or.inl rfl)]; decide)

end Cert.KernelIdeal.Halo

end
-- ==== Proof.BodyTables.lean ====
/-
  The schedule's tables at the cells one device's body touches, the neighbours' cells resolved back to the device,
  and the two rows' transfers as applications of the library's send rule.
-/
import proofs.«900541_g7700000000000542_dist_halo_stencil_i_m512_n512_v7x_i16_bf16_1_alg».proof.Proof.Tables
import proofs.«900541_g7700000000000542_dist_halo_stencil_i_m512_n512_v7x_i16_bf16_1_alg».proof.Proof.Levels
import Idealize.ShloMosaic.Lib.Tactic
import Idealize.ShloMosaic.Lib.Exec

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

/-! ### The schedule's tables at the cells the body touches, the neighbours' resolved back to the device -/

omit [FloatOps F] in
theorem mem_bar_prv (c : Dev nD) (hu : hasUp c) : true ∈ (haloRd (F := F) m).duties (barCell (prv c)) 0 := by
  rw [duties_bar, if_pos (hasDn_prv hu)]; exact Finset.mem_union_right _ (Finset.mem_singleton_self _)
omit [FloatOps F] in
theorem mem_bar_nxt (c : Dev nD) (hd : hasDn c) : false ∈ (haloRd (F := F) m).duties (barCell (nxt c)) 0 := by
  rw [duties_bar, if_pos (hasUp_nxt hd)]; exact Finset.mem_union_left _ (Finset.mem_singleton_self _)
omit [FloatOps F] in
theorem mem_r1_prv (c : Dev nD) (hu : hasUp c) : false ∈ (haloRd (F := F) m).duties (r1Cell (prv c)) 0 := by
  rw [duties_r1, if_pos (hasDn_prv hu)]; exact Finset.mem_singleton_self _
omit [FloatOps F] in
theorem mem_r0_nxt (c : Dev nD) (hd : hasDn c) : false ∈ (haloRd (F := F) m).duties (r0Cell (nxt c)) 0 := by
  rw [duties_r0, if_pos (hasUp_nxt hd)]; exact Finset.mem_singleton_self _
omit [FloatOps F] in
theorem mem_s0 (c : Dev nD) (hu : hasUp c) : false ∈ (haloRd (F := F) m).duties (s0Cell c) 0 := by
  rw [duties_s0, if_pos hu]; exact Finset.mem_singleton_self _
omit [FloatOps F] in
theorem mem_s1 (c : Dev nD) (hd : hasDn c) : false ∈ (haloRd (F := F) m).duties (s1Cell c) 0 := by
  rw [duties_s1, if_pos hd]; exact Finset.mem_singleton_self _

omit [FloatOps F] in
theorem amount_bar' (c : Dev nD) (d : Bool) : (haloRd (F := F) m).amount (barCell c) 0 d = 1 := amount_bar m c d

omit [FloatOps F] in
theorem payload_bar_prv (c : Dev nD) : (haloRd (F := F) m).payload (barCell (prv c)) 0 true
    = iprop((∃ f, (upM : Memref sig .tc .vmem S1x512 .f32).view.loc (c : Thread nD τ) ↦[(upM : Memref sig .tc .vmem S1x512 .f32).view.set]{fullShare} f) ∗ reached ER (r0Cell c) 0) := by
  rw [payload_bar_true]; unfold barPayT upPts; rw [nxt_prv]
omit [FloatOps F] in
theorem payload_bar_nxt (c : Dev nD) : (haloRd (F := F) m).payload (barCell (nxt c)) 0 false
    = iprop((∃ f, (dnM : Memref sig .tc .vmem S1x512 .f32).view.loc (c : Thread nD τ) ↦[(dnM : Memref sig .tc .vmem S1x512 .f32).view.set]{fullShare} f) ∗ reached ER (r1Cell c) 0) := by
  rw [payload_bar_false]; unfold barPayF dnPts; rw [prv_nxt]
omit [FloatOps F] in
theorem payload_bar_own_true (c : Dev nD) : (haloRd (F := F) m).payload (barCell c) 0 true
    = iprop((∃ f, (upM : Memref sig .tc .vmem S1x512 .f32).view.loc (nxt c : Thread nD τ) ↦[(upM : Memref sig .tc .vmem S1x512 .f32).view.set]{fullShare} f) ∗ reached ER (r0Cell (nxt c)) 0) := by
  rw [payload_bar_true]; unfold barPayT upPts; rfl
omit [FloatOps F] in
theorem payload_bar_own_false (c : Dev nD) : (haloRd (F := F) m).payload (barCell c) 0 false
    = iprop((∃ f, (dnM : Memref sig .tc .vmem S1x512 .f32).view.loc (prv c : Thread nD τ) ↦[(dnM : Memref sig .tc .vmem S1x512 .f32).view.set]{fullShare} f) ∗ reached ER (r1Cell (prv c)) 0) := by
  rw [payload_bar_false]; unfold barPayF dnPts; rfl

omit [FloatOps F] in
theorem expect_bar_both (c : Dev nD) (hu : hasUp c) (hd : hasDn c) : (haloRd (F := F) m).expect (barCell c) 0 = 2 := by
  rw [expect_bar]; simp only [nbar, hu, hd, if_true]
omit [FloatOps F] in
theorem expect_bar_one_dn (c : Dev nD) (hu : ¬ hasUp c) (hd : hasDn c) : (haloRd (F := F) m).expect (barCell c) 0 = 1 := by
  rw [expect_bar]; simp only [nbar, hu, hd, if_true, if_false]
omit [FloatOps F] in
theorem expect_bar_one_up (c : Dev nD) (hu : hasUp c) (hd : ¬ hasDn c) : (haloRd (F := F) m).expect (barCell c) 0 = 1 := by
  rw [expect_bar]; simp only [nbar, hu, hd, if_true, if_false]

omit [FloatOps F] in
theorem payload_s0' (c : Dev nD) (d : Bool) : (haloRd (F := F) m).payload (s0Cell c) 0 d
    = ((x0M : Memref sig .tc .vmem S1x512 .f32).view.loc (c : Thread nD τ) ↦[(x0M : Memref sig .tc .vmem S1x512 .f32).view.set]{fullShare.right.left} xstg m c) := by
  rw [payload_s0]; rfl
omit [FloatOps F] in
theorem payload_s1' (c : Dev nD) (d : Bool) : (haloRd (F := F) m).payload (s1Cell c) 0 d
    = ((x511M : Memref sig .tc .vmem S1x512 .f32).view.loc (c : Thread nD τ) ↦[(x511M : Memref sig .tc .vmem S1x512 .f32).view.set]{fullShare.right.right} xstg m c) := by
  rw [payload_s1]; rfl
omit [FloatOps F] in
theorem payload_r1_prv (c : Dev nD) (d : Bool) : (haloRd (F := F) m).payload (r1Cell (prv c)) 0 d
    = ((dnM : Memref sig .tc .vmem S1x512 .f32).view.loc (prv c : Thread nD τ) ↦[(dnM : Memref sig .tc .vmem S1x512 .f32).view.set]{fullShare}
        (x0M : Memref sig .tc .vmem S1x512 .f32).view.read (Elt F) (xstg m c)) := by
  rw [payload_r1]; unfold dnPts landedDn; rw [nxt_prv]
omit [FloatOps F] in
theorem payload_r0_nxt (c : Dev nD) (d : Bool) : (haloRd (F := F) m).payload (r0Cell (nxt c)) 0 d
    = ((upM : Memref sig .tc .vmem S1x512 .f32).view.loc (nxt c : Thread nD τ) ↦[(upM : Memref sig .tc .vmem S1x512 .f32).view.set]{fullShare}
        (x511M : Memref sig .tc .vmem S1x512 .f32).view.read (Elt F) (xstg m c)) := by
  rw [payload_r0]; unfold upPts landedUp; rw [prv_nxt]

omit [FloatOps F] in
theorem payload_r0_own (c : Dev nD) (d : Bool) : (haloRd (F := F) m).payload (r0Cell c) 0 d
    = ((upM : Memref sig .tc .vmem S1x512 .f32).view.loc (c : Thread nD τ) ↦[(upM : Memref sig .tc .vmem S1x512 .f32).view.set]{fullShare} landedUp m c) :=
  payload_r0 m c d
omit [FloatOps F] in
theorem payload_r1_own (c : Dev nD) (d : Bool) : (haloRd (F := F) m).payload (r1Cell c) 0 d
    = ((dnM : Memref sig .tc .vmem S1x512 .f32).view.loc (c : Thread nD τ) ↦[(dnM : Memref sig .tc .vmem S1x512 .f32).view.set]{fullShare} landedDn m c) :=
  payload_r1 m c d
omit [FloatOps F] in
/-- Both barrier payloads of a device with both neighbours. -/
theorem bar_payloads (c : Dev nD) :
    bigSep Finset.univ (fun d => (haloRd (F := F) m).payload (barCell c) 0 d) = iprop(barPayF c ∗ barPayT c) := by
  rw [bigSep_univ_eq_bigSepL [false, true] (by decide) (by decide), bigSepL_cons_cons, bigSepL_singleton, payload_bar_false, payload_bar_true]
  rfl

omit [FloatOps F] in
theorem expect_s0 (c : Dev nD) (hu : hasUp c) : (haloRd (F := F) m).expect (s0Cell c) 0 = N := by
  rw [expect_dma m c s0S (hasUp c) (duties_s0 m c), if_pos hu]
omit [FloatOps F] in
theorem expect_r0 (c : Dev nD) (hu : hasUp c) : (haloRd (F := F) m).expect (r0Cell c) 0 = N := by
  rw [expect_dma m c r0S (hasUp c) (duties_r0 m c), if_pos hu]
omit [FloatOps F] in
theorem expect_s1 (c : Dev nD) (hd : hasDn c) : (haloRd (F := F) m).expect (s1Cell c) 0 = N := by
  rw [expect_dma m c s1S (hasDn c) (duties_s1 m c), if_pos hd]
omit [FloatOps F] in
theorem expect_r1 (c : Dev nD) (hd : hasDn c) : (haloRd (F := F) m).expect (r1Cell c) 0 = N := by
  rw [expect_dma m c r1S (hasDn c) (duties_r1 m c), if_pos hd]
omit [FloatOps F] in
theorem duties_s0' (c : Dev nD) (hu : hasUp c) : (haloRd (F := F) m).duties (s0Cell c) 0 = {false} := by rw [duties_s0, if_pos hu]
omit [FloatOps F] in
theorem duties_r0' (c : Dev nD) (hu : hasUp c) : (haloRd (F := F) m).duties (r0Cell c) 0 = {false} := by rw [duties_r0, if_pos hu]
omit [FloatOps F] in
theorem duties_s1' (c : Dev nD) (hd : hasDn c) : (haloRd (F := F) m).duties (s1Cell c) 0 = {false} := by rw [duties_s1, if_pos hd]
omit [FloatOps F] in
theorem duties_r1' (c : Dev nD) (hd : hasDn c) : (haloRd (F := F) m).duties (r1Cell c) 0 = {false} := by rw [duties_r1, if_pos hd]

omit [FloatOps F] in
theorem bigSep_rejoin {I : Type} [DecidableEq I] [Fintype I] (S : Finset I) (Φ : I → sProp 𝕄) :
    iprop(bigSep S Φ ∗ bigSep (Finset.univ \ S) Φ) ⊢ bigSep Finset.univ Φ :=
  Entails.of_eq (bigSep_sdiff_split (Finset.subset_univ S)).symm

omit [FloatOps F] in
/-- A row written whole over a landing buffer is the row, whatever the buffer held. -/
theorem landed_dn_eq (c : Dev nD) (fd : Buf (Elt F) ((dnM : Memref sig .tc .vmem S1x512 .f32).view.loc (c : Thread nD τ))) (v : (cc0_scratch1 : Ref sig .tc).ty.Contents (Elt F)) :
    (dnM : Memref sig .tc .vmem S1x512 .f32).view.write (Elt F) fd v Finset.univ = v := by
  show (View.whole cc0_scratch1).write (Elt F) fd v Finset.univ = v
  exact View.write_whole_univ _ _ _
omit [FloatOps F] in
theorem landed_up_eq (c : Dev nD) (fd : Buf (Elt F) ((upM : Memref sig .tc .vmem S1x512 .f32).view.loc (c : Thread nD τ))) (v : (cc0_scratch0 : Ref sig .tc).ty.Contents (Elt F)) :
    (upM : Memref sig .tc .vmem S1x512 .f32).view.write (Elt F) fd v Finset.univ = v := by
  show (View.whole cc0_scratch0).write (Elt F) fd v Finset.univ = v
  exact View.write_whole_univ _ _ _

omit [FloatOps F] in
/-- A share of the block carved into the first row and the rest; into the last row and the rest. -/
theorem x0_split (c : Dev nD) (q : PosShare TreeShare) (f : Buf (Elt F) ((xM : Memref sig .tc .vmem S512x512 .f32).view.loc (c : Thread nD τ))) :
    ((xM : Memref sig .tc .vmem S512x512 .f32).view.loc (c : Thread nD τ) ↦[(xM : Memref sig .tc .vmem S512x512 .f32).view.set]{q} f : sProp 𝕄)
      ⊣⊢ iprop(((xM : Memref sig .tc .vmem S512x512 .f32).view.loc (c : Thread nD τ) ↦[(x0M : Memref sig .tc .vmem S1x512 .f32).view.set]{q} f)
          ∗ ((xM : Memref sig .tc .vmem S512x512 .f32).view.loc (c : Thread nD τ) ↦[(xM : Memref sig .tc .vmem S512x512 .f32).view.set \ (x0M : Memref sig .tc .vmem S1x512 .f32).view.set]{q} f)) :=
  pointsTo_split_subset (by rw [View.set_whole]; exact Finset.subset_univ _)
omit [FloatOps F] in
theorem x511_split (c : Dev nD) (q : PosShare TreeShare) (f : Buf (Elt F) ((xM : Memref sig .tc .vmem S512x512 .f32).view.loc (c : Thread nD τ))) :
    ((xM : Memref sig .tc .vmem S512x512 .f32).view.loc (c : Thread nD τ) ↦[(xM : Memref sig .tc .vmem S512x512 .f32).view.set]{q} f : sProp 𝕄)
      ⊣⊢ iprop(((xM : Memref sig .tc .vmem S512x512 .f32).view.loc (c : Thread nD τ) ↦[(x511M : Memref sig .tc .vmem S1x512 .f32).view.set]{q} f)
          ∗ ((xM : Memref sig .tc .vmem S512x512 .f32).view.loc (c : Thread nD τ) ↦[(xM : Memref sig .tc .vmem S512x512 .f32).view.set \ (x511M : Memref sig .tc .vmem S1x512 .f32).view.set]{q} f)) :=
  pointsTo_split_subset (by rw [View.set_whole]; exact Finset.subset_univ _)

section Sends
variable (K : Dev nD × Fin 5 → ℕ)

/-- The first row leaving upwards: `Rounds.wp_send_pointsTo` at the cells of the upward exchange, addressed to `n = prv c`. -/
theorem wp_send_up (c n : Dev nD) (hn : n = prv c) (hu : hasUp c)
    {hsc : (dnM : Memref sig (Dev.tc n : Thread nD τ).2.kind .vmem S1x512 .f32).view.ref.isScScratch = false}
    {hsrc : (x0M : Memref sig .tc .vmem S1x512 .f32).view.WordExact} {hdst : (dnM : Memref sig .tc .vmem S1x512 .f32).view.WordExact}
    {hsem : DmaTarget.Typed .vmem (.dma r1S) (.remote (Dev.tc n : Thread nD τ) (dnM : Memref sig .tc .vmem S1x512 .f32) (.dma s0S) hsc)}
    {α : Type} {Q : α → sProp 𝕄} {k : PUnit → Prog (TpuEff nD τ sig (Elt F) Λ₀ .tc) α}
    (fP : Buf (Elt F) ((dnM : Memref sig .tc .vmem S1x512 .f32).view.loc (prv c : Thread nD τ))) (W : Waits sig Unit)
    (O₁ O : CellTallies nD τ sig Unit) (hO : O₁ = O + tallyAt (r1Cell (prv c)) () N) :
    iprop(cellInv ER (haloRd m) (K (c, 1)) (s0Cell c) ∗ cellInv ER (haloRd m) (K (prv c, 4)) (r1Cell (prv c))
        ∗ x0Pts m c ∗ dnPts (prv c) fP
        ∗ owes (c : Thread nD τ) O₁ W
        ∗ dutyTok ER (s0Cell c) 0 false ∗ reached ER (s0Cell c) 0
        ∗ dutyTok ER (r1Cell (prv c)) 0 false ∗ reached ER (r1Cell (prv c)) 0)
      ⊢ iprop(((cred (tallyAt (s0Cell c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma x0M (.remote (Dev.tc n : Thread nD τ) dnM (.dma s0S) hsc) (.dma r1S) hsrc hdst hsem) k) Q) := by
  subst hn
  unfold x0Pts dnPts
  exact Rounds.wp_send_pointsTo 𝒱₀ ER (haloRd m) (c : Thread nD τ) none (κ₁ := K (c, 1)) (κ₂ := K (prv c, 4))
    (r₁ := 0) (r₂ := 0) (d₁ := false) (d₂ := false) (fd := fP)
    (mem_s0 m c hu) (mem_r1_prv m c hu)
    () () N rfl (amount_dma m c s0S false) (amount_dma m (prv c) r1S false) O hO (W := W)
    (by rw [payload_s0'])
    (by rw [payload_r1_prv, landed_dn_eq])

/-- The last row leaving downwards, addressed to `n = nxt c`. -/
theorem wp_send_dn (c n : Dev nD) (hn : n = nxt c) (hd : hasDn c)
    {hsc : (upM : Memref sig (Dev.tc n : Thread nD τ).2.kind .vmem S1x512 .f32).view.ref.isScScratch = false}
    {hsrc : (x511M : Memref sig .tc .vmem S1x512 .f32).view.WordExact} {hdst : (upM : Memref sig .tc .vmem S1x512 .f32).view.WordExact}
    {hsem : DmaTarget.Typed .vmem (.dma r0S) (.remote (Dev.tc n : Thread nD τ) (upM : Memref sig .tc .vmem S1x512 .f32) (.dma s1S) hsc)}
    {α : Type} {Q : α → sProp 𝕄} {k : PUnit → Prog (TpuEff nD τ sig (Elt F) Λ₀ .tc) α}
    (fN : Buf (Elt F) ((upM : Memref sig .tc .vmem S1x512 .f32).view.loc (nxt c : Thread nD τ))) (W : Waits sig Unit)
    (O₁ O : CellTallies nD τ sig Unit) (hO : O₁ = O + tallyAt (r0Cell (nxt c)) () N) :
    iprop(cellInv ER (haloRd m) (K (c, 2)) (s1Cell c) ∗ cellInv ER (haloRd m) (K (nxt c, 3)) (r0Cell (nxt c))
        ∗ x511Pts m c ∗ upPts (nxt c) fN
        ∗ owes (c : Thread nD τ) O₁ W
        ∗ dutyTok ER (s1Cell c) 0 false ∗ reached ER (s1Cell c) 0
        ∗ dutyTok ER (r0Cell (nxt c)) 0 false ∗ reached ER (r0Cell (nxt c)) 0)
      ⊢ iprop(((cred (tallyAt (s1Cell c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma x511M (.remote (Dev.tc n : Thread nD τ) upM (.dma s1S) hsc) (.dma r0S) hsrc hdst hsem) k) Q) := by
  subst hn
  unfold x511Pts upPts
  exact Rounds.wp_send_pointsTo 𝒱₀ ER (haloRd m) (c : Thread nD τ) none (κ₁ := K (c, 2)) (κ₂ := K (nxt c, 3))
    (r₁ := 0) (r₂ := 0) (d₁ := false) (d₂ := false) (fd := fN)
    (mem_s1 m c hd) (mem_r0_nxt m c hd)
    () () N rfl (amount_dma m c s1S false) (amount_dma m (nxt c) r0S false) O hO (W := W)
    (by rw [payload_s1'])
    (by rw [payload_r0_nxt, landed_up_eq])

end Sends

omit [FloatOps F] in
theorem duties_s0_none (c : Dev nD) (hu : ¬ hasUp c) : ∀ r, 0 ≤ r → (haloRd (F := F) m).duties (s0Cell c) r = ∅ := by
  intro r _
  rcases Nat.eq_zero_or_pos r with rfl | hr
  · rw [duties_s0, if_neg hu]
  · exact duties_later m _ r hr
omit [FloatOps F] in
theorem duties_r0_none (c : Dev nD) (hu : ¬ hasUp c) : ∀ r, 0 ≤ r → (haloRd (F := F) m).duties (r0Cell c) r = ∅ := by
  intro r _
  rcases Nat.eq_zero_or_pos r with rfl | hr
  · rw [duties_r0, if_neg hu]
  · exact duties_later m _ r hr
omit [FloatOps F] in
theorem duties_s1_none (c : Dev nD) (hd : ¬ hasDn c) : ∀ r, 0 ≤ r → (haloRd (F := F) m).duties (s1Cell c) r = ∅ := by
  intro r _
  rcases Nat.eq_zero_or_pos r with rfl | hr
  · rw [duties_s1, if_neg hd]
  · exact duties_later m _ r hr
omit [FloatOps F] in
theorem duties_r1_none (c : Dev nD) (hd : ¬ hasDn c) : ∀ r, 0 ≤ r → (haloRd (F := F) m).duties (r1Cell c) r = ∅ := by
  intro r _
  rcases Nat.eq_zero_or_pos r with rfl | hr
  · rw [duties_r1, if_neg hd]
  · exact duties_later m _ r hr
omit [FloatOps F] in
theorem duties_bar_dn' (c : Dev nD) (hu : ¬ hasUp c) (hd : hasDn c) : (haloRd (F := F) m).duties (barCell c) 0 = {true} := duties_bar_dn m c hu hd
omit [FloatOps F] in
theorem duties_bar_up' (c : Dev nD) (hu : hasUp c) (hd : ¬ hasDn c) : (haloRd (F := F) m).duties (barCell c) 0 = {false} := duties_bar_up m c hu hd

theorem posW_first (c : Dev nD) (h : ¬ hasUp c) : posW c = 0#32 := by revert c; decide +kernel
theorem posW_last (c : Dev nD) (h : ¬ hasDn c) : posW c = 15#32 := by revert c; decide +kernel

end Cert.KernelIdeal.Halo

end
-- ==== Proof.OutWrites.lean ====
/-
  The result block as the LIST of its four writes, the later two reading back what the earlier ones left: read at an
  index it is `outFn` again. Each write replaces some rows of a rectangle of the block and keeps, on the rectangle's other
  rows, a read-back value; the only read-back rows that survive are row 1 (from the first slab) and row 510 (from the
  second), and both are the slab's own rows there.
-/
import proofs.«900541_g7700000000000542_dist_halo_stencil_i_m512_n512_v7x_i16_bf16_1_alg».proof.Proof.OutSpec
import Idealize.ShloMosaic.Lib.Exec

noncomputable section

namespace Cert.KernelIdeal.OutSpec

open Cert.KernelIdeal Cert.KernelIdeal.Gen
open Idealize.ShloMosaic Idealize.ShloMosaic.TcCoe Idealize.SL.Sem
open Idealize.ShloMosaic.ValueIdx

variable {F : FTy → Type} [FloatOps F]

/-- One write of `m` replaced rows at row `k + s0` laid over ANY value `old` of the rectangle of `n` rows at row `k`, read at
    an index: the payload's row inside the replaced rows, `old`'s row on the rectangle's other rows, the contents elsewhere. -/
theorem store_old_apply {n m : ℕ} (k s0 : ℕ)
    (inb : ∀ a, (![k, 0] : Fin 2 → Nat) a + (⟨2, ![n, 512]⟩ : Shape).size a ≤ S512x512.size a)
    (hs : (⟨2, ![n, 512]⟩ : Shape).Slices ![s0, 0] ⟨2, ![m, 512]⟩)
    (p : FVec F ⟨2, ![m, 512]⟩ .bf16) (old : (⟨2, ![n, 512]⟩ : Shape).Idx → Elt F .bf16) (g : OC (F := F)) (r : Fin 512) (j : Fin 512) :
    (((oM : Memref sig .tc .vmem S512x512 .bf16).view.slice (Rect.unit (s := S512x512) ![k, 0] (⟨2, ![n, 512]⟩ : Shape).size inb)).write (Elt F) g
      (updateSlice old p ![s0, 0] hs) Finset.univ) (ix2 r j)
    = if h : k + s0 ≤ r.val ∧ r.val < k + s0 + m then p (ix2 (⟨r.val - (k + s0), by omega⟩ : Fin m) j)
      else if h' : k ≤ r.val ∧ r.val < k + n then old (ix2 (⟨r.val - k, by omega⟩ : Fin n) j) else g (ix2 r j) := by
  have hn : k + n ≤ 512 := inb 0
  have hm : s0 + m ≤ n := hs.2 0
  by_cases hr : k ≤ r.val ∧ r.val < k + n
  · have hx : ((oM : Memref sig .tc .vmem S512x512 .bf16).view.slice (Rect.unit (s := S512x512) ![k, 0] (⟨2, ![n, 512]⟩ : Shape).size inb)).emb
        (ix2 (⟨r.val - k, by omega⟩ : Fin n) j) = ix2 r j := by
      funext a; apply Fin.ext
      match a with
      | ⟨0, _⟩ => show k + 1 * (r.val - k) = r.val; omega
      | ⟨1, _⟩ => show 0 + 1 * j.val = j.val; omega
    conv_lhs => rw [← hx]
    rw [View.write_emb_of_mem _ _ (Finset.mem_univ _), cast_eq, updateSlice_ix2]
    by_cases h : k + s0 ≤ r.val ∧ r.val < k + s0 + m
    · rw [dif_pos h, dif_pos (show s0 ≤ r.val - k ∧ r.val - k < s0 + m by omega)]
      refine congrArg p (congrArg (fun a => ix2 a j) (Fin.ext ?_))
      show r.val - k - s0 = r.val - (k + s0); omega
    · rw [dif_neg h, dif_neg (show ¬ (s0 ≤ r.val - k ∧ r.val - k < s0 + m) by omega), dif_pos hr]
  · have hne : ∀ x, ((oM : Memref sig .tc .vmem S512x512 .bf16).view.slice (Rect.unit (s := S512x512) ![k, 0] (⟨2, ![n, 512]⟩ : Shape).size inb)).emb x ≠ ix2 r j := by
      intro x hx
      have h0 := congrArg (fun i : S512x512.Idx => (i 0).val) hx
      have hlt : (x 0).val < n := (x 0).isLt
      have h0' : k + 1 * (x 0).val = r.val := h0
      omega
    unfold View.write
    rw [preimage?_eq_none hne]
    rw [dif_neg (by omega), dif_neg hr]

/-- The four pieces as the run lists them: the two slabs read the block as it was; the top row's piece reads back rows
    0..1 after the slabs, the bottom row's rows 510..511 after the three. -/
abbrev pcA (pA : FVec F S255x512 .bf16) (g : OC (F := F)) : View.Piece (Elt F) S512x512 .bf16 :=
  ⟨RA, (fun old => updateSlice old pA ![1, 0] slices_S256x512_S255x512_1_0) ((oM : Memref sig .tc .vmem S512x512 .bf16).view.readAt (Elt F) RA.toLoadRect g)⟩
abbrev pcB (pB : FVec F S255x512 .bf16) (g : OC (F := F)) : View.Piece (Elt F) S512x512 .bf16 :=
  ⟨RB, (fun old => updateSlice old pB ![0, 0] slices_S256x512_S255x512_0_0) ((oM : Memref sig .tc .vmem S512x512 .bf16).view.readAt (Elt F) RB.toLoadRect g)⟩
abbrev pcT (pA pB : FVec F S255x512 .bf16) (pT : FVec F S1x512 .bf16) (g : OC (F := F)) : View.Piece (Elt F) S512x512 .bf16 :=
  ⟨RT, (fun old => updateSlice old pT ![0, 0] slices_S2x512_S1x512_0_0) ((oM : Memref sig .tc .vmem S512x512 .bf16).view.readCov [pcB pB g, pcA pA g] RT.toLoadRect)⟩
abbrev pcL (pA pB : FVec F S255x512 .bf16) (pT pL : FVec F S1x512 .bf16) (g : OC (F := F)) : View.Piece (Elt F) S512x512 .bf16 :=
  ⟨RL, (fun old => updateSlice old pL ![1, 0] slices_S2x512_S1x512_1_0) ((oM : Memref sig .tc .vmem S512x512 .bf16).view.readCov [pcT pA pB pT g, pcB pB g, pcA pA g] RL.toLoadRect)⟩

/-- A read-back of `n` rows at row `k` after the writes `L`, at its row `a`: what the writes leave at row `k + a`. -/
theorem readCov_apply {n : ℕ} (k : ℕ)
    (inb : ∀ a, (![k, 0] : Fin 2 → Nat) a + (⟨2, ![n, 512]⟩ : Shape).size a ≤ S512x512.size a)
    (L : List (View.Piece (Elt F) S512x512 .bf16)) (a : Fin n) (j : Fin 512) (R : Fin 512) (hR : R.val = k + a.val) :
    (oM : Memref sig .tc .vmem S512x512 .bf16).view.readCov L (Rect.unit (s := S512x512) ![k, 0] (⟨2, ![n, 512]⟩ : Shape).size inb).toLoadRect (ix2 a j)
      = (oM : Memref sig .tc .vmem S512x512 .bf16).view.writes (Elt F) (oM : Memref sig .tc .vmem S512x512 .bf16).view.junk L (ix2 R j) := by
  unfold View.readCov
  rw [View.readAt_apply, View.read_apply, cast_eq]
  refine congrArg _ (funext fun b => Fin.ext ?_)
  match b with
  | ⟨0, _⟩ => show k + 1 * a.val = R.val; omega
  | ⟨1, _⟩ => show 0 + 1 * j.val = j.val; omega

/-- The top piece's read-back at its second row: the first slab's first row. -/
theorem oldT_apply (pA pB : FVec F S255x512 .bf16) (g : OC (F := F)) (a : Fin 2) (ha : a.val = 1) (j : Fin 512) :
    (oM : Memref sig .tc .vmem S512x512 .bf16).view.readCov [pcB pB g, pcA pA g] RT.toLoadRect (ix2 a j) = pA (ix2 (0 : Fin 255) j) := by
  refine (readCov_apply (n := 2) 0 inb_S512x512_S2x512_0_0 _ a j (1 : Fin 512) (by show 1 = 0 + a.val; omega)).trans ?_
  rw [View.writes_cons]
  refine (store_old_apply (n := 256) (m := 255) 256 0 inb_S512x512_S256x512_256_0 slices_S256x512_S255x512_0_0 pB _ _ (1 : Fin 512) j).trans ?_
  rw [dif_neg (show ¬ (256 + 0 ≤ (1 : Fin 512).val ∧ (1 : Fin 512).val < 256 + 0 + 255) by decide),
    dif_neg (show ¬ (256 ≤ (1 : Fin 512).val ∧ (1 : Fin 512).val < 256 + 256) by decide)]
  rw [View.writes_cons]
  refine (store_old_apply (n := 256) (m := 255) 0 1 inb_S512x512_S256x512_0_0 slices_S256x512_S255x512_1_0 pA _ _ (1 : Fin 512) j).trans ?_
  rw [dif_pos (show 0 + 1 ≤ (1 : Fin 512).val ∧ (1 : Fin 512).val < 0 + 1 + 255 by decide)]
  rfl

/-- The bottom piece's read-back at its first row (row 510 of the block): the second slab's last row. -/
theorem oldL_apply (pA pB : FVec F S255x512 .bf16) (pT : FVec F S1x512 .bf16) (g : OC (F := F)) (a : Fin 2) (ha : a.val = 0) (j : Fin 512) :
    (oM : Memref sig .tc .vmem S512x512 .bf16).view.readCov [pcT pA pB pT g, pcB pB g, pcA pA g] RL.toLoadRect (ix2 a j) = pB (ix2 (254 : Fin 255) j) := by
  refine (readCov_apply (n := 2) 510 inb_S512x512_S2x512_510_0 _ a j (510 : Fin 512) (by show 510 = 510 + a.val; omega)).trans ?_
  rw [View.writes_cons]
  refine (store_old_apply (n := 2) (m := 1) 0 0 inb_S512x512_S2x512_0_0 slices_S2x512_S1x512_0_0 pT _ _ (510 : Fin 512) j).trans ?_
  rw [dif_neg (show ¬ (0 + 0 ≤ (510 : Fin 512).val ∧ (510 : Fin 512).val < 0 + 0 + 1) by decide),
    dif_neg (show ¬ (0 ≤ (510 : Fin 512).val ∧ (510 : Fin 512).val < 0 + 2) by decide)]
  rw [View.writes_cons]
  refine (store_old_apply (n := 256) (m := 255) 256 0 inb_S512x512_S256x512_256_0 slices_S256x512_S255x512_0_0 pB _ _ (510 : Fin 512) j).trans ?_
  rw [dif_pos (show 256 + 0 ≤ (510 : Fin 512).val ∧ (510 : Fin 512).val < 256 + 0 + 255 by decide)]
  rfl

/-- The four writes in the run's order, over any contents, leave `outFn`. -/
theorem writes4_eq (pA pB : FVec F S255x512 .bf16) (pT pL : FVec F S1x512 .bf16) (g : OC (F := F)) :
    (oM : Memref sig .tc .vmem S512x512 .bf16).view.writes (Elt F) g [pcL pA pB pT pL g, pcT pA pB pT g, pcB pB g, pcA pA g] = outFn pA pB pT pL := by
  funext i
  obtain ⟨r, j, rfl⟩ : ∃ (r j : Fin 512), i = ix2 r j := ⟨i 0, i 1, eq_ix2 (n0 := 512) (n1 := 512) i⟩
  rw [outFn_ix2, View.writes_cons]
  refine (store_old_apply (n := 2) (m := 1) 510 1 inb_S512x512_S2x512_510_0 slices_S2x512_S1x512_1_0 pL _ _ r j).trans ?_
  by_cases hL : 510 + 1 ≤ r.val ∧ r.val < 510 + 1 + 1
  · rw [dif_pos hL, dif_neg (show ¬ r.val = 0 by omega), dif_neg (show ¬ r.val ≤ 255 by omega),
      dif_neg (show ¬ r.val ≤ 510 by omega)]
    exact congrArg pL (congrArg (fun a => ix2 a j) (Fin.ext (by show r.val - (510 + 1) = 0; omega)))
  rw [dif_neg hL]
  by_cases hL' : 510 ≤ r.val ∧ r.val < 510 + 2
  · rw [dif_pos hL', oldL_apply pA pB pT g _ (by show r.val - 510 = 0; omega) j, dif_neg (show ¬ r.val = 0 by omega),
      dif_neg (show ¬ r.val ≤ 255 by omega), dif_pos (show r.val ≤ 510 by omega)]
    exact congrArg pB (congrArg (fun a => ix2 a j) (Fin.ext (by show 254 = r.val - 256; omega)))
  rw [dif_neg hL', View.writes_cons]
  refine (store_old_apply (n := 2) (m := 1) 0 0 inb_S512x512_S2x512_0_0 slices_S2x512_S1x512_0_0 pT _ _ r j).trans ?_
  by_cases hT : 0 + 0 ≤ r.val ∧ r.val < 0 + 0 + 1
  · rw [dif_pos hT, dif_pos (show r.val = 0 by omega)]
    exact congrArg pT (congrArg (fun a => ix2 a j) (Fin.ext (by show r.val - (0 + 0) = 0; omega)))
  rw [dif_neg hT, dif_neg (show ¬ r.val = 0 by omega)]
  by_cases hT' : 0 ≤ r.val ∧ r.val < 0 + 2
  · rw [dif_pos hT', oldT_apply pA pB g _ (by show r.val - 0 = 1; omega) j, dif_pos (show r.val ≤ 255 by omega)]
    exact congrArg pA (congrArg (fun a => ix2 a j) (Fin.ext (by show 0 = r.val - 1; omega)))
  rw [dif_neg hT', View.writes_cons]
  refine (store_old_apply (n := 256) (m := 255) 256 0 inb_S512x512_S256x512_256_0 slices_S256x512_S255x512_0_0 pB _ _ r j).trans ?_
  by_cases hB : 256 + 0 ≤ r.val ∧ r.val < 256 + 0 + 255
  · rw [dif_pos hB, dif_neg (show ¬ r.val ≤ 255 by omega), dif_pos (show r.val ≤ 510 by omega)]
  rw [dif_neg hB, dif_neg (show ¬ (256 ≤ r.val ∧ r.val < 256 + 256) by omega), View.writes_cons]
  refine (store_old_apply (n := 256) (m := 255) 0 1 inb_S512x512_S256x512_0_0 slices_S256x512_S255x512_1_0 pA _ _ r j).trans ?_
  rw [dif_pos (show 0 + 1 ≤ r.val ∧ r.val < 0 + 1 + 255 by omega), dif_pos (show r.val ≤ 255 by omega)]

/-- info: 'Cert.KernelIdeal.OutSpec.writes4_eq' depends on axioms: [propext, Classical.choice, Quot.sound] -/
#guard_msgs in #print axioms writes4_eq

end Cert.KernelIdeal.OutSpec

end
-- ==== Proof.BodyMid.lean ====
/-
  The body of an interior device: both barrier units, both rows sent and both received.
-/
import proofs.«900541_g7700000000000542_dist_halo_stencil_i_m512_n512_v7x_i16_bf16_1_alg».proof.Proof.BodyTables
import proofs.«900541_g7700000000000542_dist_halo_stencil_i_m512_n512_v7x_i16_bf16_1_alg».proof.Proof.OutWrites

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

attribute [local sl_rounds] mem_bar_prv mem_bar_nxt mem_r1_prv mem_r0_nxt mem_s0 mem_s1 amount_bar' amount_dma
  payload_bar_prv payload_bar_nxt duties_bar_both expect_bar_both
  payload_s0' payload_s1' payload_r1_prv payload_r0_nxt expect_s0 expect_r0 expect_s1 expect_r1
  duties_s0' duties_r0' duties_s1' duties_r1'
  expect_bar_one_dn expect_bar_one_up duties_bar_dn' duties_bar_up'
attribute [local sl_canon] dev1_eq dev2_eq dev3_eq dev4_eq

section BodyMid
variable (K : Dev nD × Fin 5 → ℕ)

set_option maxHeartbeats 1600000 in
/-- An interior device: both neighbours. -/
theorem sound_mid (c : Dev nD) (hu : hasUp c) (hd : hasDn c) (Kt : PUnit → sProp 𝕄) (W : Waits sig Unit)
    (fu : Buf (Elt F) ((upM : Memref sig .tc .vmem S1x512 .f32).view.loc (c : Thread nD τ)))
    (fd : Buf (Elt F) ((dnM : Memref sig .tc .vmem S1x512 .f32).view.loc (c : Thread nD τ)))
    (g1 : Buf (Elt F) (((c : Dev nD) : Thread nD τ).loc cc0_stg1_0)) :
    iprop(invs m K c ∗ marks c ∗ levAts L lv
        ∗ poss c ∗ payToks c
        ∗ cred (tallyAt (barCell c) () 2) ∗ cred (tallyAt (r0Cell c) () N) ∗ cred (tallyAt (r1Cell c) () N)
        ∗ upPts c fu ∗ dnPts c fd ∗ owes (c : Thread nD τ) (Oup c + Odn c) W
        ∗ ((xM : Memref sig .tc .vmem S512x512 .f32).view.loc (c : Thread nD τ) ↦[(xM : Memref sig .tc .vmem S512x512 .f32).view.set]{fullShare} xstg m c)
        ∗ ((oM : Memref sig .tc .vmem S512x512 .bf16).view.loc (c : Thread nD τ) ↦[(oM : Memref sig .tc .vmem S512x512 .bf16).view.set]{fullShare} g1)
        ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  have h1 : k0_cond1 c = 1#1 := (cond1_iff c).2 hu
  have h2 : k0_cond2 c = 1#1 := (cond2_iff c).2 hd
  have h5 : k0_cond5 c = 1#1 := (cond5_iff c).2 hu
  have h6 : k0_cond6 c = 1#1 := (cond6_iff c).2 hd
  have hfu : Scalar.cmpi .ne (Scalar.extui (upW c) : BitVec 32) 0#32 = 1#1 := (upFlag_iff c).2 hu
  have hfd : Scalar.cmpi .ne (Scalar.extui (dnW c) : BitVec 32) 0#32 = 1#1 := (dnFlag_iff c).2 hd
  unfold invs marks poss payToks upPts dnPts Oup Odn
  iintro ⟨⟨#HIbar, #HIs0, #HIs1, #HIr0, #HIr1, #HIbarP, #HIbarN, #HIr1P, #HIr0N⟩, ⟨#HrBP, #HrBN, #HrR1P, #HrR0N, #HrS0, #HrS1, #HrR0, #HrR1⟩, #Hlev,
    ⟨HatB, HatS0, HatS1, HatR0, HatR1⟩, ⟨HtBP, HtBN, HtR1P, HtR0N, HtS0, HtS1⟩, HcB, HcR0, HcR1, Hup, Hdn, HO, Hx, Hout, Hk⟩
  sl_unfold [cc0_body]
  sl_exec
  -- the two units on its own barrier, one at a time: the payloads of whichever neighbours have landed come with the
  -- first, the rest with the second; both are needed only after both
  rw [show (tallyAt (barCell c) () 2 : CellTallies nD τ sig Unit) = tallyAt (barCell c) () 1 + tallyAt (barCell c) () 1 from (tallyAt_add _ _ 1 1).symm]
  ihave HcB' := (cred_add (tallyAt (barCell c) () 1) (tallyAt (barCell c) () 1)).1 $$ HcB
  icases HcB' with ⟨HcB1, HcB2⟩
  have hOrows : ∀ g u, 0 < (tallyAt (r1Cell (prv c)) () N + tallyAt (r0Cell (nxt c)) () N : CellTallies nD τ sig Unit) g u → g = r1Cell (prv c) ∨ g = r0Cell (nxt c) := by
    intro g u h
    rw [Pi.add_apply, Finsupp.add_apply, tallyAt_apply, tallyAt_apply] at h
    by_contra hn
    rw [not_or] at hn
    rw [if_neg (fun h' => hn.1 h'.1), if_neg (fun h' => hn.2 h'.1)] at h
    exact Nat.lt_irrefl 0 h
  iapply (Rounds.wp_wait 𝒱₀ ER (haloRd m) (c : Thread nD τ) none (κ := K (c, 0))
      (wpE_semWait_eq 𝒱₀ (c : Thread nD τ) none Set.univ) (Set.mem_univ _) (cr := Finsupp.single () 1) {(SemLoc.reg barS, ())}
      (R := 0) (m := 0) (T := ∅) (by rw [Util.total_single]; decide) (image_single_subset _ _ _)) $$ [HcB1 HO HatB]
  · isplitr; · iexact HIbar
    isplitl [HcB1]; · iexact HcB1
    isplitl [HO]; · iexact HO
    isplitr; · iapply (mayWait_bar c _ hOrows); iexact Hlev
    iexact HatB
  iintro %S ⟨%hS, HO, HatB, Hpay1⟩
  have hmw := mayWait_bar (F := F) c _ hOrows
  sl_exec
  -- both neighbours' landing buffers, and that each is at round 0 of the receive cell the row will credit
  rw [Finset.sdiff_empty]
  ihave Hpay := (bigSep_rejoin S (fun d => (haloRd m).payload (barCell c) 0 d)) $$ [Hpay1 HatB_pay1]
  · isplitl [Hpay1]; · iexact Hpay1
    iexact HatB_pay1
  ihave Hp := (Entails.of_eq (bar_payloads m c)) $$ Hpay
  unfold barPayF barPayT dnPts upPts
  icases Hp with ⟨⟨⟨%fP, HdnP⟩, #HrR1P'⟩, ⟨%fN, HupN⟩, #HrR0N'⟩
  -- the block's staging buffer: a share to go on reading with, and a share of the first and of the last row to lend
  ihave Hx2 := (pointsTo_share (PosShare.mem_left_op_right fullShare)).1 $$ Hx
  icases Hx2 with ⟨HxL, HxR⟩
  ihave HxR2 := (pointsTo_share (PosShare.mem_left_op_right fullShare.right)).1 $$ HxR
  icases HxR2 with ⟨HxRL, HxRR⟩
  ihave Hx0' := (x0_split c fullShare.right.left (xstg m c)).1 $$ HxRL
  icases Hx0' with ⟨Hx0, Hx0c⟩
  ihave Hx511' := (x511_split c fullShare.right.right (xstg m c)).1 $$ HxRR
  icases Hx511' with ⟨Hx511, Hx511c⟩
  -- the first row, upwards into the buffer below `prv c`
  iapply (wp_send_up m K c _ (dev3_eq c h5) hu fP _ _ (tallyAt (r0Cell (nxt c)) () N) (add_comm _ _)) $$ [Hx0 HdnP HO HtS0 HtR1P]
  · isplitr; · iexact HIs0
    isplitr; · iexact HIr1P
    isplitl [Hx0]; · unfold x0Pts; iexact Hx0
    isplitl [HdnP]; · unfold dnPts; iexact HdnP
    isplitl [HO]; · iexact HO
    isplitl [HtS0]; · iexact HtS0
    isplitr; · iexact HrS0
    isplitl [HtR1P]; · iexact HtR1P
    iexact HrR1P
  iintro ⟨HcS0, HO⟩
  sl_exec
  -- the last row, downwards into the buffer above `nxt c`
  iapply (wp_send_dn m K c _ (dev4_eq c h6) hd fN _ _ 0 (zero_add _).symm) $$ [Hx511 HupN HO HtS1 HtR0N]
  · isplitr; · iexact HIs1
    isplitr; · iexact HIr0N
    isplitl [Hx511]; · unfold x511Pts; iexact Hx511
    isplitl [HupN]; · unfold upPts; iexact HupN
    isplitl [HO]; · iexact HO
    isplitl [HtS1]; · iexact HtS1
    isplitr; · iexact HrS1
    isplitl [HtR0N]; · iexact HtR0N
    iexact HrR0N
  iintro ⟨HcS1, HO⟩
  sl_exec
  -- what has landed: the row above from `prv c`, the row below from `nxt c`
  ihave HupL := (Entails.of_eq (payload_r0_own m c false)) $$ HatR0_pay1
  ihave HdnL := (Entails.of_eq (payload_r1_own m c false)) $$ HatR1_pay1
  sl_exec
  -- the four own cells close: their counters at zero are the core's again
  imod (Rounds.cell_close ER (haloRd m) (Set.mem_univ (K (c, 1))) (fun h => h) (R := 0 + 1) (duties_later m (s0Cell c))) $$ [HatS0] with HzS0
  · isplitr; · iexact HIs0
    iexact HatS0
  imod (Rounds.cell_close ER (haloRd m) (Set.mem_univ (K (c, 2))) (fun h => h) (R := 0 + 1) (duties_later m (s1Cell c))) $$ [HatS1] with HzS1
  · isplitr; · iexact HIs1
    iexact HatS1
  imod (Rounds.cell_close ER (haloRd m) (Set.mem_univ (K (c, 3))) (fun h => h) (R := 0 + 1) (duties_later m (r0Cell c))) $$ [HatR0] with HzR0
  · isplitr; · iexact HIr0
    iexact HatR0
  imod (Rounds.cell_close ER (haloRd m) (Set.mem_univ (K (c, 4))) (fun h => h) (R := 0 + 1) (duties_later m (r1Cell c))) $$ [HatR1] with HzR1
  · isplitr; · iexact HIr1
    iexact HatR1
  -- the block's staging buffer whole again
  ihave HxRL := (x0_split c fullShare.right.left (xstg m c)).2 $$ [HatS0_pay1 Hx0c]
  · isplitl [HatS0_pay1]; · iexact HatS0_pay1
    iexact Hx0c
  ihave HxRR := (x511_split c fullShare.right.right (xstg m c)).2 $$ [HatS1_pay1 Hx511c]
  · isplitl [HatS1_pay1]; · iexact HatS1_pay1
    iexact Hx511c
  ihave HxR := (pointsTo_share (PosShare.mem_left_op_right fullShare.right)).2 $$ [HxRL HxRR]
  · isplitl [HxRL]; · iexact HxRL
    iexact HxRR
  ihave Hx := (pointsTo_share (PosShare.mem_left_op_right fullShare)).2 $$ [HxL HxR]
  · isplitl [HxL]; · iexact HxL
    iexact HxR
  sl_step
  iapply Hk
  unfold bodyPost Φ₁ Dat.owesAt Pipeline.owesWithin
  rw [show (dats m 0 c).owed t₀.succ = 0 from rfl]
  isplitl [HupL HdnL HzS0 HzS1 HzR0 HzR1]
  · isplitl [HupL]; · iexists _; unfold upPts; iexact HupL
    isplitl [HdnL]; · iexists _; unfold dnPts; iexact HdnL
    isplitl [HzS0]; · iexact HzS0
    isplitl [HzS1]; · iexact HzS1
    isplitl [HzR0]; · iexact HzR0
    iexact HzR1
  isplitl [HO]
  · iexists _
    isplitr
    rotate_left
    · iexact HO
    · ipureintro; exact fun _ _ => Or.inl trivial
  isplitl [Hx]
  · iexists _; isplitr; · (ipureintro; rfl)
    rw [View.set_whole]
    iexact Hx
  iexists _
  isplitr
  rotate_left
  · rw [View.set_whole]
    iexact Hout
  · ipureintro
    sl_unfold_words
    unfold outAt OutSpec.outOf
    exact OutSpec.writes4_eq _ _ _ _ g1

end BodyMid

end Cert.KernelIdeal.Halo

end
-- ==== Proof.BodyFirst.lean ====
/-
  The body of the first device of the line: nothing is exchanged upwards, and its top row is its own.
-/
import proofs.«900541_g7700000000000542_dist_halo_stencil_i_m512_n512_v7x_i16_bf16_1_alg».proof.Proof.BodyTables
import proofs.«900541_g7700000000000542_dist_halo_stencil_i_m512_n512_v7x_i16_bf16_1_alg».proof.Proof.OutWrites

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

attribute [local sl_rounds] mem_bar_prv mem_bar_nxt mem_r1_prv mem_r0_nxt mem_s0 mem_s1 amount_bar' amount_dma
  payload_bar_prv payload_bar_nxt duties_bar_both expect_bar_both
  payload_s0' payload_s1' payload_r1_prv payload_r0_nxt expect_s0 expect_r0 expect_s1 expect_r1
  duties_s0' duties_r0' duties_s1' duties_r1'
  expect_bar_one_dn expect_bar_one_up duties_bar_dn' duties_bar_up'
attribute [local sl_canon] dev1_eq dev2_eq dev3_eq dev4_eq

section BodyFirst
variable (K : Dev nD × Fin 5 → ℕ)

set_option maxHeartbeats 1600000 in
/-- The first device: no neighbour above. It signals and sends downwards only, and its top row is its own. -/
theorem sound_first (c : Dev nD) (hu : ¬ hasUp c) (hd : hasDn c) (Kt : PUnit → sProp 𝕄) (W : Waits sig Unit)
    (fu : Buf (Elt F) ((upM : Memref sig .tc .vmem S1x512 .f32).view.loc (c : Thread nD τ)))
    (fd : Buf (Elt F) ((dnM : Memref sig .tc .vmem S1x512 .f32).view.loc (c : Thread nD τ)))
    (g1 : Buf (Elt F) (((c : Dev nD) : Thread nD τ).loc cc0_stg1_0)) :
    iprop(invs m K c ∗ marks c ∗ levAts L lv
        ∗ poss c ∗ payToks c
        ∗ cred (tallyAt (barCell c) () 1) ∗ cred (tallyAt (r1Cell c) () N)
        ∗ upPts c fu ∗ dnPts c fd ∗ owes (c : Thread nD τ) (Odn c) W
        ∗ ((xM : Memref sig .tc .vmem S512x512 .f32).view.loc (c : Thread nD τ) ↦[(xM : Memref sig .tc .vmem S512x512 .f32).view.set]{fullShare} xstg m c)
        ∗ ((oM : Memref sig .tc .vmem S512x512 .bf16).view.loc (c : Thread nD τ) ↦[(oM : Memref sig .tc .vmem S512x512 .bf16).view.set]{fullShare} g1)
        ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  have hn1 : ¬ k0_cond1 c = 1#1 := fun h => hu ((cond1_iff c).1 h)
  have h2 : k0_cond2 c = 1#1 := (cond2_iff c).2 hd
  have hn5 : ¬ k0_cond5 c = 1#1 := fun h => hu ((cond5_iff c).1 h)
  have h6 : k0_cond6 c = 1#1 := (cond6_iff c).2 hd
  have hnfu : ¬ Scalar.cmpi .ne (Scalar.extui (upW c) : BitVec 32) 0#32 = 1#1 := fun h => hu ((upFlag_iff c).1 h)
  have hfd : Scalar.cmpi .ne (Scalar.extui (dnW c) : BitVec 32) 0#32 = 1#1 := (dnFlag_iff c).2 hd
  have hOrow : ∀ g u, 0 < (tallyAt (r0Cell (nxt c)) () N : CellTallies nD τ sig Unit) g u → g = r1Cell (prv c) ∨ g = r0Cell (nxt c) := by
    intro g u h
    rw [tallyAt_apply] at h
    by_contra hn
    rw [not_or] at hn
    rw [if_neg (fun h' => hn.2 h'.1)] at h
    exact Nat.lt_irrefl 0 h
  have hmw := mayWait_bar (F := F) c _ hOrow
  unfold invs marks poss payToks upPts dnPts Odn
  iintro ⟨⟨#HIbar, #HIs0, #HIs1, #HIr0, #HIr1, #HIbarP, #HIbarN, #HIr1P, #HIr0N⟩, ⟨#HrBP, #HrBN, #HrR1P, #HrR0N, #HrS0, #HrS1, #HrR0, #HrR1⟩, #Hlev,
    ⟨HatB, HatS0, HatS1, HatR0, HatR1⟩, ⟨-, HtBN, -, HtR0N, -, HtS1⟩, HcB, HcR1, Hup, Hdn, HO, Hx, Hout, Hk⟩
  sl_unfold [cc0_body]
  sl_exec
  -- the neighbour below is inside the kernel: its landing buffer for this device's last row
  ihave Hp := (Entails.of_eq (payload_bar_true m c)) $$ HatB_pay1
  unfold barPayT upPts
  icases Hp with ⟨⟨%fN, HupN⟩, #HrR0N'⟩
  -- the block's staging buffer: a share to go on reading with, and a share of the last row to lend
  ihave Hx2 := (pointsTo_share (PosShare.mem_left_op_right fullShare)).1 $$ Hx
  icases Hx2 with ⟨HxL, HxR⟩
  ihave HxR2 := (pointsTo_share (PosShare.mem_left_op_right fullShare.right)).1 $$ HxR
  icases HxR2 with ⟨HxRL, HxRR⟩
  ihave Hx511' := (x511_split c fullShare.right.right (xstg m c)).1 $$ HxRR
  icases Hx511' with ⟨Hx511, Hx511c⟩
  -- the last row, downwards into the buffer above `nxt c`
  iapply (wp_send_dn m K c _ (dev4_eq c h6) hd fN _ _ 0 (zero_add _).symm) $$ [Hx511 HupN HO HtS1 HtR0N]
  · isplitr; · iexact HIs1
    isplitr; · iexact HIr0N
    isplitl [Hx511]; · unfold x511Pts; iexact Hx511
    isplitl [HupN]; · unfold upPts; iexact HupN
    isplitl [HO]; · iexact HO
    isplitl [HtS1]; · iexact HtS1
    isplitr; · iexact HrS1
    isplitl [HtR0N]; · iexact HtR0N
    iexact HrR0N
  iintro ⟨HcS1, HO⟩
  sl_exec
  -- what has landed: the row below from `nxt c`
  ihave HdnL := (Entails.of_eq (payload_r1_own m c false)) $$ HatR1_pay1
  sl_exec
  -- the own cells close: those of the downward exchange after their round, those of the upward one never had a duty
  imod (Rounds.cell_close ER (haloRd m) (Set.mem_univ (K (c, 1))) (fun h => h) (R := 0) (duties_s0_none m c hu)) $$ [HatS0] with HzS0
  · isplitr; · iexact HIs0
    iexact HatS0
  imod (Rounds.cell_close ER (haloRd m) (Set.mem_univ (K (c, 2))) (fun h => h) (R := 0 + 1) (duties_later m (s1Cell c))) $$ [HatS1] with HzS1
  · isplitr; · iexact HIs1
    iexact HatS1
  imod (Rounds.cell_close ER (haloRd m) (Set.mem_univ (K (c, 3))) (fun h => h) (R := 0) (duties_r0_none m c hu)) $$ [HatR0] with HzR0
  · isplitr; · iexact HIr0
    iexact HatR0
  imod (Rounds.cell_close ER (haloRd m) (Set.mem_univ (K (c, 4))) (fun h => h) (R := 0 + 1) (duties_later m (r1Cell c))) $$ [HatR1] with HzR1
  · isplitr; · iexact HIr1
    iexact HatR1
  -- the block's staging buffer whole again
  ihave HxRR := (x511_split c fullShare.right.right (xstg m c)).2 $$ [HatS1_pay1 Hx511c]
  · isplitl [HatS1_pay1]; · iexact HatS1_pay1
    iexact Hx511c
  ihave HxR := (pointsTo_share (PosShare.mem_left_op_right fullShare.right)).2 $$ [HxRL HxRR]
  · isplitl [HxRL]; · iexact HxRL
    iexact HxRR
  ihave Hx := (pointsTo_share (PosShare.mem_left_op_right fullShare)).2 $$ [HxL HxR]
  · isplitl [HxL]; · iexact HxL
    iexact HxR
  sl_step
  iapply Hk
  unfold bodyPost Φ₁ Dat.owesAt Pipeline.owesWithin
  rw [show (dats m 0 c).owed t₀.succ = 0 from rfl]
  isplitl [Hup HdnL HzS0 HzS1 HzR0 HzR1]
  · isplitl [Hup]; · iexists _; unfold upPts; iexact Hup
    isplitl [HdnL]; · iexists _; unfold dnPts; iexact HdnL
    isplitl [HzS0]; · iexact HzS0
    isplitl [HzS1]; · iexact HzS1
    isplitl [HzR0]; · iexact HzR0
    iexact HzR1
  isplitl [HO]
  · iexists _
    isplitr
    rotate_left
    · iexact HO
    · ipureintro; exact fun _ _ => Or.inl trivial
  isplitl [Hx]
  · iexists _; isplitr; · (ipureintro; rfl)
    rw [View.set_whole]
    iexact Hx
  iexists _
  isplitr
  rotate_left
  · rw [View.set_whole]
    iexact Hout
  · ipureintro
    sl_unfold_words
    unfold outAt OutSpec.outOf
    have hT : OutSpec.rowTop (posW c) (xstg m c) (landedUp m c) = OutSpec.rowTop (posW c) (xstg m c) fu := by
      rw [posW_first c hu]; exact OutSpec.rowTop_first _ _ _
    rw [hT]
    exact OutSpec.writes4_eq _ _ _ _ g1

end BodyFirst

end Cert.KernelIdeal.Halo

end
-- ==== Proof.BodyLast.lean ====
/-
  The body of the last device of the line: nothing is exchanged downwards, and its bottom row is its own.
-/
import proofs.«900541_g7700000000000542_dist_halo_stencil_i_m512_n512_v7x_i16_bf16_1_alg».proof.Proof.BodyTables
import proofs.«900541_g7700000000000542_dist_halo_stencil_i_m512_n512_v7x_i16_bf16_1_alg».proof.Proof.OutWrites

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

attribute [local sl_rounds] mem_bar_prv mem_bar_nxt mem_r1_prv mem_r0_nxt mem_s0 mem_s1 amount_bar' amount_dma
  payload_bar_prv payload_bar_nxt duties_bar_both expect_bar_both
  payload_s0' payload_s1' payload_r1_prv payload_r0_nxt expect_s0 expect_r0 expect_s1 expect_r1
  duties_s0' duties_r0' duties_s1' duties_r1'
  expect_bar_one_dn expect_bar_one_up duties_bar_dn' duties_bar_up'
attribute [local sl_canon] dev1_eq dev2_eq dev3_eq dev4_eq

section BodyLast
variable (K : Dev nD × Fin 5 → ℕ)

set_option maxHeartbeats 1600000 in
/-- The last device: no neighbour below. It signals and sends upwards only, and its bottom row is its own. -/
theorem sound_last (c : Dev nD) (hu : hasUp c) (hd : ¬ hasDn c) (Kt : PUnit → sProp 𝕄) (W : Waits sig Unit)
    (fu : Buf (Elt F) ((upM : Memref sig .tc .vmem S1x512 .f32).view.loc (c : Thread nD τ)))
    (fd : Buf (Elt F) ((dnM : Memref sig .tc .vmem S1x512 .f32).view.loc (c : Thread nD τ)))
    (g1 : Buf (Elt F) (((c : Dev nD) : Thread nD τ).loc cc0_stg1_0)) :
    iprop(invs m K c ∗ marks c ∗ levAts L lv
        ∗ poss c ∗ payToks c
        ∗ cred (tallyAt (barCell c) () 1) ∗ cred (tallyAt (r0Cell c) () N)
        ∗ upPts c fu ∗ dnPts c fd ∗ owes (c : Thread nD τ) (Oup c) W
        ∗ ((xM : Memref sig .tc .vmem S512x512 .f32).view.loc (c : Thread nD τ) ↦[(xM : Memref sig .tc .vmem S512x512 .f32).view.set]{fullShare} xstg m c)
        ∗ ((oM : Memref sig .tc .vmem S512x512 .bf16).view.loc (c : Thread nD τ) ↦[(oM : Memref sig .tc .vmem S512x512 .bf16).view.set]{fullShare} g1)
        ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  have h1 : k0_cond1 c = 1#1 := (cond1_iff c).2 hu
  have hn2 : ¬ k0_cond2 c = 1#1 := fun h => hd ((cond2_iff c).1 h)
  have h5 : k0_cond5 c = 1#1 := (cond5_iff c).2 hu
  have hn6 : ¬ k0_cond6 c = 1#1 := fun h => hd ((cond6_iff c).1 h)
  have hfu : Scalar.cmpi .ne (Scalar.extui (upW c) : BitVec 32) 0#32 = 1#1 := (upFlag_iff c).2 hu
  have hnfd : ¬ Scalar.cmpi .ne (Scalar.extui (dnW c) : BitVec 32) 0#32 = 1#1 := fun h => hd ((dnFlag_iff c).1 h)
  have hOrow : ∀ g u, 0 < (tallyAt (r1Cell (prv c)) () N : CellTallies nD τ sig Unit) g u → g = r1Cell (prv c) ∨ g = r0Cell (nxt c) := by
    intro g u h
    rw [tallyAt_apply] at h
    by_contra hn
    rw [not_or] at hn
    rw [if_neg (fun h' => hn.1 h'.1)] at h
    exact Nat.lt_irrefl 0 h
  have hmw := mayWait_bar (F := F) c _ hOrow
  unfold invs marks poss payToks upPts dnPts Oup
  iintro ⟨⟨#HIbar, #HIs0, #HIs1, #HIr0, #HIr1, #HIbarP, #HIbarN, #HIr1P, #HIr0N⟩, ⟨#HrBP, #HrBN, #HrR1P, #HrR0N, #HrS0, #HrS1, #HrR0, #HrR1⟩, #Hlev,
    ⟨HatB, HatS0, HatS1, HatR0, HatR1⟩, ⟨HtBP, -, HtR1P, -, HtS0, -⟩, HcB, HcR0, Hup, Hdn, HO, Hx, Hout, Hk⟩
  sl_unfold [cc0_body]
  sl_exec
  -- the neighbour above is inside the kernel: its landing buffer for this device's first row
  ihave Hp := (Entails.of_eq (payload_bar_false m c)) $$ HatB_pay1
  unfold barPayF dnPts
  icases Hp with ⟨⟨%fP, HdnP⟩, #HrR1P'⟩
  -- the block's staging buffer: a share to go on reading with, and a share of the first row to lend
  ihave Hx2 := (pointsTo_share (PosShare.mem_left_op_right fullShare)).1 $$ Hx
  icases Hx2 with ⟨HxL, HxR⟩
  ihave HxR2 := (pointsTo_share (PosShare.mem_left_op_right fullShare.right)).1 $$ HxR
  icases HxR2 with ⟨HxRL, HxRR⟩
  ihave Hx0' := (x0_split c fullShare.right.left (xstg m c)).1 $$ HxRL
  icases Hx0' with ⟨Hx0, Hx0c⟩
  -- the first row, upwards into the buffer below `prv c`
  iapply (wp_send_up m K c _ (dev3_eq c h5) hu fP _ _ 0 (zero_add _).symm) $$ [Hx0 HdnP HO HtS0 HtR1P]
  · isplitr; · iexact HIs0
    isplitr; · iexact HIr1P
    isplitl [Hx0]; · unfold x0Pts; iexact Hx0
    isplitl [HdnP]; · unfold dnPts; iexact HdnP
    isplitl [HO]; · iexact HO
    isplitl [HtS0]; · iexact HtS0
    isplitr; · iexact HrS0
    isplitl [HtR1P]; · iexact HtR1P
    iexact HrR1P
  iintro ⟨HcS0, HO⟩
  sl_exec
  -- what has landed: the row above from `prv c`
  ihave HupL := (Entails.of_eq (payload_r0_own m c false)) $$ HatR0_pay1
  sl_exec
  -- the own cells close: those of the upward exchange after their round, those of the downward one never had a duty
  imod (Rounds.cell_close ER (haloRd m) (Set.mem_univ (K (c, 1))) (fun h => h) (R := 0 + 1) (duties_later m (s0Cell c))) $$ [HatS0] with HzS0
  · isplitr; · iexact HIs0
    iexact HatS0
  imod (Rounds.cell_close ER (haloRd m) (Set.mem_univ (K (c, 2))) (fun h => h) (R := 0) (duties_s1_none m c hd)) $$ [HatS1] with HzS1
  · isplitr; · iexact HIs1
    iexact HatS1
  imod (Rounds.cell_close ER (haloRd m) (Set.mem_univ (K (c, 3))) (fun h => h) (R := 0 + 1) (duties_later m (r0Cell c))) $$ [HatR0] with HzR0
  · isplitr; · iexact HIr0
    iexact HatR0
  imod (Rounds.cell_close ER (haloRd m) (Set.mem_univ (K (c, 4))) (fun h => h) (R := 0) (duties_r1_none m c hd)) $$ [HatR1] with HzR1
  · isplitr; · iexact HIr1
    iexact HatR1
  -- the block's staging buffer whole again
  ihave HxRL := (x0_split c fullShare.right.left (xstg m c)).2 $$ [HatS0_pay1 Hx0c]
  · isplitl [HatS0_pay1]; · iexact HatS0_pay1
    iexact Hx0c
  ihave HxR := (pointsTo_share (PosShare.mem_left_op_right fullShare.right)).2 $$ [HxRL HxRR]
  · isplitl [HxRL]; · iexact HxRL
    iexact HxRR
  ihave Hx := (pointsTo_share (PosShare.mem_left_op_right fullShare)).2 $$ [HxL HxR]
  · isplitl [HxL]; · iexact HxL
    iexact HxR
  sl_step
  iapply Hk
  unfold bodyPost Φ₁ Dat.owesAt Pipeline.owesWithin
  rw [show (dats m 0 c).owed t₀.succ = 0 from rfl]
  isplitl [HupL Hdn HzS0 HzS1 HzR0 HzR1]
  · isplitl [HupL]; · iexists _; unfold upPts; iexact HupL
    isplitl [Hdn]; · iexists _; unfold dnPts; iexact Hdn
    isplitl [HzS0]; · iexact HzS0
    isplitl [HzS1]; · iexact HzS1
    isplitl [HzR0]; · iexact HzR0
    iexact HzR1
  isplitl [HO]
  · iexists _
    isplitr
    rotate_left
    · iexact HO
    · ipureintro; exact fun _ _ => Or.inl trivial
  isplitl [Hx]
  · iexists _; isplitr; · (ipureintro; rfl)
    rw [View.set_whole]
    iexact Hx
  iexists _
  isplitr
  rotate_left
  · rw [View.set_whole]
    iexact Hout
  · ipureintro
    sl_unfold_words
    unfold outAt OutSpec.outOf
    have hB : OutSpec.rowBot (posW c) (xstg m c) (landedDn m c) = OutSpec.rowBot (posW c) (xstg m c) fd := by
      rw [posW_last c hd]; exact OutSpec.rowBot_last _ _ _
    rw [hB]
    exact OutSpec.writes4_eq _ _ _ _ g1

end BodyLast

end Cert.KernelIdeal.Halo

end
-- ==== Proof.Body.lean ====
/-
  The body of one device, run once at a symbolic place: the three kinds of device (first, interior, last) put
  together, and the library's body obligation from them.
-/
import proofs.«900541_g7700000000000542_dist_halo_stencil_i_m512_n512_v7x_i16_bf16_1_alg».proof.Proof.BodyMid
import proofs.«900541_g7700000000000542_dist_halo_stencil_i_m512_n512_v7x_i16_bf16_1_alg».proof.Proof.BodyFirst
import proofs.«900541_g7700000000000542_dist_halo_stencil_i_m512_n512_v7x_i16_bf16_1_alg».proof.Proof.BodyLast

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

section Body
variable (K : Dev nD × Fin 5 → ℕ)

omit [FloatOps F] in
theorem xPts_eq (c : Dev nD) (f : Buf (Elt F) ((c : Thread nD τ).loc cc0_stg0_0)) :
    ((xM : Memref sig .tc .vmem S512x512 .f32).view.loc (c : Thread nD τ) ↦[(xM : Memref sig .tc .vmem S512x512 .f32).view.set]{fullShare} f : sProp 𝕄)
      = (((c : Thread nD τ).loc cc0_stg0_0) ↦{fullShare} f) := by rw [View.set_whole]
omit [FloatOps F] in
theorem oPts_eq (c : Dev nD) (f : Buf (Elt F) ((c : Thread nD τ).loc cc0_stg1_0)) :
    ((oM : Memref sig .tc .vmem S512x512 .bf16).view.loc (c : Thread nD τ) ↦[(oM : Memref sig .tc .vmem S512x512 .bf16).view.set]{fullShare} f : sProp 𝕄)
      = (((c : Thread nD τ).loc cc0_stg1_0) ↦{fullShare} f) := by rw [View.set_whole]

/-- The body of any device from what the launch hands it. -/
theorem sound_body (c : Dev nD) (Kt : PUnit → sProp 𝕄) (W : Waits sig Unit)
    (fu : Buf (Elt F) ((upM : Memref sig .tc .vmem S1x512 .f32).view.loc (c : Thread nD τ)))
    (fd : Buf (Elt F) ((dnM : Memref sig .tc .vmem S1x512 .f32).view.loc (c : Thread nD τ)))
    (g1 : Buf (Elt F) (((c : Dev nD) : Thread nD τ).loc cc0_stg1_0)) :
    iprop(ghost m K c ∗ creds c ∗ levAts L lv ∗ upPts c fu ∗ dnPts c fd ∗ owes (c : Thread nD τ) (O₀ c) W
        ∗ (((c : Thread nD τ).loc cc0_stg0_0) ↦{fullShare} xstg m c) ∗ (((c : Thread nD τ).loc cc0_stg1_0) ↦{fullShare} g1)
        ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  unfold ghost creds O₀
  rw [← xPts_eq, ← oPts_eq]
  by_cases hu : hasUp c <;> by_cases hd : hasDn c
  · -- an interior device
    simp only [nbar, if_pos hu, if_pos hd]
    iintro ⟨⟨HI, Hm, Hp, Ht⟩, ⟨HcB, HcR0, HcR1⟩, Hlev, Hup, Hdn, HO, Hx, Hout, Hk⟩
    iapply (sound_mid m K c hu hd Kt W fu fd g1)
    isplitl [HI]; · iexact HI
    isplitl [Hm]; · iexact Hm
    isplitl [Hlev]; · iexact Hlev
    isplitl [Hp]; · iexact Hp
    isplitl [Ht]; · iexact Ht
    isplitl [HcB]; · iexact HcB
    isplitl [HcR0]; · iexact HcR0
    isplitl [HcR1]; · iexact HcR1
    isplitl [Hup]; · iexact Hup
    isplitl [Hdn]; · iexact Hdn
    isplitl [HO]; · iexact HO
    isplitl [Hx]; · iexact Hx
    isplitl [Hout]; · iexact Hout
    iexact Hk
  · -- the last device
    simp only [nbar, if_pos hu, if_neg hd, add_zero, Nat.add_zero]
    iintro ⟨⟨HI, Hm, Hp, Ht⟩, ⟨HcB, HcR0, -⟩, Hlev, Hup, Hdn, HO, Hx, Hout, Hk⟩
    iapply (sound_last m K c hu hd Kt W fu fd g1)
    isplitl [HI]; · iexact HI
    isplitl [Hm]; · iexact Hm
    isplitl [Hlev]; · iexact Hlev
    isplitl [Hp]; · iexact Hp
    isplitl [Ht]; · iexact Ht
    isplitl [HcB]; · iexact HcB
    isplitl [HcR0]; · iexact HcR0
    isplitl [Hup]; · iexact Hup
    isplitl [Hdn]; · iexact Hdn
    isplitl [HO]; · iexact HO
    isplitl [Hx]; · iexact Hx
    isplitl [Hout]; · iexact Hout
    iexact Hk
  · -- the first device
    simp only [nbar, if_neg hu, if_pos hd, zero_add, Nat.zero_add]
    iintro ⟨⟨HI, Hm, Hp, Ht⟩, ⟨HcB, -, HcR1⟩, Hlev, Hup, Hdn, HO, Hx, Hout, Hk⟩
    iapply (sound_first m K c hu hd Kt W fu fd g1)
    isplitl [HI]; · iexact HI
    isplitl [Hm]; · iexact Hm
    isplitl [Hlev]; · iexact Hlev
    isplitl [Hp]; · iexact Hp
    isplitl [Ht]; · iexact Ht
    isplitl [HcB]; · iexact HcB
    isplitl [HcR1]; · iexact HcR1
    isplitl [Hup]; · iexact Hup
    isplitl [Hdn]; · iexact Hdn
    isplitl [HO]; · iexact HO
    isplitl [Hx]; · iexact Hx
    isplitl [Hout]; · iexact Hout
    iexact Hk
  · exfalso
    have hu' : ¬ 0 < c.val := hu
    have hd' : ¬ c.val < 15 := hd
    omega

end Body

set_option maxRecDepth 4000 in
/-- The library's body obligation on core `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m c)
  unfold bodyPre Φ₀ start Dat.owesAt Pipeline.owesWithin
  iintro ⟨⟨⟨⟨%K, Hg⟩, Hcr, Hlev⟩, ⟨%fu, Hup⟩, ⟨%fd, Hdn⟩⟩, ⟨%W, %hW, HO⟩, ⟨%d0, %g0, %hg0, Hx⟩, ⟨%d1, %g1, %hg1, Hout⟩⟩
  have hx : g0 = xstg m c := by rw [hg0]; unfold Dat.before; rw [if_pos (fetch_0 t₀)]; rfl
  subst hx
  rw [show (dats m 0 c).owed t₀.castSucc = O₀ c from rfl]
  iapply (sound_body m K c (fun _ => bodyPost m c) W fu fd g1)
  isplitl [Hg]; · iexact Hg
  isplitl [Hcr]; · iexact Hcr
  isplitl [Hlev]; · iexact Hlev
  isplitl [Hup]; · iexact Hup
  isplitl [Hdn]; · iexact Hdn
  isplitl [HO]; · iexact HO
  isplitl [Hx]; · iexact Hx
  isplitl [Hout]; · iexact Hout
  iintro H; iexact H

end Cert.KernelIdeal.Halo

end
-- ==== Proof.Launch.lean ====
/-
  The launch of the halo exchange on the line of sixteen devices: the ghost state of the eighty cells is minted and
  dealt around the ring (each device keeps its positions and receives the tokens of the duties it pays), the cells'
  invariants are allocated from the semaphores at zero, the units the neighbours owe a device at launch become its
  credit tokens (none towards a neighbour the line lacks), the staging waits are ordered below everything owed, and
  the library's launch theorem turns the body obligation into the run of the whole mesh.  The arrays after the run:
  the argument unchanged, the result what the one point wrote back.
-/
import proofs.«900541_g7700000000000542_dist_halo_stencil_i_m512_n512_v7x_i16_bf16_1_alg».proof.Proof.Body
import proofs.«900541_g7700000000000542_dist_halo_stencil_i_m512_n512_v7x_i16_bf16_1_alg».proof.Proof.Levels
import proofs.«900541_g7700000000000542_dist_halo_stencil_i_m512_n512_v7x_i16_bf16_1_alg».proof.Proof.Gen.KernelIdeal.Frame

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The ring's arithmetic and the cells apart -/

theorem prv_eq_iff {d c : Dev nD} : prv d = c ↔ d = nxt c := ⟨fun h => by rw [← h, nxt_prv], fun h => by rw [h, prv_nxt]⟩
theorem nxt_eq_iff {d c : Dev nD} : nxt d = c ↔ d = prv c := ⟨fun h => by rw [← h, prv_nxt], fun h => by rw [h, nxt_prv]⟩
theorem hasUp_nxt_iff (c : Dev nD) : hasUp (nxt c) ↔ hasDn c := by revert c; decide
theorem hasDn_prv_iff (c : Dev nD) : hasDn (prv c) ↔ hasUp c := by revert c; decide

theorem s0_ne_bar : (SemLoc.dma s0S : SemLoc sig) ≠ .reg barS := fun h => by cases h
theorem s1_ne_bar : (SemLoc.dma s1S : SemLoc sig) ≠ .reg barS := fun h => by cases h

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem r0_eq_iff {a b : Dev nD} : Iff (r0Cell a = r0Cell b) (a = b) :=
  ⟨fun h => Fin.ext (congrArg (fun g : GSem nD τ sig => g.1.1.val) h), fun h => h ▸ rfl⟩
omit [FloatOps F] in
theorem r1_eq_iff {a b : Dev nD} : Iff (r1Cell a = r1Cell b) (a = b) :=
  ⟨fun h => Fin.ext (congrArg (fun g : GSem nD τ sig => g.1.1.val) h), fun h => h ▸ rfl⟩

/-! ## What a device owes, cell by cell; the staging waits -/

omit [FloatOps F] in
/-- What device `d` owes a cell `g`: towards each neighbour it has, the row's credit on that neighbour's receive cell
    and one unit on its barrier cell. -/
theorem O₀_apply (d : Dev nD) (g : GSem nD τ sig) :
    O₀ d g () = (if hasUp d then (if g = r1Cell (prv d) then N else 0) + (if g = barCell (prv d) then 1 else 0) else 0)
      + (if hasDn d then (if g = r0Cell (nxt d) then N else 0) + (if g = barCell (nxt d) then 1 else 0) else 0) := by
  unfold O₀ Oup Odn
  rw [Pi.add_apply, Finsupp.add_apply]
  congr 1
  · by_cases h : hasUp d
    · rw [if_pos h, if_pos h, Pi.add_apply, Finsupp.add_apply, tallyAt_apply, tallyAt_apply]
      simp only [eq_self_iff_true, and_true]
    · rw [if_neg h, if_neg h, Pi.zero_apply, Finsupp.zero_apply]
  · by_cases h : hasDn d
    · rw [if_pos h, if_pos h, Pi.add_apply, Finsupp.add_apply, tallyAt_apply, tallyAt_apply]
      simp only [eq_self_iff_true, and_true]
    · rw [if_neg h, if_neg h, Pi.zero_apply, Finsupp.zero_apply]

omit [FloatOps F] in
theorem O₀_pos {c : Dev nD} {g : GSem nD τ sig} {u : Unit} (h : 0 < O₀ c g u) :
    g = r1Cell (prv c) ∨ g = barCell (prv c) ∨ g = r0Cell (nxt c) ∨ g = barCell (nxt c) := by
  cases u
  rw [O₀_apply] at h
  by_contra hn
  rw [not_or, not_or, not_or] at hn
  simp only [if_neg hn.1, if_neg hn.2.1, if_neg hn.2.2.1, if_neg hn.2.2.2, Nat.add_zero, ite_self, Nat.lt_irrefl] at h

omit [FloatOps F] in
/-- A wait on a semaphore that is neither receive cell's sits at level 0, below everything a device may owe. -/
theorem mayWait_stage (c : Dev nD) (q : DmaSem sig) (hq0 : SemLoc.dma q ≠ .dma r0S) (hq1 : SemLoc.dma q ≠ .dma r1S)
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl | rfl <;> exact Finset.mem_singleton_self _)
      (fun p hp => by
        rw [Finset.mem_singleton.mp hp]; dsimp only [lv]
        rw [if_neg (fun h => by cases h), if_neg (not_or.mpr ⟨hq0, hq1⟩)])
      (fun g u hg => by
        rcases O₀_pos hg with rfl | rfl | rfl | rfl
        · dsimp only [lv]; rw [if_neg r1_ne_bar, if_pos (Or.inr rfl)]; decide
        · dsimp only [lv]; rw [if_pos rfl]; decide
        · dsimp only [lv]; rw [if_neg r0_ne_bar, if_pos (Or.inl rfl)]; decide
        · dsimp only [lv]; rw [if_pos rfl]; decide)
  · rw [MayWait_zero]; iintro -; iempintro

/-! ## The launch -/

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 5 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
/-- The eighty cells of the exchange. -/
def haloCells : Finset (GSem nD τ sig) := Finset.univ.map ⟨kcell, kcell_injective⟩

/-- A device's own cells' duty tokens as minted, uniformly for every device whether or not the line gives the duty a
    payer: (device, which duty) — its barrier's `false` and `true`, and `false` of its two send and two receive cells. -/
abbrev tokKey : Fin 6 → SemLoc sig × Bool
  | 0 => (.reg barS, false) | 1 => (.reg barS, true) | 2 => (.dma s0S, false) | 3 => (.dma s1S, false) | 4 => (.dma r0S, false) | 5 => (.dma r1S, false)
theorem tokKey_injective : Function.Injective tokKey := by decide
abbrev tokOf (cj : Dev nD × Fin 6) : GSem nD τ sig × ℕ × Bool := (((cj.1 : Thread nD τ), (tokKey cj.2).1), 0, (tokKey cj.2).2)
theorem tokOf_injective : Function.Injective (tokOf : Dev nD × Fin 6 → GSem nD τ sig × ℕ × Bool) := by
  rintro ⟨c, j⟩ ⟨c', j'⟩ h
  have h1 : c = c' := congrArg (fun x : GSem nD τ sig × ℕ × Bool => x.1.1.1) h
  subst h1
  have : j = j' := tokKey_injective (Prod.ext (congrArg (fun x : GSem nD τ sig × ℕ × Bool => x.1.2) h) (congrArg (fun x : GSem nD τ sig × ℕ × Bool => x.2.2) h))
  subst this; rfl
def haloToks : Finset (GSem nD τ sig × ℕ × Bool) := Finset.univ.map ⟨tokOf, tokOf_injective⟩

def u₀ : UU :=
  (initOf (Pipeline.cells cfgs cellOf_inj) (Pipeline.launchToks cfgs cellOf_inj), initOf haloCells haloToks)

/-- The duty tokens of device `c`'s own cells. -/
def toks (c : Dev nD) : sProp 𝕄 :=
  iprop(dutyTok ER (barCell c) 0 false ∗ dutyTok ER (barCell c) 0 true ∗ dutyTok ER (s0Cell c) 0 false ∗ dutyTok ER (s1Cell c) 0 false
    ∗ dutyTok ER (r0Cell c) 0 false ∗ dutyTok ER (r1Cell c) 0 false)

/-- What the launch element deals device `c`. -/
def G (c : Dev nD) : sProp 𝕄 :=
  iprop((bigSep Finset.univ fun k : Fin 5 => roundState ER (haloRd m) (kcell (c, k)) 0)
    ∗ (bigSep Finset.univ fun k : Fin 5 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
omit [FloatOps F] in
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem fund_halo : BI.own (ER (initOf haloCells haloToks)) ⊢ (|==> bigSep Finset.univ (G m) : sProp 𝕄) := by
  have hX (Φ : GSem nD τ sig → sProp 𝕄) : bigSep haloCells Φ = bigSep Finset.univ fun c : Dev nD => bigSep Finset.univ fun k : Fin 5 => Φ (kcell (c, k)) := by
    unfold haloCells; rw [bigSep_map, bigSep_univ_prod]; rfl
  have hT : bigSep haloToks (fun x => (dutyTok ER x.1 x.2.1 x.2.2 : sProp 𝕄)) = bigSep Finset.univ fun c : Dev nD => toks c := by
    unfold haloToks; rw [bigSep_map, bigSep_univ_prod]
    exact bigSep_congr fun c _ => by unfold toks; rw [bigSep_fin6]; rfl
  iintro HX
  imod (Rounds.fund ER (haloRd m) haloCells haloToks) $$ HX with ⟨Hst, Hr, Hat, Htok⟩
  imodintro
  ihave Hst' := (Entails.of_eq (hX fun g => roundState ER (haloRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The two send and the two receive semaphores are the kernel's own four; -/
theorem ownSems0_eq (c : Dev nD) : (Pipeline.ownSems0 (Ix := Unit) (Name := ℕ) (U := UU) (Lvl := ℕ) (Val := Elt F) (τ := τ) osem c : sProp 𝕄)
    = iprop(semVal (s0Cell c) 0 ∗ semVal (s1Cell c) 0 ∗ semVal (r0Cell c) 0 ∗ semVal (r1Cell c) 0) := by
  rw [Pipeline.ownSems0_eq_of_list c osem [0, 1, 2, 3] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 5 => semVal (kcell (c, k)) 0 : sProp 𝕄) := by
  rw [ownSems0_eq, unscopedSems0_eq, bigSep_fin5]
  iintro ⟨⟨H0, H1, H2, H3⟩, HB⟩
  isplitl [HB]; · iexact HB
  isplitl [H0]; · iexact H0
  isplitl [H1]; · iexact H1
  isplitl [H2] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (haloRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 5 => semVal (kcell (c, k)) 0) ∗ bigSep Finset.univ fun k : Fin 5 => roundState ER (haloRd m) (kcell (c, k)) 0)
      ⊢ (|={Set.univ}=> bigSep Finset.univ fun k => iprop(∃ κ : ℕ, cellInv ER (haloRd m) κ (kcell (c, k))) : sProp 𝕄) from by
        rw [← bigSep_sep']
        exact (bigSep_mono fun k _ => (Rounds.body_intro ER (haloRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The persistent records of the whole mesh: every cell's invariant under its name, and that round 0 of each is reached. -/
def records (K : Dev nD × Fin 5 → ℕ) : sProp 𝕄 :=
  iprop((bigSep Finset.univ fun ck : Dev nD × Fin 5 => cellInv ER (haloRd m) (K ck) (kcell ck))
    ∗ bigSep Finset.univ fun ck : Dev nD × Fin 5 => reached ER (kcell ck) 0)

instance records_persistent (K : Dev nD × Fin 5 → ℕ) : BI.Persistent (records m K) := by unfold records; infer_instance

theorem inv_at (K : Dev nD × Fin 5 → ℕ) (ck : Dev nD × Fin 5) :
    (bigSep Finset.univ fun ck : Dev nD × Fin 5 => (cellInv ER (haloRd m) (K ck) (kcell ck) : sProp 𝕄)) ⊢ cellInv ER (haloRd m) (K ck) (kcell ck) :=
  bigSep_elim (Finset.mem_univ ck)
omit [FloatOps F] in
theorem reached_at (ck : Dev nD × Fin 5) :
    (bigSep Finset.univ fun ck : Dev nD × Fin 5 => (reached ER (kcell ck) 0 : sProp 𝕄)) ⊢ reached ER (kcell ck) 0 :=
  bigSep_elim (Finset.mem_univ ck)

/-- What stays with device `c`: its positions, and the tokens of the duties IT pays. -/
def linear (c : Dev nD) : sProp 𝕄 := iprop(poss c ∗ payToks c)

theorem ghost_intro (K : Dev nD × Fin 5 → ℕ) (c : Dev nD) : iprop(records m K ∗ linear c) ⊢ G' m c := by
  unfold records linear G' ghost invs marks
  iintro ⟨⟨#HI, #HR⟩, Hp, Ht⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (prv c, 0)); iexact HI
    isplitr; · iapply (inv_at m K (nxt c, 0)); iexact HI
    isplitr; · iapply (inv_at m K (prv c, 4)); iexact HI
    iapply (inv_at m K (nxt c, 3)); iexact HI
  isplitr
  · isplitr; · iapply (reached_at (F := F) (prv c, 0)); iexact HR
    isplitr; · iapply (reached_at (F := F) (nxt c, 0)); iexact HR
    isplitr; · iapply (reached_at (F := F) (prv c, 4)); iexact HR
    isplitr; · iapply (reached_at (F := F) (nxt c, 3)); iexact HR
    isplitr; · iapply (reached_at (F := F) (c, 1)); iexact HR
    isplitr; · iapply (reached_at (F := F) (c, 2)); iexact HR
    isplitr; · iapply (reached_at (F := F) (c, 3)); iexact HR
    iapply (reached_at (F := F) (c, 4)); iexact HR
  isplitl [Hp]; · iexact Hp
  iexact Ht

omit [FloatOps F] in
/-- The tokens dealt around the ring: a barrier's `false` token and the upper receive cell's one device down (to `prv`),
    the barrier's `true` token and the lower receive cell's one device up (to `nxt`); the send tokens stay. -/
theorem toks_around : (bigSep Finset.univ fun c : Dev nD => (toks c : sProp 𝕄)) ⊢ bigSep Finset.univ fun c : Dev nD => payToks c := by
  unfold toks payToks
  simp only [bigSep_sep']
  rw [bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring (fun c : Dev nD => (dutyTok ER (r0Cell c) 0 false : sProp 𝕄)),
    bigSep_univ_equiv ring.symm (fun c : Dev nD => (dutyTok ER (r1Cell c) 0 false : sProp 𝕄))]
  iintro ⟨H1, H2, H3, H4, H5, H6⟩
  isplitl [H2]; · iexact H2
  isplitl [H1]; · iexact H1
  isplitl [H6]; · iexact H6
  isplitl [H5]; · iexact H5
  isplitl [H3]; · iexact H3
  iexact H4

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (haloRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 5 => iprop(∃ κ : ℕ, cellInv ER (haloRd m) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htok⟩
  ihave HK := (BI.bigSep_exists_pi Finset.univ (fun (ck : Dev nD × Fin 5) (κ : ℕ) => (cellInv ER (haloRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 5 => (atPos ER (kcell (c, k)) 0 ∅ 0 : sProp 𝕄)) payToks).symm).trans
      (bigSep_mono fun c _ => show _ ⊢ linear c from Entails.of_eq (by unfold linear poss; rw [bigSep_fin5])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] in
/-- What device `d` owes device `c`'s barrier cell: a unit if it is the neighbour above (which `c` has when it has one
    above), a unit if it is the neighbour below. -/
theorem owed_bar (d c : Dev nD) :
    O₀ d (barCell c) () = (if d = prv c then (if hasUp c then 1 else 0) else 0) + (if d = nxt c then (if hasDn c then 1 else 0) else 0) := by
  rw [O₀_apply, if_neg (show ¬ barCell c = r1Cell (prv d) from fun h => r1_ne_bar (congrArg Prod.snd h).symm),
    if_neg (show ¬ barCell c = r0Cell (nxt d) from fun h => r0_ne_bar (congrArg Prod.snd h).symm), Nat.zero_add, Nat.zero_add, Nat.add_comm]
  congr 1
  · by_cases h : d = prv c
    · subst h; rw [nxt_prv, if_pos rfl, if_pos rfl]; exact if_congr (hasDn_prv_iff c) rfl rfl
    · rw [if_neg h, if_neg (fun h1 => h (nxt_eq_iff.mp (bar_eq_iff.mp h1).symm)), ite_self]
  · by_cases h : d = nxt c
    · subst h; rw [prv_nxt, if_pos rfl, if_pos rfl]; exact if_congr (hasUp_nxt_iff c) rfl rfl
    · rw [if_neg h, if_neg (fun h1 => h (prv_eq_iff.mp (bar_eq_iff.mp h1).symm)), ite_self]

omit [FloatOps F] in
/-- The upper receive cell of `c` is owed the row of the neighbour above, -/
theorem owed_r0 (d c : Dev nD) : O₀ d (r0Cell c) () = if d = prv c then (if hasUp c then N else 0) else 0 := by
  rw [O₀_apply, if_neg (show ¬ r0Cell c = r1Cell (prv d) from fun h => r0_ne_r1 (congrArg Prod.snd h)),
    if_neg (show ¬ r0Cell c = barCell (prv d) from fun h => r0_ne_bar (congrArg Prod.snd h)),
    if_neg (show ¬ r0Cell c = barCell (nxt d) from fun h => r0_ne_bar (congrArg Prod.snd h))]
  simp only [Nat.add_zero, Nat.zero_add, ite_self]
  by_cases h : d = prv c
  · subst h; rw [nxt_prv, if_pos rfl, if_pos rfl]; exact if_congr (hasDn_prv_iff c) rfl rfl
  · rw [if_neg h, if_neg (fun h1 => h (nxt_eq_iff.mp (r0_eq_iff.mp h1).symm)), ite_self]

omit [FloatOps F] in
/-- the lower one the row of the neighbour below. -/
theorem owed_r1 (d c : Dev nD) : O₀ d (r1Cell c) () = if d = nxt c then (if hasDn c then N else 0) else 0 := by
  rw [O₀_apply, if_neg (show ¬ r1Cell c = r0Cell (nxt d) from fun h => r1_ne_r0 (congrArg Prod.snd h)),
    if_neg (show ¬ r1Cell c = barCell (prv d) from fun h => r1_ne_bar (congrArg Prod.snd h)),
    if_neg (show ¬ r1Cell c = barCell (nxt d) from fun h => r1_ne_bar (congrArg Prod.snd h))]
  simp only [Nat.add_zero, Nat.zero_add, ite_self]
  by_cases h : d = nxt c
  · subst h; rw [prv_nxt, if_pos rfl, if_pos rfl]; exact if_congr (hasUp_nxt_iff c) rfl rfl
  · rw [if_neg h, if_neg (fun h1 => h (prv_eq_iff.mp (r1_eq_iff.mp h1).symm)), ite_self]

omit [FloatOps F] in
theorem launch_bar (c : Dev nD) :
    tallyOn (barCell c) (launchCredit (Pipeline.owing O₀) 0 (barCell c)) = (tallyAt (barCell c) () (nbar c) : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => if hasUp c then 1 else 0, Finset.sum_ite_eq' Finset.univ (nxt c) fun _ => if hasDn c then 1 else 0,
    if_pos (Finset.mem_univ _), if_pos (Finset.mem_univ _)]

omit [FloatOps F] in
theorem launch_r0 (c : Dev nD) (h : hasUp c) :
    tallyOn (r0Cell c) (launchCredit (Pipeline.owing O₀) 0 (r0Cell c)) = (tallyAt (r0Cell c) () N : CellTallies nD τ sig Unit) := by
  unfold tallyAt; refine congrArg _ (Finsupp.ext fun u => ?_); cases u
  rw [Pipeline.launchCredit_owing, Finsupp.single_eq_same, Finset.sum_congr rfl fun d _ => owed_r0 d c,
    Finset.sum_ite_eq' Finset.univ (prv c) fun _ => if hasUp c then N else 0, if_pos (Finset.mem_univ _), if_pos h]

omit [FloatOps F] in
theorem launch_r1 (c : Dev nD) (h : hasDn c) :
    tallyOn (r1Cell c) (launchCredit (Pipeline.owing O₀) 0 (r1Cell c)) = (tallyAt (r1Cell c) () N : CellTallies nD τ sig Unit) := by
  unfold tallyAt; refine congrArg _ (Finsupp.ext fun u => ?_); cases u
  rw [Pipeline.launchCredit_owing, Finsupp.single_eq_same, Finset.sum_congr rfl fun d _ => owed_r1 d c,
    Finset.sum_ite_eq' Finset.univ (nxt c) fun _ => if hasDn c then N else 0, if_pos (Finset.mem_univ _), if_pos h]

omit [FloatOps F] in
theorem bigSep_erase_at {I : Type} [DecidableEq I] {s : Finset I} {i : I} (hi : i ∈ s) (Φ : I → sProp 𝕄) :
    bigSep s Φ = iprop(Φ i ∗ bigSep (s.erase i) Φ) := bigSep_erase hi

omit [FloatOps F] in
/-- The launch's credit tokens of device `c`: its barrier's units and, towards each neighbour it has, a row's credit. -/
theorem creds_intro (c : Dev nD) : (Pipeline.launchCred O₀ c : sProp 𝕄) ⊢ creds c := by
  have h1 : (bigSep ((Finset.univ.erase (SemLoc.reg barS)).erase (SemLoc.dma r0S)) fun sm : SemLoc sig =>
        (cred (tallyOn ((c : Thread nD τ), sm) (launchCredit (Pipeline.owing O₀) 0 ((c : Thread nD τ), sm))) : sProp 𝕄))
      ⊢ cred (tallyOn (r1Cell c) (launchCredit (Pipeline.owing O₀) 0 (r1Cell c))) :=
    bigSep_elim (Finset.mem_erase.mpr ⟨r1_ne_r0, Finset.mem_erase.mpr ⟨r1_ne_bar, Finset.mem_univ _⟩⟩)
  unfold Pipeline.launchCred creds
  rw [bigSep_univ_at _ (SemLoc.reg barS), launch_bar,
    bigSep_erase_at (i := SemLoc.dma r0S) (Finset.mem_erase.mpr ⟨r0_ne_bar, Finset.mem_univ _⟩)]
  iintro ⟨Hb, H0, Hrest⟩
  isplitl [Hb]; · iexact Hb
  isplitl [H0]
  · by_cases h : hasUp c
    · rw [if_pos h, ← launch_r0 c h]; iexact H0
    · rw [if_neg h]; iempintro
  · by_cases h : hasDn c
    · rw [if_pos h, ← launch_r1 c h]
      iapply h1; iexact Hrest
    · rw [if_neg h]; iempintro

/-! ### The theorem's side conditions -/

omit [FloatOps F] in
theorem up_set : (upM : Memref sig .tc .vmem S1x512 .f32).view.set = Finset.univ := View.set_whole _
omit [FloatOps F] in
theorem dn_set : (dnM : Memref sig .tc .vmem S1x512 .f32).view.set = Finset.univ := View.set_whole _
omit [FloatOps F] in
theorem upPts_eq (c : Dev nD) (f : Buf (Elt F) ((c : Thread nD τ).loc cc0_scratch0)) :
    upPts c f = (((c : Thread nD τ).loc cc0_scratch0) ↦{fullShare} f : sProp 𝕄) := by unfold upPts; rw [up_set]
omit [FloatOps F] in
theorem dnPts_eq (c : Dev nD) (f : Buf (Elt F) ((c : Thread nD τ).loc cc0_scratch1)) :
    dnPts c f = (((c : Thread nD τ).loc cc0_scratch1) ↦{fullShare} f : sProp 𝕄) := by unfold dnPts; rw [dn_set]

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hu⟩, ⟨%g, Hd⟩⟩
  isplitl [Hs]; · iexact Hs
  isplitl [Hu]
  · iexists f; rw [upPts_eq]; iexact Hu
  · iexists g; rw [dnPts_eq]; iexact Hd

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁
  iintro ⟨⟨%f, Hu⟩, ⟨%g, Hd⟩, H0, H1, H2, H3⟩
  isplitr; · iempintro
  isplitl [H0 H1 H2 H3]
  · isplitl [H0]; · iexact H0
    isplitl [H1]; · iexact H1
    isplitl [H2] <;> iassumption
  isplitl [Hu]
  · iexists f; rw [← upPts_eq]; iexact Hu
  · iexists g; rw [← dnPts_eq]; iexact Hd

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of sixteen devices, for any float values, from any memory with zero counters: every weakly fair
    execution of @main — the sixteen kernels handshaking with their neighbours on the barrier semaphore, then exchanging
    their outer rows along the line — terminates, and every final state has each device's result array at the computed
    contents and its block of `x` unchanged. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_halo m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- The `x` array after the run holds what it held. -/
theorem finalA_x (c : Dev nD) : finalA m c (0 : Fin 2) = m (win0_0.arr.view.loc (c : Thread nD τ)) :=
  (dats (F := F) m 0 c).arrAt_in (0 : Fin 2) rfl _

/-- The result array after the run holds what the one point wrote back: its window is the whole array at block index 0,
    written from the staging buffer the body left at `outAt`. -/
theorem finalA_out (c : Dev nD) : finalA m c (1 : Fin 2) = outAt m c := by
  show (dats m 0 c).arrAt (1 : Fin 2) (t₀.val + 1) = outAt m c
  rw [(dats (F := F) m 0 c).arrAt_succ (1 : Fin 2) t₀, if_pos (flush0_1 t₀)]
  exact Memref.write_access_unit_zero_univ (Elt F) main_v1 (funext fun a => Nat.zero_mul _) _ _ (outAt m c)

/-- info: 'Cert.KernelIdeal.Halo.run_main' depends on axioms: [propext, Classical.choice, Quot.sound] -/
#guard_msgs in #print axioms run_main

end Cert.KernelIdeal.Halo

end
-- ==== Proof.Bits.Proto.lean ====
/-
  The halo exchange's protocol on the line of sixteen devices, read on the ring ℤ/16 so that every device has a
  predecessor `prv` and a successor `nxt`; the two ends simply have no duty towards the neighbour the line lacks.
  Per device five cells: the barrier semaphore (one unit from each existing neighbour, signalled at entry), the two
  send semaphores (row 0 leaving upwards, row 511 leaving downwards) and the two receive semaphores (the halo row
  above landing from `prv`, the halo row below landing from `nxt`).  A barrier unit from a neighbour hands over that
  neighbour's landing buffer for this device's row, with the fact that the neighbour is at round 0 of the receive
  cell the row will credit: this is what lets the row be sent only after the neighbour is inside the kernel.
-/
import proofs.«900541_g7700000000000542_dist_halo_stencil_i_m512_n512_v7x_i16_bf16_1_alg».proof.Proof.Gen.Kernel
import proofs.«900541_g7700000000000542_dist_halo_stencil_i_m512_n512_v7x_i16_bf16_1_alg».proof.Proof.Gen.Kernel.Skeleton
import proofs.«900541_g7700000000000542_dist_halo_stencil_i_m512_n512_v7x_i16_bf16_1_alg».proof.Proof.Gen.Kernel.Launch
import proofs.«900541_g7700000000000542_dist_halo_stencil_i_m512_n512_v7x_i16_bf16_1_alg».proof.Proof.Gen.Kernel.Points
import Idealize.ShloMosaic.Lib.Pipeline.Launch
import Idealize.ShloMosaic.Lib.Pipeline.Kit
import Idealize.ShloMosaic.Lib.Tactic

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the rounds of the exchange (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The line, read on the ring -/

def nxt (c : Dev nD) : Dev nD := ⟨(c.val + 1) % 16, Nat.mod_lt _ (by decide)⟩
def prv (c : Dev nD) : Dev nD := ⟨(c.val + 15) % 16, Nat.mod_lt _ (by decide)⟩

theorem prv_nxt (c : Dev nD) : prv (nxt c) = c := by revert c; decide
theorem nxt_prv (c : Dev nD) : nxt (prv c) = c := by revert c; decide

def ring : Dev nD ≃ Dev nD := ⟨nxt, prv, prv_nxt, nxt_prv⟩

/-- A device has a neighbour above it (it is not the first), below it (it is not the last). -/
abbrev hasUp (c : Dev nD) : Prop := 0 < c.val
abbrev hasDn (c : Dev nD) : Prop := c.val < 15

theorem hasUp_nxt {c : Dev nD} (h : hasDn c) : hasUp (nxt c) := by revert c; decide
theorem hasDn_prv {c : Dev nD} (h : hasUp c) : hasDn (prv c) := by revert c; decide

/-- The printed conditions, decided over the mesh. -/
theorem cond1_iff (c : Dev nD) : k0_cond1 c = 1#1 ↔ hasUp c := by revert c; decide +kernel
theorem cond2_iff (c : Dev nD) : k0_cond2 c = 1#1 ↔ hasDn c := by revert c; decide +kernel
theorem cond5_iff (c : Dev nD) : k0_cond5 c = 1#1 ↔ hasUp c := by revert c; decide +kernel
theorem cond6_iff (c : Dev nD) : k0_cond6 c = 1#1 ↔ hasDn c := by revert c; decide +kernel

/-- The device's position as the body computes it, and the two flags it carries through its parts. -/
abbrev posW (c : Dev nD) : BitVec 32 := Scalar.remsi (Scalar.divsi (Dev.word c) 1#32) 16#32
abbrev upW (c : Dev nD) : BitVec 1 := Scalar.cmpi .sgt (posW c) 0#32
abbrev dnW (c : Dev nD) : BitVec 1 := Scalar.cmpi .slt (posW c) 15#32

theorem upFlag_iff (c : Dev nD) : Scalar.cmpi .ne (Scalar.extui (upW c) : BitVec 32) 0#32 = 1#1 ↔ hasUp c := by revert c; decide +kernel
theorem dnFlag_iff (c : Dev nD) : Scalar.cmpi .ne (Scalar.extui (dnW c) : BitVec 32) 0#32 = 1#1 ↔ hasDn c := by revert c; decide +kernel
theorem isFirst_iff (c : Dev nD) : Scalar.cmpi .eq (posW c) 0#32 = 1#1 ↔ c.val = 0 := by revert c; decide +kernel
theorem isLast_iff (c : Dev nD) : Scalar.cmpi .eq (posW c) 15#32 = 1#1 ↔ c.val = 15 := by revert c; decide +kernel

/-- The printed device chains: both signals and both rows go to the ring neighbours. -/
theorem dev1_val : ∀ c : Dev nD, k0_cond1 c = 1#1 → k0_dev1 c = (prv c).val := by decide +kernel
theorem dev2_val : ∀ c : Dev nD, k0_cond2 c = 1#1 → k0_dev2 c = (nxt c).val := by decide +kernel
theorem dev3_val : ∀ c : Dev nD, k0_cond5 c = 1#1 → k0_dev3 c = (prv c).val := by decide +kernel
theorem dev4_val : ∀ c : Dev nD, k0_cond6 c = 1#1 → k0_dev4 c = (nxt c).val := by decide +kernel
theorem dev1_eq (c : Dev nD) (h : k0_cond1 c = 1#1) : (⟨k0_dev1 c, k0_dev1_lt c h⟩ : Dev nD) = prv c := Fin.ext (dev1_val c h)
theorem dev2_eq (c : Dev nD) (h : k0_cond2 c = 1#1) : (⟨k0_dev2 c, k0_dev2_lt c h⟩ : Dev nD) = nxt c := Fin.ext (dev2_val c h)
theorem dev3_eq (c : Dev nD) (h : k0_cond5 c = 1#1) : (⟨k0_dev3 c, k0_dev3_lt c h⟩ : Dev nD) = prv c := Fin.ext (dev3_val c h)
theorem dev4_eq (c : Dev nD) (h : k0_cond6 c = 1#1) : (⟨k0_dev4 c, k0_dev4_lt c h⟩ : Dev nD) = nxt c := Fin.ext (dev4_val c h)

/-! ## The memrefs and cells -/

abbrev xM : Memref sig .tc .vmem S512x512 .f32 := Memref.whole cc0_stg0_0
abbrev oM : Memref sig .tc .vmem S512x512 .bf16 := Memref.whole cc0_stg1_0
/-- the landing buffer of the row above (from `prv`), of the row below (from `nxt`) -/
abbrev upM : Memref sig .tc .vmem S1x512 .f32 := Memref.whole cc0_scratch0
abbrev dnM : Memref sig .tc .vmem S1x512 .f32 := Memref.whole cc0_scratch1
/-- the device's own first and last row, as the rows it sends -/
abbrev x0M : Memref sig .tc .vmem S1x512 .f32 := xM.slice (Rect.unit (s := S512x512) ![0, 0] S1x512.size inb_S512x512_S1x512_0_0) (fun _ => rfl)
abbrev x511M : Memref sig .tc .vmem S1x512 .f32 := xM.slice (Rect.unit (s := S512x512) ![511, 0] S1x512.size inb_S512x512_S1x512_511_0) (fun _ => rfl)

abbrev barS : Sem sig := (SemArray.scalar (sig.barrier 0 rfl) : Sems sig S_).sem
abbrev s0S : DmaSem sig := ((cc0_scratch2.slice (Rect.unit (s := S2) ![0] S1.size inb_S2_S1_0)).squeeze S_ squeezes_S1_S_).sem
abbrev s1S : DmaSem sig := ((cc0_scratch2.slice (Rect.unit (s := S2) ![1] S1.size inb_S2_S1_1)).squeeze S_ squeezes_S1_S_).sem
abbrev r0S : DmaSem sig := ((cc0_scratch3.slice (Rect.unit (s := S2) ![0] S1.size inb_S2_S1_0)).squeeze S_ squeezes_S1_S_).sem
abbrev r1S : DmaSem sig := ((cc0_scratch3.slice (Rect.unit (s := S2) ![1] S1.size inb_S2_S1_1)).squeeze S_ squeezes_S1_S_).sem

theorem s0S_eq : s0S = (2 : DmaSem sig) := by decide
theorem s1S_eq : s1S = (3 : DmaSem sig) := by decide
theorem r0S_eq : r0S = (4 : DmaSem sig) := by decide
theorem r1S_eq : r1S = (5 : DmaSem sig) := by decide

abbrev barCell (c : Dev nD) : GSem nD τ sig := ((c : Thread nD τ), .reg barS)
abbrev s0Cell (c : Dev nD) : GSem nD τ sig := ((c : Thread nD τ), .dma s0S)
abbrev s1Cell (c : Dev nD) : GSem nD τ sig := ((c : Thread nD τ), .dma s1S)
abbrev r0Cell (c : Dev nD) : GSem nD τ sig := ((c : Thread nD τ), .dma r0S)
abbrev r1Cell (c : Dev nD) : GSem nD τ sig := ((c : Thread nD τ), .dma r1S)

/-- The kernel's own (scoped) semaphores as the launch indexes them; all five cells as this proof does. -/
abbrev osem : Fin 4 → SemLoc sig := fun | 0 => .dma s0S | 1 => .dma s1S | 2 => .dma r0S | 3 => .dma r1S
abbrev csem : Fin 5 → SemLoc sig := fun | 0 => .reg barS | 1 => .dma s0S | 2 => .dma s1S | 3 => .dma r0S | 4 => .dma r1S
abbrev kcell (ck : Dev nD × Fin 5) : GSem nD τ sig := ((ck.1 : Thread nD τ), csem ck.2)

abbrev N : ℕ := (upM : Memref sig .tc .vmem S1x512 .f32).view.dmaCredit
theorem N_pos : 0 < N := View.dmaCredit_pos _ (by decide)

/-! ## Contents -/

/-- Device `c`'s block of `x`, as its staging buffer holds it. -/
def xstg (c : Dev nD) : (cc0_stg0_0 : Ref sig .tc).ty.Contents (Elt F) :=
  (win0_0.blk (0 : Fin 1)).view.read (Elt F) (m ((c : Thread nD τ).loc main_arg0))

/-- What lands above: the last row of `prv c`'s block; below: the first row of `nxt c`'s. -/
def landedUp (c : Dev nD) : (cc0_scratch0 : Ref sig .tc).ty.Contents (Elt F) := (x511M : Memref sig .tc .vmem S1x512 .f32).view.read (Elt F) (xstg m (prv c))
def landedDn (c : Dev nD) : (cc0_scratch1 : Ref sig .tc).ty.Contents (Elt F) := (x0M : Memref sig .tc .vmem S1x512 .f32).view.read (Elt F) (xstg m (nxt c))

def upPts (c : Dev nD) (f : Buf (Elt F) ((upM : Memref sig .tc .vmem S1x512 .f32).view.loc (c : Thread nD τ))) : sProp 𝕄 :=
  (upM : Memref sig .tc .vmem S1x512 .f32).view.loc (c : Thread nD τ) ↦[(upM : Memref sig .tc .vmem S1x512 .f32).view.set]{fullShare} f
def dnPts (c : Dev nD) (f : Buf (Elt F) ((dnM : Memref sig .tc .vmem S1x512 .f32).view.loc (c : Thread nD τ))) : sProp 𝕄 :=
  (dnM : Memref sig .tc .vmem S1x512 .f32).view.loc (c : Thread nD τ) ↦[(dnM : Memref sig .tc .vmem S1x512 .f32).view.set]{fullShare} f
/-- The shares of its own rows a device lends to its two transfers while it goes on reading the block. -/
def x0Pts (c : Dev nD) : sProp 𝕄 :=
  (x0M : Memref sig .tc .vmem S1x512 .f32).view.loc (c : Thread nD τ) ↦[(x0M : Memref sig .tc .vmem S1x512 .f32).view.set]{fullShare.right.left} xstg m c
def x511Pts (c : Dev nD) : sProp 𝕄 :=
  (x511M : Memref sig .tc .vmem S1x512 .f32).view.loc (c : Thread nD τ) ↦[(x511M : Memref sig .tc .vmem S1x512 .f32).view.set]{fullShare.right.right} xstg m c

omit [FloatOps F] in
instance upPts_storable (c : Dev nD) (f) : BI.Storable (upEmb : UEmb _ 𝕄) (upPts (F := F) c f) := by unfold upPts; infer_instance
omit [FloatOps F] in
instance dnPts_storable (c : Dev nD) (f) : BI.Storable (upEmb : UEmb _ 𝕄) (dnPts (F := F) c f) := by unfold dnPts; infer_instance
omit [FloatOps F] in
instance x0Pts_storable (c : Dev nD) : BI.Storable (upEmb : UEmb _ 𝕄) (x0Pts (F := F) m c) := by unfold x0Pts; infer_instance
omit [FloatOps F] in
instance x511Pts_storable (c : Dev nD) : BI.Storable (upEmb : UEmb _ 𝕄) (x511Pts (F := F) m c) := by unfold x511Pts; infer_instance

/-! ## The schedule -/

/-- A barrier unit from `prv c` (duty `false`) hands `c` the buffer below `prv c` and that `prv c` is at round 0 of the
    receive cell `c`'s first row will credit; one from `nxt c` (duty `true`) the buffer above `nxt c`, likewise. -/
def barPayF (c : Dev nD) : sProp 𝕄 := iprop((∃ f, dnPts (prv c) f) ∗ reached ER (r1Cell (prv c)) 0)
def barPayT (c : Dev nD) : sProp 𝕄 := iprop((∃ f, upPts (nxt c) f) ∗ reached ER (r0Cell (nxt c)) 0)

abbrev IsBar (g : GSem nD τ sig) : Prop := g.1.2 = .tc ∧ g.2 = .reg barS
abbrev IsUpX (g : GSem nD τ sig) : Prop := g.1.2 = .tc ∧ (g.2 = .dma s0S ∨ g.2 = .dma r0S)
abbrev IsDnX (g : GSem nD τ sig) : Prop := g.1.2 = .tc ∧ (g.2 = .dma s1S ∨ g.2 = .dma r1S)

/-- One round. A barrier cell has duty `false` when the device has a neighbour above and `true` when it has one below,
    a unit each; the send and receive cells of the upward (downward) exchange one duty `false` of a row's credit when
    that neighbour exists. -/
def haloRd : Rounds.Schedule (GSem nD τ sig) Bool 𝕄 where
  duties g r :=
    if r = 0 ∧ IsBar g then (if hasUp g.1.1 then {false} else ∅) ∪ (if hasDn g.1.1 then {true} else ∅)
    else if r = 0 ∧ IsUpX g then (if hasUp g.1.1 then {false} else ∅)
    else if r = 0 ∧ IsDnX g then (if hasDn g.1.1 then {false} else ∅)
    else ∅
  unitless _ := False
  amount g _ _ := if g.2 = .reg barS then 1 else N
  payload g _ d :=
    if g.2 = .reg barS then (if d then barPayT g.1.1 else barPayF g.1.1)
    else if g.2 = .dma r0S then upPts g.1.1 (landedUp m g.1.1)
    else if g.2 = .dma r1S then dnPts g.1.1 (landedDn m g.1.1)
    else if g.2 = .dma s0S then x0Pts m g.1.1
    else if g.2 = .dma s1S then x511Pts m g.1.1
    else iprop(emp)
  amount_pos g _ _ _ := by
    by_cases h : g.2 = .reg barS
    · rw [if_pos h]; exact Nat.one_pos
    · rw [if_neg h]; exact N_pos

instance haloRd_payload_storable (g : GSem nD τ sig) (r : ℕ) (d : Bool) :
    BI.Storable (upEmb : UEmb _ 𝕄) ((haloRd (F := F) m).payload g r d) := by
  show BI.Storable upEmb (if g.2 = .reg barS then (if d then barPayT g.1.1 else barPayF g.1.1)
    else if g.2 = .dma r0S then upPts g.1.1 (landedUp m g.1.1)
    else if g.2 = .dma r1S then dnPts g.1.1 (landedDn m g.1.1)
    else if g.2 = .dma s0S then x0Pts m g.1.1
    else if g.2 = .dma s1S then x511Pts m g.1.1
    else iprop(emp))
  unfold barPayT barPayF
  (repeat' split) <;> infer_instance

end Cert.Kernel.Halo

end
-- ==== Proof.Bits.OutSpec.lean ====
/-
  The kernel's result on one device as ONE function of the device's block and the two halo rows.
  The body writes the result block by four read-modify-write stores (rows 0..255 with rows 1..255 replaced, rows
  256..511 with rows 256..510 replaced, rows 0..1 with row 0 replaced, rows 510..511 with row 511 replaced); whatever
  the block held before, every row is replaced exactly once at the end: row 0 by the top row's value, rows 1..255 and
  256..510 by the two interior slabs, row 511 by the bottom row's value.
-/
import proofs.«900541_g7700000000000542_dist_halo_stencil_i_m512_n512_v7x_i16_bf16_1_alg».proof.Proof.Gen.Kernel
import proofs.«900541_g7700000000000542_dist_halo_stencil_i_m512_n512_v7x_i16_bf16_1_alg».proof.Proof.Gen.Kernel.Skeleton
import Idealize.ShloMosaic.Lib.Pipeline.Value
import Idealize.ShloMosaic.Lib.ValueIdx

noncomputable section

namespace Cert.Kernel.OutSpec

open Cert.Kernel Cert.Kernel.Gen
open Idealize.ShloMosaic Idealize.ShloMosaic.TcCoe Idealize.SL.Sem

variable {F : FTy → Type} [FloatOps F]

abbrev xM : Memref sig .tc .vmem S512x512 .f32 := Memref.whole cc0_stg0_0
abbrev oM : Memref sig .tc .vmem S512x512 .bf16 := Memref.whole cc0_stg1_0
abbrev upM : Memref sig .tc .vmem S1x512 .f32 := Memref.whole cc0_scratch0
abbrev dnM : Memref sig .tc .vmem S1x512 .f32 := Memref.whole cc0_scratch1

abbrev XC := (cc0_stg0_0 : Ref sig .tc).ty.Contents (Elt F)
abbrev OC := (cc0_stg1_0 : Ref sig .tc).ty.Contents (Elt F)
abbrev HC := (cc0_scratch0 : Ref sig .tc).ty.Contents (Elt F)

/-! ## The four stores, as functions of the block's contents -/

abbrev RA : Rect S512x512 := Rect.unit (s := S512x512) ![0, 0] S256x512.size inb_S512x512_S256x512_0_0
abbrev RB : Rect S512x512 := Rect.unit (s := S512x512) ![256, 0] S256x512.size inb_S512x512_S256x512_256_0
abbrev RT : Rect S512x512 := Rect.unit (s := S512x512) ![0, 0] S2x512.size inb_S512x512_S2x512_0_0
abbrev RL : Rect S512x512 := Rect.unit (s := S512x512) ![510, 0] S2x512.size inb_S512x512_S2x512_510_0

def stA (p : FVec F S255x512 .bf16) (g : OC (F := F)) : OC (F := F) :=
  ((oM : Memref sig .tc .vmem S512x512 .bf16).access RA : View sig .tc _ _ _).write (Elt F) g
    (updateSlice ((oM : Memref sig .tc .vmem S512x512 .bf16).view.readAt (Elt F) RA.toLoadRect g) p ![1, 0] slices_S256x512_S255x512_1_0) Finset.univ
def stB (p : FVec F S255x512 .bf16) (g : OC (F := F)) : OC (F := F) :=
  ((oM : Memref sig .tc .vmem S512x512 .bf16).access RB : View sig .tc _ _ _).write (Elt F) g
    (updateSlice ((oM : Memref sig .tc .vmem S512x512 .bf16).view.readAt (Elt F) RB.toLoadRect g) p ![0, 0] slices_S256x512_S255x512_0_0) Finset.univ
def stT (p : FVec F S1x512 .bf16) (g : OC (F := F)) : OC (F := F) :=
  ((oM : Memref sig .tc .vmem S512x512 .bf16).access RT : View sig .tc _ _ _).write (Elt F) g
    (updateSlice ((oM : Memref sig .tc .vmem S512x512 .bf16).view.readAt (Elt F) RT.toLoadRect g) p ![0, 0] slices_S2x512_S1x512_0_0) Finset.univ
def stL (p : FVec F S1x512 .bf16) (g : OC (F := F)) : OC (F := F) :=
  ((oM : Memref sig .tc .vmem S512x512 .bf16).access RL : View sig .tc _ _ _).write (Elt F) g
    (updateSlice ((oM : Memref sig .tc .vmem S512x512 .bf16).view.readAt (Elt F) RL.toLoadRect g) p ![1, 0] slices_S2x512_S1x512_1_0) Finset.univ

/-- The block every row of which has been replaced: the function the four stores leave. -/
def outFn (pA pB : FVec F S255x512 .bf16) (pT pL : FVec F S1x512 .bf16) : OC (F := F) := fun i =>
  if h0 : (i 0).val = 0 then pT (ValueIdx.ix2 (0 : Fin 1) (i 1))
  else if h1 : (i 0).val ≤ 255 then pA (ValueIdx.ix2 (⟨(i 0).val - 1, by omega⟩ : Fin 255) (i 1))
  else if h2 : (i 0).val ≤ 510 then pB (ValueIdx.ix2 (⟨(i 0).val - 256, by omega⟩ : Fin 255) (i 1))
  else pL (ValueIdx.ix2 (0 : Fin 1) (i 1))

open ValueIdx in
/-- A block with some rows replaced, read at an index: the update's row inside the replaced rows, the old block elsewhere. -/
theorem updateSlice_ix2 {α : Type} {n m c : ℕ} (s0 : ℕ) (hs : (⟨2, ![n, c]⟩ : Shape).Slices ![s0, 0] ⟨2, ![m, c]⟩)
    (x : (⟨2, ![n, c]⟩ : Shape).Idx → α) (p : (⟨2, ![m, c]⟩ : Shape).Idx → α) (a : Fin n) (j : Fin c) :
    updateSlice x p ![s0, 0] hs (ix2 a j)
      = if h : s0 ≤ a.val ∧ a.val < s0 + m then p (ix2 (⟨a.val - s0, by omega⟩ : Fin m) j) else x (ix2 a j) := by
  unfold updateSlice
  by_cases h : s0 ≤ a.val ∧ a.val < s0 + m
  · have hin : ∀ b : Fin 2, (![s0, 0] : Fin 2 → ℕ) b ≤ ((ix2 a j : (⟨2, ![n, c]⟩ : Shape).Idx) b).val
        ∧ ((ix2 a j : (⟨2, ![n, c]⟩ : Shape).Idx) b).val < (![s0, 0] : Fin 2 → ℕ) b + (![m, c] : Fin 2 → ℕ) b := by
      intro b
      match b with
      | ⟨0, _⟩ => exact h
      | ⟨1, _⟩ => exact ⟨Nat.zero_le _, by show j.val < 0 + c; have := j.isLt; omega⟩
    rw [dif_pos h]
    refine (dif_pos hin).trans ?_
    refine congrArg p (funext fun b => Fin.ext ?_)
    match b with
    | ⟨0, _⟩ => rfl
    | ⟨1, _⟩ => rfl
  · have hin : ¬ ∀ b : Fin 2, (![s0, 0] : Fin 2 → ℕ) b ≤ ((ix2 a j : (⟨2, ![n, c]⟩ : Shape).Idx) b).val
        ∧ ((ix2 a j : (⟨2, ![n, c]⟩ : Shape).Idx) b).val < (![s0, 0] : Fin 2 → ℕ) b + (![m, c] : Fin 2 → ℕ) b :=
      fun hall => h (hall 0)
    rw [dif_neg h]
    exact dif_neg hin

open ValueIdx in
/-- One read-modify-write store of `m` rows at row `k + s0`, through the rectangle of `n` rows at row `k`, read at
    an index: the payload's row inside the replaced rows, the old contents elsewhere. -/
theorem store_apply {n m : ℕ} (k s0 : ℕ)
    (inb : ∀ a, (![k, 0] : Fin 2 → Nat) a + (⟨2, ![n, 512]⟩ : Shape).size a ≤ S512x512.size a)
    (hs : (⟨2, ![n, 512]⟩ : Shape).Slices ![s0, 0] ⟨2, ![m, 512]⟩)
    (p : FVec F ⟨2, ![m, 512]⟩ .bf16) (g : OC (F := F)) (r : Fin 512) (j : Fin 512) :
    (((oM : Memref sig .tc .vmem S512x512 .bf16).access (Rect.unit (s := S512x512) ![k, 0] (⟨2, ![n, 512]⟩ : Shape).size inb) : View sig .tc _ _ _).write (Elt F) g
      (updateSlice ((oM : Memref sig .tc .vmem S512x512 .bf16).view.readAt (Elt F) (Rect.unit (s := S512x512) ![k, 0] (⟨2, ![n, 512]⟩ : Shape).size inb).toLoadRect g) p ![s0, 0] hs) Finset.univ) (ix2 r j)
    = if h : k + s0 ≤ r.val ∧ r.val < k + s0 + m then p (ix2 (⟨r.val - (k + s0), by omega⟩ : Fin m) j) else g (ix2 r j) := by
  have hn : k + n ≤ 512 := inb 0
  have hm : s0 + m ≤ n := hs.2 0
  by_cases hr : k ≤ r.val ∧ r.val < k + n
  · -- the index is the image of the rectangle's own index (r - k, j)
    have hx : ((oM : Memref sig .tc .vmem S512x512 .bf16).access (Rect.unit (s := S512x512) ![k, 0] (⟨2, ![n, 512]⟩ : Shape).size inb) : View sig .tc _ _ _).emb
        (ix2 (⟨r.val - k, by omega⟩ : Fin n) j) = ix2 r j := by
      funext a; apply Fin.ext
      match a with
      | ⟨0, _⟩ => show k + 1 * (r.val - k) = r.val; omega
      | ⟨1, _⟩ => show 0 + 1 * j.val = j.val; omega
    conv_lhs => rw [← hx]
    rw [View.write_emb_of_mem _ _ (Finset.mem_univ _), cast_eq, updateSlice_ix2]
    by_cases h : k + s0 ≤ r.val ∧ r.val < k + s0 + m
    · rw [dif_pos h, dif_pos (show s0 ≤ r.val - k ∧ r.val - k < s0 + m by omega)]
      refine congrArg p (congrArg (fun a => ix2 a j) (Fin.ext ?_))
      show r.val - k - s0 = r.val - (k + s0); omega
    · rw [dif_neg h, dif_neg (show ¬ (s0 ≤ r.val - k ∧ r.val - k < s0 + m) by omega)]
      rw [View.readAt_apply, View.read_apply, cast_eq]
      exact congrArg g hx
  · -- outside the rectangle nothing is written
    have hne : ∀ x, ((oM : Memref sig .tc .vmem S512x512 .bf16).access (Rect.unit (s := S512x512) ![k, 0] (⟨2, ![n, 512]⟩ : Shape).size inb) : View sig .tc _ _ _).emb x ≠ ix2 r j := by
      intro x hx
      have h0 := congrArg (fun i : S512x512.Idx => (i 0).val) hx
      have hlt : (x 0).val < n := (x 0).isLt
      have h0' : k + 1 * (x 0).val = r.val := h0
      omega
    unfold View.write
    rw [preimage?_eq_none hne]
    rw [dif_neg (by omega)]

open ValueIdx in
/-- `outFn` read at coordinates. -/
theorem outFn_ix2 (pA pB : FVec F S255x512 .bf16) (pT pL : FVec F S1x512 .bf16) (r j : Fin 512) :
    outFn pA pB pT pL (ix2 r j) =
      if h0 : r.val = 0 then pT (ix2 (0 : Fin 1) j)
      else if h1 : r.val ≤ 255 then pA (ix2 (⟨r.val - 1, by omega⟩ : Fin 255) j)
      else if h2 : r.val ≤ 510 then pB (ix2 (⟨r.val - 256, by omega⟩ : Fin 255) j)
      else pL (ix2 (0 : Fin 1) j) := rfl

/-- Whatever the block held, after the four stores it is `outFn`. -/
theorem stores_eq (pA pB : FVec F S255x512 .bf16) (pT pL : FVec F S1x512 .bf16) (g : OC (F := F)) :
    stL pL (stT pT (stB pB (stA pA g))) = outFn pA pB pT pL := by
  funext i
  obtain ⟨r, j, rfl⟩ : ∃ (r j : Fin 512), i = ValueIdx.ix2 r j := ⟨i 0, i 1, ValueIdx.eq_ix2 (n0 := 512) (n1 := 512) i⟩
  rw [outFn_ix2]
  unfold stL
  refine (store_apply (n := 2) (m := 1) 510 1 inb_S512x512_S2x512_510_0 slices_S2x512_S1x512_1_0 pL _ r j).trans ?_
  by_cases hL : 510 + 1 ≤ r.val ∧ r.val < 510 + 1 + 1
  · rw [dif_pos hL, dif_neg (show ¬ r.val = 0 by omega), dif_neg (show ¬ r.val ≤ 255 by omega),
      dif_neg (show ¬ r.val ≤ 510 by omega)]
    exact congrArg pL (congrArg (fun a => ValueIdx.ix2 a j) (Fin.ext (by show r.val - (510 + 1) = 0; omega)))
  rw [dif_neg hL]
  unfold stT
  refine (store_apply (n := 2) (m := 1) 0 0 inb_S512x512_S2x512_0_0 slices_S2x512_S1x512_0_0 pT _ r j).trans ?_
  by_cases hT : 0 + 0 ≤ r.val ∧ r.val < 0 + 0 + 1
  · rw [dif_pos hT, dif_pos (show r.val = 0 by omega)]
    exact congrArg pT (congrArg (fun a => ValueIdx.ix2 a j) (Fin.ext (by show r.val - (0 + 0) = 0; omega)))
  rw [dif_neg hT, dif_neg (show ¬ r.val = 0 by omega)]
  unfold stB
  refine (store_apply (n := 256) (m := 255) 256 0 inb_S512x512_S256x512_256_0 slices_S256x512_S255x512_0_0 pB _ r j).trans ?_
  by_cases hB : 256 + 0 ≤ r.val ∧ r.val < 256 + 0 + 255
  · rw [dif_pos hB, dif_neg (show ¬ r.val ≤ 255 by omega), dif_pos (show r.val ≤ 510 by omega)]
  rw [dif_neg hB]
  unfold stA
  refine (store_apply (n := 256) (m := 255) 0 1 inb_S512x512_S256x512_0_0 slices_S256x512_S255x512_1_0 pA _ r j).trans ?_
  rw [dif_pos (show 0 + 1 ≤ r.val ∧ r.val < 0 + 1 + 255 by omega), dif_pos (show r.val ≤ 255 by omega)]

/-! ## The result block from the device's block and its two halo rows -/

abbrev ld255 (k : ℕ) (h : ∀ a, (![k, 0] : Fin 2 → Nat) a + S255x512.size a ≤ S512x512.size a) (X : XC (F := F)) : Vec F S255x512 .f32 :=
  (xM : Memref sig .tc .vmem S512x512 .f32).view.readAt (Elt F) (Rect.unit (s := S512x512) ![k, 0] S255x512.size h).toLoadRect X
abbrev ld1 (k : ℕ) (h : ∀ a, (![k, 0] : Fin 2 → Nat) a + S1x512.size a ≤ S512x512.size a) (X : XC (F := F)) : Vec F S1x512 .f32 :=
  (xM : Memref sig .tc .vmem S512x512 .f32).view.readAt (Elt F) (Rect.unit (s := S512x512) ![k, 0] S1x512.size h).toLoadRect X
abbrev ldUp (u : HC (F := F)) : Vec F S1x512 .f32 :=
  (upM : Memref sig .tc .vmem S1x512 .f32).view.readAt (Elt F) (Rect.unit (s := S1x512) ![0, 0] S1x512.size inb_S1x512_S1x512_0_0).toLoadRect u
abbrev ldDn (d : (cc0_scratch1 : Ref sig .tc).ty.Contents (Elt F)) : Vec F S1x512 .f32 :=
  (dnM : Memref sig .tc .vmem S1x512 .f32).view.readAt (Elt F) (Rect.unit (s := S1x512) ![0, 0] S1x512.size inb_S1x512_S1x512_0_0).toLoadRect d

/-- The two interior slabs, the top row and the bottom row as the body computes them from its loads. -/
def slabA (X : XC (F := F)) : FVec F S255x512 .bf16 :=
  k0_pay1 (ld255 0 inb_S512x512_S255x512_0_0 X) (ld255 1 inb_S512x512_S255x512_1_0 X) (ld255 2 inb_S512x512_S255x512_2_0 X)
def slabB (X : XC (F := F)) : FVec F S255x512 .bf16 :=
  k0_pay2 (ld255 255 inb_S512x512_S255x512_255_0 X) (ld255 256 inb_S512x512_S255x512_256_0 X) (ld255 257 inb_S512x512_S255x512_257_0 X)
def rowTop (pos : BitVec 32) (X : XC (F := F)) (u : HC (F := F)) : FVec F S1x512 .bf16 :=
  k0_pay6 (Scalar.cmpi .eq pos 0#32) (k0_pay3 (ld1 0 inb_S512x512_S1x512_0_0 X)) (k0_pay4 (ldUp u)) (k0_pay5 (ld1 0 inb_S512x512_S1x512_0_0 X))
    (Scalar.ofBits .f32 0x3F000000#32) (ld1 1 inb_S512x512_S1x512_1_0 X)
def rowBot (pos : BitVec 32) (X : XC (F := F)) (d : (cc0_scratch1 : Ref sig .tc).ty.Contents (Elt F)) : FVec F S1x512 .bf16 :=
  k0_pay7 pos (ld1 511 inb_S512x512_S1x512_511_0 X) (ld1 510 inb_S512x512_S1x512_510_0 X) (ld1 511 inb_S512x512_S1x512_511_0 X) (ldDn d)

/-- The result block of the device at position word `pos`. -/
def outOf (pos : BitVec 32) (X : XC (F := F)) (u : HC (F := F)) (d : (cc0_scratch1 : Ref sig .tc).ty.Contents (Elt F)) : OC (F := F) :=
  outFn (slabA X) (slabB X) (rowTop pos X u) (rowBot pos X d)

/-- On the first device the top row does not depend on what the buffer above holds; on the last the bottom row not on the buffer below. -/
theorem rowTop_first (X : XC (F := F)) (u u' : HC (F := F)) : rowTop 0#32 X u = rowTop 0#32 X u' := by
  have hc : Scalar.cmpi .eq (0#32 : BitVec 32) 0#32 = 1#1 := by decide
  unfold rowTop k0_pay6
  simp only [hc, ValueIdx.select_one]
theorem rowBot_last (X : XC (F := F)) (d d' : (cc0_scratch1 : Ref sig .tc).ty.Contents (Elt F)) : rowBot 15#32 X d = rowBot 15#32 X d' := by
  have hc : Scalar.cmpi .eq (15#32 : BitVec 32) 15#32 = 1#1 := by decide
  unfold rowBot k0_pay7
  simp only [hc, ValueIdx.select_one]

/-- info: 'Cert.Kernel.OutSpec.stores_eq' depends on axioms: [propext, Classical.choice, Quot.sound] -/
#guard_msgs in #print axioms stores_eq

/-- info: 'Cert.Kernel.OutSpec.rowTop_first' depends on axioms: [propext, Classical.choice, Quot.sound] -/
#guard_msgs in #print axioms rowTop_first

/-- info: 'Cert.Kernel.OutSpec.rowBot_last' depends on axioms: [propext, Classical.choice, Quot.sound] -/
#guard_msgs in #print axioms rowBot_last

end Cert.Kernel.OutSpec

end
-- ==== Proof.Bits.Data.lean ====
/-
  What each device owes at launch, the levels that order the waits, the proof data of the one pipeline point and
  the resources a device's body starts from and ends with.  A device owes each existing neighbour one barrier unit and
  the credit of the row it sends it; barrier cells sit at level 1 and receive cells at level 2, so that a device may
  wait on its barrier while it still owes its rows, and on everything else only when it owes nothing above.
-/
import proofs.«900541_g7700000000000542_dist_halo_stencil_i_m512_n512_v7x_i16_bf16_1_alg».proof.Proof.Bits.Proto
import proofs.«900541_g7700000000000542_dist_halo_stencil_i_m512_n512_v7x_i16_bf16_1_alg».proof.Proof.Bits.OutSpec

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What each core owes at launch; the levels -/

def Oup (c : Dev nD) : CellTallies nD τ sig Unit := tallyAt (r1Cell (prv c)) () N + tallyAt (barCell (prv c)) () 1
def Odn (c : Dev nD) : CellTallies nD τ sig Unit := tallyAt (r0Cell (nxt c)) () N + tallyAt (barCell (nxt c)) () 1
def O₀ (c : Dev nD) : CellTallies nD τ sig Unit := (if hasUp c then Oup c else 0) + (if hasDn c then Odn c else 0)

def L (g : GSem nD τ sig) : Finset Unit := if g.1.2 = .tc then {()} else ∅
/-- barrier cells at 1, receive cells at 2, everything else (staging, send) at 0. -/
def lv (g : GSem nD τ sig) (_ : Unit) : ℕ := if g.2 = .reg barS then 1 else if g.2 = .dma r0S ∨ g.2 = .dma r1S then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## The pipeline's proof data -/

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The kernel's result on device `c`: the stencil of its block with the row above from `prv c` and the row below
    from `nxt c`, the first and the last device keeping their outer row. -/
def outAt (c : Dev nD) : (cc0_stg1_0 : Ref sig .tc).ty.Contents (Elt F) :=
  OutSpec.outOf (posW c) (xstg m c) (landedUp m c) (landedDn m c)

/-- The cells' invariants device `c`'s body opens, under the names `K` the launch allocated them at: its own five, both
    neighbours' barrier cells (its signals), and the receive cells its two rows credit. -/
def invs (K : Dev nD × Fin 5 → ℕ) (c : Dev nD) : sProp 𝕄 :=
  iprop(cellInv ER (haloRd m) (K (c, 0)) (barCell c) ∗ cellInv ER (haloRd m) (K (c, 1)) (s0Cell c) ∗ cellInv ER (haloRd m) (K (c, 2)) (s1Cell c)
    ∗ cellInv ER (haloRd m) (K (c, 3)) (r0Cell c) ∗ cellInv ER (haloRd m) (K (c, 4)) (r1Cell c)
    ∗ cellInv ER (haloRd m) (K (prv c, 0)) (barCell (prv c)) ∗ cellInv ER (haloRd m) (K (nxt c, 0)) (barCell (nxt c))
    ∗ cellInv ER (haloRd m) (K (prv c, 4)) (r1Cell (prv c)) ∗ cellInv ER (haloRd m) (K (nxt c, 3)) (r0Cell (nxt c)))

instance invs_persistent (K : Dev nD × Fin 5 → ℕ) (c : Dev nD) : BI.Persistent (invs m K c) := by unfold invs; infer_instance

/-- The marks that round 0 is reached, of every cell the body pays or waits on. -/
def marks (c : Dev nD) : sProp 𝕄 :=
  iprop(reached ER (barCell (prv c)) 0 ∗ reached ER (barCell (nxt c)) 0 ∗ reached ER (r1Cell (prv c)) 0 ∗ reached ER (r0Cell (nxt c)) 0
    ∗ reached ER (s0Cell c) 0 ∗ reached ER (s1Cell c) 0 ∗ reached ER (r0Cell c) 0 ∗ reached ER (r1Cell c) 0)

instance marks_persistent (c : Dev nD) : BI.Persistent (marks (F := F) c) := by unfold marks; infer_instance

/-- The tokens of the duties device `c` pays: `prv c`'s barrier duty `true` and `nxt c`'s `false` (its two signals), the
    receive duties of the two rows it sends, and its own two send duties. (At an end of the line the tokens towards
    the missing neighbour are of no duty and are never used.) -/
def payToks (c : Dev nD) : sProp 𝕄 :=
  iprop(dutyTok ER (barCell (prv c)) 0 true ∗ dutyTok ER (barCell (nxt c)) 0 false
    ∗ dutyTok ER (r1Cell (prv c)) 0 false ∗ dutyTok ER (r0Cell (nxt c)) 0 false
    ∗ dutyTok ER (s0Cell c) 0 false ∗ dutyTok ER (s1Cell c) 0 false)

/-- Its positions: round 0 of its five cells, nothing taken. -/
def poss (c : Dev nD) : sProp 𝕄 :=
  iprop(atPos ER (barCell c) 0 ∅ 0 ∗ atPos ER (s0Cell c) 0 ∅ 0 ∗ atPos ER (s1Cell c) 0 ∅ 0 ∗ atPos ER (r0Cell c) 0 ∅ 0 ∗ atPos ER (r1Cell c) 0 ∅ 0)

def ghost (K : Dev nD × Fin 5 → ℕ) (c : Dev nD) : sProp 𝕄 :=
  iprop(invs m K c ∗ marks c ∗ poss c ∗ payToks c)

/-- The units its neighbours will signal on its barrier. -/
abbrev nbar (c : Dev nD) : ℕ := (if hasUp c then 1 else 0) + (if hasDn c then 1 else 0)

/-- The credit tokens dealt at launch: the barrier's units, and a row's credit on each receive cell that has a duty. -/
def creds (c : Dev nD) : sProp 𝕄 :=
  iprop(cred (tallyAt (barCell c) () (nbar c)) ∗ (if hasUp c then cred (tallyAt (r0Cell c) () N) else emp)
    ∗ (if hasDn c then cred (tallyAt (r1Cell c) () N) else emp))

/-- What device `c`'s body starts from. -/
def start (c : Dev nD) : sProp 𝕄 :=
  iprop((∃ K, ghost m K c) ∗ creds c ∗ levAts L lv)

def Φ₀ (c : Dev nD) : sProp 𝕄 := iprop(start m c ∗ (∃ f, upPts c f) ∗ (∃ f, dnPts c f))
/-- After the point: the two landing buffers at some contents, the four own cells at zero, closed. -/
def Φ₁ (c : Dev nD) : sProp 𝕄 :=
  iprop((∃ f, upPts (F := F) c f) ∗ (∃ f, dnPts (F := F) c f)
    ∗ semVal (s0Cell c) 0 ∗ semVal (s1Cell c) 0 ∗ semVal (r0Cell c) 0 ∗ semVal (r1Cell c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body is run from, and to. -/
def bodyPre (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ (F := F) c ∗ (dats m 0 c).owesAt () t₀.succ ∗ stg c cc0_stg0_0 (xstg m c) ∗ stg c cc0_stg1_0 (outAt m c))

end Cert.Kernel.Halo

end
-- ==== Proof.Bits.Tables.lean ====
/-
  The schedule read off cell by cell: which duties a cell has (by whether the device has the neighbour), their
  amounts, what a round expects, and what each duty hands over.
-/
import proofs.«900541_g7700000000000542_dist_halo_stencil_i_m512_n512_v7x_i16_bf16_1_alg».proof.Proof.Bits.Data

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem dma_ne_bar (q : DmaSem sig) : (SemLoc.dma q : SemLoc sig) ≠ .reg barS := fun h => by cases h
theorem s0_ne_s1 : (SemLoc.dma s0S : SemLoc sig) ≠ .dma s1S := by decide
theorem s0_ne_r0 : (SemLoc.dma s0S : SemLoc sig) ≠ .dma r0S := by decide
theorem s0_ne_r1 : (SemLoc.dma s0S : SemLoc sig) ≠ .dma r1S := by decide
theorem s1_ne_s0 : (SemLoc.dma s1S : SemLoc sig) ≠ .dma s0S := by decide
theorem s1_ne_r0 : (SemLoc.dma s1S : SemLoc sig) ≠ .dma r0S := by decide
theorem s1_ne_r1 : (SemLoc.dma s1S : SemLoc sig) ≠ .dma r1S := by decide
theorem r0_ne_s0 : (SemLoc.dma r0S : SemLoc sig) ≠ .dma s0S := by decide
theorem r0_ne_s1 : (SemLoc.dma r0S : SemLoc sig) ≠ .dma s1S := by decide
theorem r0_ne_r1 : (SemLoc.dma r0S : SemLoc sig) ≠ .dma r1S := by decide
theorem r1_ne_s0 : (SemLoc.dma r1S : SemLoc sig) ≠ .dma s0S := by decide
theorem r1_ne_s1 : (SemLoc.dma r1S : SemLoc sig) ≠ .dma s1S := by decide
theorem r1_ne_r0 : (SemLoc.dma r1S : SemLoc sig) ≠ .dma r0S := by decide

section Sched
variable (c : Dev nD)

omit [FloatOps F] in
theorem duties_bar : (haloRd (F := F) m).duties (barCell c) 0 = (if hasUp c then {false} else ∅) ∪ (if hasDn c then {true} else ∅) := by
  dsimp only [haloRd]; exact if_pos ⟨rfl, rfl, rfl⟩
omit [FloatOps F] in
theorem duties_bar_both (hu : hasUp c) (hd : hasDn c) : (haloRd (F := F) m).duties (barCell c) 0 = Finset.univ := by
  rw [duties_bar, if_pos hu, if_pos hd]; decide
omit [FloatOps F] in
theorem duties_bar_dn (hu : ¬ hasUp c) (hd : hasDn c) : (haloRd (F := F) m).duties (barCell c) 0 = {true} := by
  rw [duties_bar, if_neg hu, if_pos hd]; rfl
omit [FloatOps F] in
theorem duties_bar_up (hu : hasUp c) (hd : ¬ hasDn c) : (haloRd (F := F) m).duties (barCell c) 0 = {false} := by
  rw [duties_bar, if_pos hu, if_neg hd]; rfl

omit [FloatOps F] in
theorem duties_s0 : (haloRd (F := F) m).duties (s0Cell c) 0 = if hasUp c then {false} else ∅ := by
  dsimp only [haloRd]; rw [if_neg (fun h => dma_ne_bar _ h.2.2)]; exact if_pos ⟨rfl, rfl, .inl rfl⟩
omit [FloatOps F] in
theorem duties_r0 : (haloRd (F := F) m).duties (r0Cell c) 0 = if hasUp c then {false} else ∅ := by
  dsimp only [haloRd]; rw [if_neg (fun h => dma_ne_bar _ h.2.2)]; exact if_pos ⟨rfl, rfl, .inr rfl⟩
omit [FloatOps F] in
theorem duties_s1 : (haloRd (F := F) m).duties (s1Cell c) 0 = if hasDn c then {false} else ∅ := by
  dsimp only [haloRd]; rw [if_neg (fun h => dma_ne_bar _ h.2.2), if_neg (fun h => h.2.2.elim s1_ne_s0 s1_ne_r0)]; exact if_pos ⟨rfl, rfl, .inl rfl⟩
omit [FloatOps F] in
theorem duties_r1 : (haloRd (F := F) m).duties (r1Cell c) 0 = if hasDn c then {false} else ∅ := by
  dsimp only [haloRd]; rw [if_neg (fun h => dma_ne_bar _ h.2.2), if_neg (fun h => h.2.2.elim r1_ne_s0 r1_ne_r0)]; exact if_pos ⟨rfl, rfl, .inr rfl⟩

omit [FloatOps F] in
theorem duties_later (g : GSem nD τ sig) : ∀ r, 1 ≤ r → (haloRd (F := F) m).duties g r = ∅ :=
  fun r hr => by dsimp only [haloRd]; rw [if_neg fun h => by omega, if_neg fun h => by omega, if_neg fun h => by omega]

omit [FloatOps F] in
theorem amount_bar (d : Bool) : (haloRd (F := F) m).amount (barCell c) 0 d = 1 := by dsimp only [haloRd]; exact if_pos rfl
omit [FloatOps F] in
theorem amount_dma (q : DmaSem sig) (d : Bool) : (haloRd (F := F) m).amount ((c : Thread nD τ), .dma q) 0 d = N := by
  dsimp only [haloRd]; exact if_neg (dma_ne_bar q)

omit [FloatOps F] in
theorem payload_bar_true : (haloRd (F := F) m).payload (barCell c) 0 true = barPayT c := by dsimp only [haloRd]; rw [if_pos rfl, if_pos rfl]
omit [FloatOps F] in
theorem payload_bar_false : (haloRd (F := F) m).payload (barCell c) 0 false = barPayF c := by
  dsimp only [haloRd]; rw [if_pos rfl]; exact if_neg Bool.false_ne_true
omit [FloatOps F] in
theorem payload_r0 (d : Bool) : (haloRd (F := F) m).payload (r0Cell c) 0 d = upPts c (landedUp m c) := by
  dsimp only [haloRd]; rw [if_neg (dma_ne_bar _), if_pos rfl]
omit [FloatOps F] in
theorem payload_r1 (d : Bool) : (haloRd (F := F) m).payload (r1Cell c) 0 d = dnPts c (landedDn m c) := by
  dsimp only [haloRd]; rw [if_neg (dma_ne_bar _), if_neg r1_ne_r0, if_pos rfl]
omit [FloatOps F] in
theorem payload_s0 (d : Bool) : (haloRd (F := F) m).payload (s0Cell c) 0 d = x0Pts m c := by
  dsimp only [haloRd]; rw [if_neg (dma_ne_bar _), if_neg s0_ne_r0, if_neg s0_ne_r1, if_pos rfl]
omit [FloatOps F] in
theorem payload_s1 (d : Bool) : (haloRd (F := F) m).payload (s1Cell c) 0 d = x511Pts m c := by
  dsimp only [haloRd]; rw [if_neg (dma_ne_bar _), if_neg s1_ne_r0, if_neg s1_ne_r1, if_neg s1_ne_s0, if_pos rfl]

omit [FloatOps F] in
theorem expect_bar : (haloRd (F := F) m).expect (barCell c) 0 = nbar c := by
  unfold Schedule.expect Schedule.amountOf
  rw [duties_bar, Finset.sum_congr rfl fun d _ => amount_bar m c d, Finset.sum_const, smul_eq_mul, Nat.mul_one]
  by_cases hu : hasUp c <;> by_cases hd : hasDn c <;> simp only [nbar, hu, hd, if_true, if_false] <;> decide
omit [FloatOps F] in
theorem expect_dma (q : DmaSem sig) (b : Prop) [Decidable b]
    (hq : (haloRd (F := F) m).duties ((c : Thread nD τ), .dma q) 0 = if b then {false} else ∅) :
    (haloRd (F := F) m).expect ((c : Thread nD τ), .dma q) 0 = if b then N else 0 := by
  unfold Schedule.expect Schedule.amountOf
  rw [hq]
  split
  · rw [Finset.sum_singleton, amount_dma]
  · rfl

end Sched

end Cert.Kernel.Halo

end
-- ==== Proof.Bits.Levels.lean ====
/-
  The order of the waits: a device may wait on its barrier cell (level 1) while all it still owes lies on receive
  cells (level 2).
-/
import proofs.«900541_g7700000000000542_dist_halo_stencil_i_m512_n512_v7x_i16_bf16_1_alg».proof.Proof.Bits.Data

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem r0_ne_bar : (SemLoc.dma r0S : SemLoc sig) ≠ .reg barS := fun h => by cases h
theorem r1_ne_bar : (SemLoc.dma r1S : SemLoc sig) ≠ .reg barS := fun h => by cases h

omit [FloatOps F] in
/-- At its barrier waits a device owes only rows' credits: receive cells, level 2, above its barrier cell at 1. -/
theorem mayWait_bar (c : Dev nD) (O : CellTallies nD τ sig Unit)
    (hO : ∀ g u, 0 < O g u → g = r1Cell (prv c) ∨ g = r0Cell (nxt c)) :
    (levAts L lv : sProp 𝕄) ⊢ MayWait (c : Thread nD τ) (.reg barS) () O :=
  MayOwe.of_cut (L := L) (lev := lv) 1 (fun p hp => by rw [Finset.mem_singleton.mp hp, L_tc]; exact Finset.mem_singleton_self _)
    (fun g u hg => by rcases hO g u hg with rfl | rfl <;> exact Finset.mem_singleton_self _)
    (fun p hp => by rw [Finset.mem_singleton.mp hp]; dsimp only [lv]; rw [if_pos rfl])
    (fun g u hg => by
      rcases hO g u hg with rfl | rfl
      · dsimp only [lv]; rw [if_neg r1_ne_bar, if_pos (Or.inr rfl)]; decide
      · dsimp only [lv]; rw [if_neg r0_ne_bar, if_pos (Or.inl rfl)]; decide)

end Cert.Kernel.Halo

end
-- ==== Proof.Bits.BodyTables.lean ====
/-
  The schedule's tables at the cells one device's body touches, the neighbours' cells resolved back to the device,
  and the two rows' transfers as applications of the library's send rule.
-/
import proofs.«900541_g7700000000000542_dist_halo_stencil_i_m512_n512_v7x_i16_bf16_1_alg».proof.Proof.Bits.Tables
import proofs.«900541_g7700000000000542_dist_halo_stencil_i_m512_n512_v7x_i16_bf16_1_alg».proof.Proof.Bits.Levels
import Idealize.ShloMosaic.Lib.Tactic
import Idealize.ShloMosaic.Lib.Exec

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

/-! ### The schedule's tables at the cells the body touches, the neighbours' resolved back to the device -/

omit [FloatOps F] in
theorem mem_bar_prv (c : Dev nD) (hu : hasUp c) : true ∈ (haloRd (F := F) m).duties (barCell (prv c)) 0 := by
  rw [duties_bar, if_pos (hasDn_prv hu)]; exact Finset.mem_union_right _ (Finset.mem_singleton_self _)
omit [FloatOps F] in
theorem mem_bar_nxt (c : Dev nD) (hd : hasDn c) : false ∈ (haloRd (F := F) m).duties (barCell (nxt c)) 0 := by
  rw [duties_bar, if_pos (hasUp_nxt hd)]; exact Finset.mem_union_left _ (Finset.mem_singleton_self _)
omit [FloatOps F] in
theorem mem_r1_prv (c : Dev nD) (hu : hasUp c) : false ∈ (haloRd (F := F) m).duties (r1Cell (prv c)) 0 := by
  rw [duties_r1, if_pos (hasDn_prv hu)]; exact Finset.mem_singleton_self _
omit [FloatOps F] in
theorem mem_r0_nxt (c : Dev nD) (hd : hasDn c) : false ∈ (haloRd (F := F) m).duties (r0Cell (nxt c)) 0 := by
  rw [duties_r0, if_pos (hasUp_nxt hd)]; exact Finset.mem_singleton_self _
omit [FloatOps F] in
theorem mem_s0 (c : Dev nD) (hu : hasUp c) : false ∈ (haloRd (F := F) m).duties (s0Cell c) 0 := by
  rw [duties_s0, if_pos hu]; exact Finset.mem_singleton_self _
omit [FloatOps F] in
theorem mem_s1 (c : Dev nD) (hd : hasDn c) : false ∈ (haloRd (F := F) m).duties (s1Cell c) 0 := by
  rw [duties_s1, if_pos hd]; exact Finset.mem_singleton_self _

omit [FloatOps F] in
theorem amount_bar' (c : Dev nD) (d : Bool) : (haloRd (F := F) m).amount (barCell c) 0 d = 1 := amount_bar m c d

omit [FloatOps F] in
theorem payload_bar_prv (c : Dev nD) : (haloRd (F := F) m).payload (barCell (prv c)) 0 true
    = iprop((∃ f, (upM : Memref sig .tc .vmem S1x512 .f32).view.loc (c : Thread nD τ) ↦[(upM : Memref sig .tc .vmem S1x512 .f32).view.set]{fullShare} f) ∗ reached ER (r0Cell c) 0) := by
  rw [payload_bar_true]; unfold barPayT upPts; rw [nxt_prv]
omit [FloatOps F] in
theorem payload_bar_nxt (c : Dev nD) : (haloRd (F := F) m).payload (barCell (nxt c)) 0 false
    = iprop((∃ f, (dnM : Memref sig .tc .vmem S1x512 .f32).view.loc (c : Thread nD τ) ↦[(dnM : Memref sig .tc .vmem S1x512 .f32).view.set]{fullShare} f) ∗ reached ER (r1Cell c) 0) := by
  rw [payload_bar_false]; unfold barPayF dnPts; rw [prv_nxt]
omit [FloatOps F] in
theorem payload_bar_own_true (c : Dev nD) : (haloRd (F := F) m).payload (barCell c) 0 true
    = iprop((∃ f, (upM : Memref sig .tc .vmem S1x512 .f32).view.loc (nxt c : Thread nD τ) ↦[(upM : Memref sig .tc .vmem S1x512 .f32).view.set]{fullShare} f) ∗ reached ER (r0Cell (nxt c)) 0) := by
  rw [payload_bar_true]; unfold barPayT upPts; rfl
omit [FloatOps F] in
theorem payload_bar_own_false (c : Dev nD) : (haloRd (F := F) m).payload (barCell c) 0 false
    = iprop((∃ f, (dnM : Memref sig .tc .vmem S1x512 .f32).view.loc (prv c : Thread nD τ) ↦[(dnM : Memref sig .tc .vmem S1x512 .f32).view.set]{fullShare} f) ∗ reached ER (r1Cell (prv c)) 0) := by
  rw [payload_bar_false]; unfold barPayF dnPts; rfl

omit [FloatOps F] in
theorem expect_bar_both (c : Dev nD) (hu : hasUp c) (hd : hasDn c) : (haloRd (F := F) m).expect (barCell c) 0 = 2 := by
  rw [expect_bar]; simp only [nbar, hu, hd, if_true]
omit [FloatOps F] in
theorem expect_bar_one_dn (c : Dev nD) (hu : ¬ hasUp c) (hd : hasDn c) : (haloRd (F := F) m).expect (barCell c) 0 = 1 := by
  rw [expect_bar]; simp only [nbar, hu, hd, if_true, if_false]
omit [FloatOps F] in
theorem expect_bar_one_up (c : Dev nD) (hu : hasUp c) (hd : ¬ hasDn c) : (haloRd (F := F) m).expect (barCell c) 0 = 1 := by
  rw [expect_bar]; simp only [nbar, hu, hd, if_true, if_false]

omit [FloatOps F] in
theorem payload_s0' (c : Dev nD) (d : Bool) : (haloRd (F := F) m).payload (s0Cell c) 0 d
    = ((x0M : Memref sig .tc .vmem S1x512 .f32).view.loc (c : Thread nD τ) ↦[(x0M : Memref sig .tc .vmem S1x512 .f32).view.set]{fullShare.right.left} xstg m c) := by
  rw [payload_s0]; rfl
omit [FloatOps F] in
theorem payload_s1' (c : Dev nD) (d : Bool) : (haloRd (F := F) m).payload (s1Cell c) 0 d
    = ((x511M : Memref sig .tc .vmem S1x512 .f32).view.loc (c : Thread nD τ) ↦[(x511M : Memref sig .tc .vmem S1x512 .f32).view.set]{fullShare.right.right} xstg m c) := by
  rw [payload_s1]; rfl
omit [FloatOps F] in
theorem payload_r1_prv (c : Dev nD) (d : Bool) : (haloRd (F := F) m).payload (r1Cell (prv c)) 0 d
    = ((dnM : Memref sig .tc .vmem S1x512 .f32).view.loc (prv c : Thread nD τ) ↦[(dnM : Memref sig .tc .vmem S1x512 .f32).view.set]{fullShare}
        (x0M : Memref sig .tc .vmem S1x512 .f32).view.read (Elt F) (xstg m c)) := by
  rw [payload_r1]; unfold dnPts landedDn; rw [nxt_prv]
omit [FloatOps F] in
theorem payload_r0_nxt (c : Dev nD) (d : Bool) : (haloRd (F := F) m).payload (r0Cell (nxt c)) 0 d
    = ((upM : Memref sig .tc .vmem S1x512 .f32).view.loc (nxt c : Thread nD τ) ↦[(upM : Memref sig .tc .vmem S1x512 .f32).view.set]{fullShare}
        (x511M : Memref sig .tc .vmem S1x512 .f32).view.read (Elt F) (xstg m c)) := by
  rw [payload_r0]; unfold upPts landedUp; rw [prv_nxt]

omit [FloatOps F] in
theorem payload_r0_own (c : Dev nD) (d : Bool) : (haloRd (F := F) m).payload (r0Cell c) 0 d
    = ((upM : Memref sig .tc .vmem S1x512 .f32).view.loc (c : Thread nD τ) ↦[(upM : Memref sig .tc .vmem S1x512 .f32).view.set]{fullShare} landedUp m c) :=
  payload_r0 m c d
omit [FloatOps F] in
theorem payload_r1_own (c : Dev nD) (d : Bool) : (haloRd (F := F) m).payload (r1Cell c) 0 d
    = ((dnM : Memref sig .tc .vmem S1x512 .f32).view.loc (c : Thread nD τ) ↦[(dnM : Memref sig .tc .vmem S1x512 .f32).view.set]{fullShare} landedDn m c) :=
  payload_r1 m c d
omit [FloatOps F] in
/-- Both barrier payloads of a device with both neighbours. -/
theorem bar_payloads (c : Dev nD) :
    bigSep Finset.univ (fun d => (haloRd (F := F) m).payload (barCell c) 0 d) = iprop(barPayF c ∗ barPayT c) := by
  rw [bigSep_univ_eq_bigSepL [false, true] (by decide) (by decide), bigSepL_cons_cons, bigSepL_singleton, payload_bar_false, payload_bar_true]
  rfl

omit [FloatOps F] in
theorem expect_s0 (c : Dev nD) (hu : hasUp c) : (haloRd (F := F) m).expect (s0Cell c) 0 = N := by
  rw [expect_dma m c s0S (hasUp c) (duties_s0 m c), if_pos hu]
omit [FloatOps F] in
theorem expect_r0 (c : Dev nD) (hu : hasUp c) : (haloRd (F := F) m).expect (r0Cell c) 0 = N := by
  rw [expect_dma m c r0S (hasUp c) (duties_r0 m c), if_pos hu]
omit [FloatOps F] in
theorem expect_s1 (c : Dev nD) (hd : hasDn c) : (haloRd (F := F) m).expect (s1Cell c) 0 = N := by
  rw [expect_dma m c s1S (hasDn c) (duties_s1 m c), if_pos hd]
omit [FloatOps F] in
theorem expect_r1 (c : Dev nD) (hd : hasDn c) : (haloRd (F := F) m).expect (r1Cell c) 0 = N := by
  rw [expect_dma m c r1S (hasDn c) (duties_r1 m c), if_pos hd]
omit [FloatOps F] in
theorem duties_s0' (c : Dev nD) (hu : hasUp c) : (haloRd (F := F) m).duties (s0Cell c) 0 = {false} := by rw [duties_s0, if_pos hu]
omit [FloatOps F] in
theorem duties_r0' (c : Dev nD) (hu : hasUp c) : (haloRd (F := F) m).duties (r0Cell c) 0 = {false} := by rw [duties_r0, if_pos hu]
omit [FloatOps F] in
theorem duties_s1' (c : Dev nD) (hd : hasDn c) : (haloRd (F := F) m).duties (s1Cell c) 0 = {false} := by rw [duties_s1, if_pos hd]
omit [FloatOps F] in
theorem duties_r1' (c : Dev nD) (hd : hasDn c) : (haloRd (F := F) m).duties (r1Cell c) 0 = {false} := by rw [duties_r1, if_pos hd]

omit [FloatOps F] in
theorem bigSep_rejoin {I : Type} [DecidableEq I] [Fintype I] (S : Finset I) (Φ : I → sProp 𝕄) :
    iprop(bigSep S Φ ∗ bigSep (Finset.univ \ S) Φ) ⊢ bigSep Finset.univ Φ :=
  Entails.of_eq (bigSep_sdiff_split (Finset.subset_univ S)).symm

omit [FloatOps F] in
/-- A row written whole over a landing buffer is the row, whatever the buffer held. -/
theorem landed_dn_eq (c : Dev nD) (fd : Buf (Elt F) ((dnM : Memref sig .tc .vmem S1x512 .f32).view.loc (c : Thread nD τ))) (v : (cc0_scratch1 : Ref sig .tc).ty.Contents (Elt F)) :
    (dnM : Memref sig .tc .vmem S1x512 .f32).view.write (Elt F) fd v Finset.univ = v := by
  show (View.whole cc0_scratch1).write (Elt F) fd v Finset.univ = v
  exact View.write_whole_univ _ _ _
omit [FloatOps F] in
theorem landed_up_eq (c : Dev nD) (fd : Buf (Elt F) ((upM : Memref sig .tc .vmem S1x512 .f32).view.loc (c : Thread nD τ))) (v : (cc0_scratch0 : Ref sig .tc).ty.Contents (Elt F)) :
    (upM : Memref sig .tc .vmem S1x512 .f32).view.write (Elt F) fd v Finset.univ = v := by
  show (View.whole cc0_scratch0).write (Elt F) fd v Finset.univ = v
  exact View.write_whole_univ _ _ _

omit [FloatOps F] in
/-- A share of the block carved into the first row and the rest; into the last row and the rest. -/
theorem x0_split (c : Dev nD) (q : PosShare TreeShare) (f : Buf (Elt F) ((xM : Memref sig .tc .vmem S512x512 .f32).view.loc (c : Thread nD τ))) :
    ((xM : Memref sig .tc .vmem S512x512 .f32).view.loc (c : Thread nD τ) ↦[(xM : Memref sig .tc .vmem S512x512 .f32).view.set]{q} f : sProp 𝕄)
      ⊣⊢ iprop(((xM : Memref sig .tc .vmem S512x512 .f32).view.loc (c : Thread nD τ) ↦[(x0M : Memref sig .tc .vmem S1x512 .f32).view.set]{q} f)
          ∗ ((xM : Memref sig .tc .vmem S512x512 .f32).view.loc (c : Thread nD τ) ↦[(xM : Memref sig .tc .vmem S512x512 .f32).view.set \ (x0M : Memref sig .tc .vmem S1x512 .f32).view.set]{q} f)) :=
  pointsTo_split_subset (by rw [View.set_whole]; exact Finset.subset_univ _)
omit [FloatOps F] in
theorem x511_split (c : Dev nD) (q : PosShare TreeShare) (f : Buf (Elt F) ((xM : Memref sig .tc .vmem S512x512 .f32).view.loc (c : Thread nD τ))) :
    ((xM : Memref sig .tc .vmem S512x512 .f32).view.loc (c : Thread nD τ) ↦[(xM : Memref sig .tc .vmem S512x512 .f32).view.set]{q} f : sProp 𝕄)
      ⊣⊢ iprop(((xM : Memref sig .tc .vmem S512x512 .f32).view.loc (c : Thread nD τ) ↦[(x511M : Memref sig .tc .vmem S1x512 .f32).view.set]{q} f)
          ∗ ((xM : Memref sig .tc .vmem S512x512 .f32).view.loc (c : Thread nD τ) ↦[(xM : Memref sig .tc .vmem S512x512 .f32).view.set \ (x511M : Memref sig .tc .vmem S1x512 .f32).view.set]{q} f)) :=
  pointsTo_split_subset (by rw [View.set_whole]; exact Finset.subset_univ _)

section Sends
variable (K : Dev nD × Fin 5 → ℕ)

/-- The first row leaving upwards: `Rounds.wp_send_pointsTo` at the cells of the upward exchange, addressed to `n = prv c`. -/
theorem wp_send_up (c n : Dev nD) (hn : n = prv c) (hu : hasUp c)
    {hsc : (dnM : Memref sig (Dev.tc n : Thread nD τ).2.kind .vmem S1x512 .f32).view.ref.isScScratch = false}
    {hsrc : (x0M : Memref sig .tc .vmem S1x512 .f32).view.WordExact} {hdst : (dnM : Memref sig .tc .vmem S1x512 .f32).view.WordExact}
    {hsem : DmaTarget.Typed .vmem (.dma r1S) (.remote (Dev.tc n : Thread nD τ) (dnM : Memref sig .tc .vmem S1x512 .f32) (.dma s0S) hsc)}
    {α : Type} {Q : α → sProp 𝕄} {k : PUnit → Prog (TpuEff nD τ sig (Elt F) Λ₀ .tc) α}
    (fP : Buf (Elt F) ((dnM : Memref sig .tc .vmem S1x512 .f32).view.loc (prv c : Thread nD τ))) (W : Waits sig Unit)
    (O₁ O : CellTallies nD τ sig Unit) (hO : O₁ = O + tallyAt (r1Cell (prv c)) () N) :
    iprop(cellInv ER (haloRd m) (K (c, 1)) (s0Cell c) ∗ cellInv ER (haloRd m) (K (prv c, 4)) (r1Cell (prv c))
        ∗ x0Pts m c ∗ dnPts (prv c) fP
        ∗ owes (c : Thread nD τ) O₁ W
        ∗ dutyTok ER (s0Cell c) 0 false ∗ reached ER (s0Cell c) 0
        ∗ dutyTok ER (r1Cell (prv c)) 0 false ∗ reached ER (r1Cell (prv c)) 0)
      ⊢ iprop(((cred (tallyAt (s0Cell c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma x0M (.remote (Dev.tc n : Thread nD τ) dnM (.dma s0S) hsc) (.dma r1S) hsrc hdst hsem) k) Q) := by
  subst hn
  unfold x0Pts dnPts
  exact Rounds.wp_send_pointsTo 𝒱₀ ER (haloRd m) (c : Thread nD τ) none (κ₁ := K (c, 1)) (κ₂ := K (prv c, 4))
    (r₁ := 0) (r₂ := 0) (d₁ := false) (d₂ := false) (fd := fP)
    (mem_s0 m c hu) (mem_r1_prv m c hu)
    () () N rfl (amount_dma m c s0S false) (amount_dma m (prv c) r1S false) O hO (W := W)
    (by rw [payload_s0'])
    (by rw [payload_r1_prv, landed_dn_eq])

/-- The last row leaving downwards, addressed to `n = nxt c`. -/
theorem wp_send_dn (c n : Dev nD) (hn : n = nxt c) (hd : hasDn c)
    {hsc : (upM : Memref sig (Dev.tc n : Thread nD τ).2.kind .vmem S1x512 .f32).view.ref.isScScratch = false}
    {hsrc : (x511M : Memref sig .tc .vmem S1x512 .f32).view.WordExact} {hdst : (upM : Memref sig .tc .vmem S1x512 .f32).view.WordExact}
    {hsem : DmaTarget.Typed .vmem (.dma r0S) (.remote (Dev.tc n : Thread nD τ) (upM : Memref sig .tc .vmem S1x512 .f32) (.dma s1S) hsc)}
    {α : Type} {Q : α → sProp 𝕄} {k : PUnit → Prog (TpuEff nD τ sig (Elt F) Λ₀ .tc) α}
    (fN : Buf (Elt F) ((upM : Memref sig .tc .vmem S1x512 .f32).view.loc (nxt c : Thread nD τ))) (W : Waits sig Unit)
    (O₁ O : CellTallies nD τ sig Unit) (hO : O₁ = O + tallyAt (r0Cell (nxt c)) () N) :
    iprop(cellInv ER (haloRd m) (K (c, 2)) (s1Cell c) ∗ cellInv ER (haloRd m) (K (nxt c, 3)) (r0Cell (nxt c))
        ∗ x511Pts m c ∗ upPts (nxt c) fN
        ∗ owes (c : Thread nD τ) O₁ W
        ∗ dutyTok ER (s1Cell c) 0 false ∗ reached ER (s1Cell c) 0
        ∗ dutyTok ER (r0Cell (nxt c)) 0 false ∗ reached ER (r0Cell (nxt c)) 0)
      ⊢ iprop(((cred (tallyAt (s1Cell c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma x511M (.remote (Dev.tc n : Thread nD τ) upM (.dma s1S) hsc) (.dma r0S) hsrc hdst hsem) k) Q) := by
  subst hn
  unfold x511Pts upPts
  exact Rounds.wp_send_pointsTo 𝒱₀ ER (haloRd m) (c : Thread nD τ) none (κ₁ := K (c, 2)) (κ₂ := K (nxt c, 3))
    (r₁ := 0) (r₂ := 0) (d₁ := false) (d₂ := false) (fd := fN)
    (mem_s1 m c hd) (mem_r0_nxt m c hd)
    () () N rfl (amount_dma m c s1S false) (amount_dma m (nxt c) r0S false) O hO (W := W)
    (by rw [payload_s1'])
    (by rw [payload_r0_nxt, landed_up_eq])

end Sends

omit [FloatOps F] in
theorem duties_s0_none (c : Dev nD) (hu : ¬ hasUp c) : ∀ r, 0 ≤ r → (haloRd (F := F) m).duties (s0Cell c) r = ∅ := by
  intro r _
  rcases Nat.eq_zero_or_pos r with rfl | hr
  · rw [duties_s0, if_neg hu]
  · exact duties_later m _ r hr
omit [FloatOps F] in
theorem duties_r0_none (c : Dev nD) (hu : ¬ hasUp c) : ∀ r, 0 ≤ r → (haloRd (F := F) m).duties (r0Cell c) r = ∅ := by
  intro r _
  rcases Nat.eq_zero_or_pos r with rfl | hr
  · rw [duties_r0, if_neg hu]
  · exact duties_later m _ r hr
omit [FloatOps F] in
theorem duties_s1_none (c : Dev nD) (hd : ¬ hasDn c) : ∀ r, 0 ≤ r → (haloRd (F := F) m).duties (s1Cell c) r = ∅ := by
  intro r _
  rcases Nat.eq_zero_or_pos r with rfl | hr
  · rw [duties_s1, if_neg hd]
  · exact duties_later m _ r hr
omit [FloatOps F] in
theorem duties_r1_none (c : Dev nD) (hd : ¬ hasDn c) : ∀ r, 0 ≤ r → (haloRd (F := F) m).duties (r1Cell c) r = ∅ := by
  intro r _
  rcases Nat.eq_zero_or_pos r with rfl | hr
  · rw [duties_r1, if_neg hd]
  · exact duties_later m _ r hr
omit [FloatOps F] in
theorem duties_bar_dn' (c : Dev nD) (hu : ¬ hasUp c) (hd : hasDn c) : (haloRd (F := F) m).duties (barCell c) 0 = {true} := duties_bar_dn m c hu hd
omit [FloatOps F] in
theorem duties_bar_up' (c : Dev nD) (hu : hasUp c) (hd : ¬ hasDn c) : (haloRd (F := F) m).duties (barCell c) 0 = {false} := duties_bar_up m c hu hd

theorem posW_first (c : Dev nD) (h : ¬ hasUp c) : posW c = 0#32 := by revert c; decide +kernel
theorem posW_last (c : Dev nD) (h : ¬ hasDn c) : posW c = 15#32 := by revert c; decide +kernel

end Cert.Kernel.Halo

end
-- ==== Proof.Bits.OutWrites.lean ====
/-
  The result block as the LIST of its four writes, the later two reading back what the earlier ones left: read at an
  index it is `outFn` again. Each write replaces some rows of a rectangle of the block and keeps, on the rectangle's other
  rows, a read-back value; the only read-back rows that survive are row 1 (from the first slab) and row 510 (from the
  second), and both are the slab's own rows there.
-/
import proofs.«900541_g7700000000000542_dist_halo_stencil_i_m512_n512_v7x_i16_bf16_1_alg».proof.Proof.Bits.OutSpec
import Idealize.ShloMosaic.Lib.Exec

noncomputable section

namespace Cert.Kernel.OutSpec

open Cert.Kernel Cert.Kernel.Gen
open Idealize.ShloMosaic Idealize.ShloMosaic.TcCoe Idealize.SL.Sem
open Idealize.ShloMosaic.ValueIdx

variable {F : FTy → Type} [FloatOps F]

/-- One write of `m` replaced rows at row `k + s0` laid over ANY value `old` of the rectangle of `n` rows at row `k`, read at
    an index: the payload's row inside the replaced rows, `old`'s row on the rectangle's other rows, the contents elsewhere. -/
theorem store_old_apply {n m : ℕ} (k s0 : ℕ)
    (inb : ∀ a, (![k, 0] : Fin 2 → Nat) a + (⟨2, ![n, 512]⟩ : Shape).size a ≤ S512x512.size a)
    (hs : (⟨2, ![n, 512]⟩ : Shape).Slices ![s0, 0] ⟨2, ![m, 512]⟩)
    (p : FVec F ⟨2, ![m, 512]⟩ .bf16) (old : (⟨2, ![n, 512]⟩ : Shape).Idx → Elt F .bf16) (g : OC (F := F)) (r : Fin 512) (j : Fin 512) :
    (((oM : Memref sig .tc .vmem S512x512 .bf16).view.slice (Rect.unit (s := S512x512) ![k, 0] (⟨2, ![n, 512]⟩ : Shape).size inb)).write (Elt F) g
      (updateSlice old p ![s0, 0] hs) Finset.univ) (ix2 r j)
    = if h : k + s0 ≤ r.val ∧ r.val < k + s0 + m then p (ix2 (⟨r.val - (k + s0), by omega⟩ : Fin m) j)
      else if h' : k ≤ r.val ∧ r.val < k + n then old (ix2 (⟨r.val - k, by omega⟩ : Fin n) j) else g (ix2 r j) := by
  have hn : k + n ≤ 512 := inb 0
  have hm : s0 + m ≤ n := hs.2 0
  by_cases hr : k ≤ r.val ∧ r.val < k + n
  · have hx : ((oM : Memref sig .tc .vmem S512x512 .bf16).view.slice (Rect.unit (s := S512x512) ![k, 0] (⟨2, ![n, 512]⟩ : Shape).size inb)).emb
        (ix2 (⟨r.val - k, by omega⟩ : Fin n) j) = ix2 r j := by
      funext a; apply Fin.ext
      match a with
      | ⟨0, _⟩ => show k + 1 * (r.val - k) = r.val; omega
      | ⟨1, _⟩ => show 0 + 1 * j.val = j.val; omega
    conv_lhs => rw [← hx]
    rw [View.write_emb_of_mem _ _ (Finset.mem_univ _), cast_eq, updateSlice_ix2]
    by_cases h : k + s0 ≤ r.val ∧ r.val < k + s0 + m
    · rw [dif_pos h, dif_pos (show s0 ≤ r.val - k ∧ r.val - k < s0 + m by omega)]
      refine congrArg p (congrArg (fun a => ix2 a j) (Fin.ext ?_))
      show r.val - k - s0 = r.val - (k + s0); omega
    · rw [dif_neg h, dif_neg (show ¬ (s0 ≤ r.val - k ∧ r.val - k < s0 + m) by omega), dif_pos hr]
  · have hne : ∀ x, ((oM : Memref sig .tc .vmem S512x512 .bf16).view.slice (Rect.unit (s := S512x512) ![k, 0] (⟨2, ![n, 512]⟩ : Shape).size inb)).emb x ≠ ix2 r j := by
      intro x hx
      have h0 := congrArg (fun i : S512x512.Idx => (i 0).val) hx
      have hlt : (x 0).val < n := (x 0).isLt
      have h0' : k + 1 * (x 0).val = r.val := h0
      omega
    unfold View.write
    rw [preimage?_eq_none hne]
    rw [dif_neg (by omega), dif_neg hr]

/-- The four pieces as the run lists them: the two slabs read the block as it was; the top row's piece reads back rows
    0..1 after the slabs, the bottom row's rows 510..511 after the three. -/
abbrev pcA (pA : FVec F S255x512 .bf16) (g : OC (F := F)) : View.Piece (Elt F) S512x512 .bf16 :=
  ⟨RA, (fun old => updateSlice old pA ![1, 0] slices_S256x512_S255x512_1_0) ((oM : Memref sig .tc .vmem S512x512 .bf16).view.readAt (Elt F) RA.toLoadRect g)⟩
abbrev pcB (pB : FVec F S255x512 .bf16) (g : OC (F := F)) : View.Piece (Elt F) S512x512 .bf16 :=
  ⟨RB, (fun old => updateSlice old pB ![0, 0] slices_S256x512_S255x512_0_0) ((oM : Memref sig .tc .vmem S512x512 .bf16).view.readAt (Elt F) RB.toLoadRect g)⟩
abbrev pcT (pA pB : FVec F S255x512 .bf16) (pT : FVec F S1x512 .bf16) (g : OC (F := F)) : View.Piece (Elt F) S512x512 .bf16 :=
  ⟨RT, (fun old => updateSlice old pT ![0, 0] slices_S2x512_S1x512_0_0) ((oM : Memref sig .tc .vmem S512x512 .bf16).view.readCov [pcB pB g, pcA pA g] RT.toLoadRect)⟩
abbrev pcL (pA pB : FVec F S255x512 .bf16) (pT pL : FVec F S1x512 .bf16) (g : OC (F := F)) : View.Piece (Elt F) S512x512 .bf16 :=
  ⟨RL, (fun old => updateSlice old pL ![1, 0] slices_S2x512_S1x512_1_0) ((oM : Memref sig .tc .vmem S512x512 .bf16).view.readCov [pcT pA pB pT g, pcB pB g, pcA pA g] RL.toLoadRect)⟩

/-- A read-back of `n` rows at row `k` after the writes `L`, at its row `a`: what the writes leave at row `k + a`. -/
theorem readCov_apply {n : ℕ} (k : ℕ)
    (inb : ∀ a, (![k, 0] : Fin 2 → Nat) a + (⟨2, ![n, 512]⟩ : Shape).size a ≤ S512x512.size a)
    (L : List (View.Piece (Elt F) S512x512 .bf16)) (a : Fin n) (j : Fin 512) (R : Fin 512) (hR : R.val = k + a.val) :
    (oM : Memref sig .tc .vmem S512x512 .bf16).view.readCov L (Rect.unit (s := S512x512) ![k, 0] (⟨2, ![n, 512]⟩ : Shape).size inb).toLoadRect (ix2 a j)
      = (oM : Memref sig .tc .vmem S512x512 .bf16).view.writes (Elt F) (oM : Memref sig .tc .vmem S512x512 .bf16).view.junk L (ix2 R j) := by
  unfold View.readCov
  rw [View.readAt_apply, View.read_apply, cast_eq]
  refine congrArg _ (funext fun b => Fin.ext ?_)
  match b with
  | ⟨0, _⟩ => show k + 1 * a.val = R.val; omega
  | ⟨1, _⟩ => show 0 + 1 * j.val = j.val; omega

/-- The top piece's read-back at its second row: the first slab's first row. -/
theorem oldT_apply (pA pB : FVec F S255x512 .bf16) (g : OC (F := F)) (a : Fin 2) (ha : a.val = 1) (j : Fin 512) :
    (oM : Memref sig .tc .vmem S512x512 .bf16).view.readCov [pcB pB g, pcA pA g] RT.toLoadRect (ix2 a j) = pA (ix2 (0 : Fin 255) j) := by
  refine (readCov_apply (n := 2) 0 inb_S512x512_S2x512_0_0 _ a j (1 : Fin 512) (by show 1 = 0 + a.val; omega)).trans ?_
  rw [View.writes_cons]
  refine (store_old_apply (n := 256) (m := 255) 256 0 inb_S512x512_S256x512_256_0 slices_S256x512_S255x512_0_0 pB _ _ (1 : Fin 512) j).trans ?_
  rw [dif_neg (show ¬ (256 + 0 ≤ (1 : Fin 512).val ∧ (1 : Fin 512).val < 256 + 0 + 255) by decide),
    dif_neg (show ¬ (256 ≤ (1 : Fin 512).val ∧ (1 : Fin 512).val < 256 + 256) by decide)]
  rw [View.writes_cons]
  refine (store_old_apply (n := 256) (m := 255) 0 1 inb_S512x512_S256x512_0_0 slices_S256x512_S255x512_1_0 pA _ _ (1 : Fin 512) j).trans ?_
  rw [dif_pos (show 0 + 1 ≤ (1 : Fin 512).val ∧ (1 : Fin 512).val < 0 + 1 + 255 by decide)]
  rfl

/-- The bottom piece's read-back at its first row (row 510 of the block): the second slab's last row. -/
theorem oldL_apply (pA pB : FVec F S255x512 .bf16) (pT : FVec F S1x512 .bf16) (g : OC (F := F)) (a : Fin 2) (ha : a.val = 0) (j : Fin 512) :
    (oM : Memref sig .tc .vmem S512x512 .bf16).view.readCov [pcT pA pB pT g, pcB pB g, pcA pA g] RL.toLoadRect (ix2 a j) = pB (ix2 (254 : Fin 255) j) := by
  refine (readCov_apply (n := 2) 510 inb_S512x512_S2x512_510_0 _ a j (510 : Fin 512) (by show 510 = 510 + a.val; omega)).trans ?_
  rw [View.writes_cons]
  refine (store_old_apply (n := 2) (m := 1) 0 0 inb_S512x512_S2x512_0_0 slices_S2x512_S1x512_0_0 pT _ _ (510 : Fin 512) j).trans ?_
  rw [dif_neg (show ¬ (0 + 0 ≤ (510 : Fin 512).val ∧ (510 : Fin 512).val < 0 + 0 + 1) by decide),
    dif_neg (show ¬ (0 ≤ (510 : Fin 512).val ∧ (510 : Fin 512).val < 0 + 2) by decide)]
  rw [View.writes_cons]
  refine (store_old_apply (n := 256) (m := 255) 256 0 inb_S512x512_S256x512_256_0 slices_S256x512_S255x512_0_0 pB _ _ (510 : Fin 512) j).trans ?_
  rw [dif_pos (show 256 + 0 ≤ (510 : Fin 512).val ∧ (510 : Fin 512).val < 256 + 0 + 255 by decide)]
  rfl

/-- The four writes in the run's order, over any contents, leave `outFn`. -/
theorem writes4_eq (pA pB : FVec F S255x512 .bf16) (pT pL : FVec F S1x512 .bf16) (g : OC (F := F)) :
    (oM : Memref sig .tc .vmem S512x512 .bf16).view.writes (Elt F) g [pcL pA pB pT pL g, pcT pA pB pT g, pcB pB g, pcA pA g] = outFn pA pB pT pL := by
  funext i
  obtain ⟨r, j, rfl⟩ : ∃ (r j : Fin 512), i = ix2 r j := ⟨i 0, i 1, eq_ix2 (n0 := 512) (n1 := 512) i⟩
  rw [outFn_ix2, View.writes_cons]
  refine (store_old_apply (n := 2) (m := 1) 510 1 inb_S512x512_S2x512_510_0 slices_S2x512_S1x512_1_0 pL _ _ r j).trans ?_
  by_cases hL : 510 + 1 ≤ r.val ∧ r.val < 510 + 1 + 1
  · rw [dif_pos hL, dif_neg (show ¬ r.val = 0 by omega), dif_neg (show ¬ r.val ≤ 255 by omega),
      dif_neg (show ¬ r.val ≤ 510 by omega)]
    exact congrArg pL (congrArg (fun a => ix2 a j) (Fin.ext (by show r.val - (510 + 1) = 0; omega)))
  rw [dif_neg hL]
  by_cases hL' : 510 ≤ r.val ∧ r.val < 510 + 2
  · rw [dif_pos hL', oldL_apply pA pB pT g _ (by show r.val - 510 = 0; omega) j, dif_neg (show ¬ r.val = 0 by omega),
      dif_neg (show ¬ r.val ≤ 255 by omega), dif_pos (show r.val ≤ 510 by omega)]
    exact congrArg pB (congrArg (fun a => ix2 a j) (Fin.ext (by show 254 = r.val - 256; omega)))
  rw [dif_neg hL', View.writes_cons]
  refine (store_old_apply (n := 2) (m := 1) 0 0 inb_S512x512_S2x512_0_0 slices_S2x512_S1x512_0_0 pT _ _ r j).trans ?_
  by_cases hT : 0 + 0 ≤ r.val ∧ r.val < 0 + 0 + 1
  · rw [dif_pos hT, dif_pos (show r.val = 0 by omega)]
    exact congrArg pT (congrArg (fun a => ix2 a j) (Fin.ext (by show r.val - (0 + 0) = 0; omega)))
  rw [dif_neg hT, dif_neg (show ¬ r.val = 0 by omega)]
  by_cases hT' : 0 ≤ r.val ∧ r.val < 0 + 2
  · rw [dif_pos hT', oldT_apply pA pB g _ (by show r.val - 0 = 1; omega) j, dif_pos (show r.val ≤ 255 by omega)]
    exact congrArg pA (congrArg (fun a => ix2 a j) (Fin.ext (by show 0 = r.val - 1; omega)))
  rw [dif_neg hT', View.writes_cons]
  refine (store_old_apply (n := 256) (m := 255) 256 0 inb_S512x512_S256x512_256_0 slices_S256x512_S255x512_0_0 pB _ _ r j).trans ?_
  by_cases hB : 256 + 0 ≤ r.val ∧ r.val < 256 + 0 + 255
  · rw [dif_pos hB, dif_neg (show ¬ r.val ≤ 255 by omega), dif_pos (show r.val ≤ 510 by omega)]
  rw [dif_neg hB, dif_neg (show ¬ (256 ≤ r.val ∧ r.val < 256 + 256) by omega), View.writes_cons]
  refine (store_old_apply (n := 256) (m := 255) 0 1 inb_S512x512_S256x512_0_0 slices_S256x512_S255x512_1_0 pA _ _ r j).trans ?_
  rw [dif_pos (show 0 + 1 ≤ r.val ∧ r.val < 0 + 1 + 255 by omega), dif_pos (show r.val ≤ 255 by omega)]

/-- info: 'Cert.Kernel.OutSpec.writes4_eq' depends on axioms: [propext, Classical.choice, Quot.sound] -/
#guard_msgs in #print axioms writes4_eq

end Cert.Kernel.OutSpec

end
-- ==== Proof.Bits.BodyMid.lean ====
/-
  The body of an interior device: both barrier units, both rows sent and both received.
-/
import proofs.«900541_g7700000000000542_dist_halo_stencil_i_m512_n512_v7x_i16_bf16_1_alg».proof.Proof.Bits.BodyTables
import proofs.«900541_g7700000000000542_dist_halo_stencil_i_m512_n512_v7x_i16_bf16_1_alg».proof.Proof.Bits.OutWrites

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

attribute [local sl_rounds] mem_bar_prv mem_bar_nxt mem_r1_prv mem_r0_nxt mem_s0 mem_s1 amount_bar' amount_dma
  payload_bar_prv payload_bar_nxt duties_bar_both expect_bar_both
  payload_s0' payload_s1' payload_r1_prv payload_r0_nxt expect_s0 expect_r0 expect_s1 expect_r1
  duties_s0' duties_r0' duties_s1' duties_r1'
  expect_bar_one_dn expect_bar_one_up duties_bar_dn' duties_bar_up'
attribute [local sl_canon] dev1_eq dev2_eq dev3_eq dev4_eq

section BodyMid
variable (K : Dev nD × Fin 5 → ℕ)

set_option maxHeartbeats 1600000 in
/-- An interior device: both neighbours. -/
theorem sound_mid (c : Dev nD) (hu : hasUp c) (hd : hasDn c) (Kt : PUnit → sProp 𝕄) (W : Waits sig Unit)
    (fu : Buf (Elt F) ((upM : Memref sig .tc .vmem S1x512 .f32).view.loc (c : Thread nD τ)))
    (fd : Buf (Elt F) ((dnM : Memref sig .tc .vmem S1x512 .f32).view.loc (c : Thread nD τ)))
    (g1 : Buf (Elt F) (((c : Dev nD) : Thread nD τ).loc cc0_stg1_0)) :
    iprop(invs m K c ∗ marks c ∗ levAts L lv
        ∗ poss c ∗ payToks c
        ∗ cred (tallyAt (barCell c) () 2) ∗ cred (tallyAt (r0Cell c) () N) ∗ cred (tallyAt (r1Cell c) () N)
        ∗ upPts c fu ∗ dnPts c fd ∗ owes (c : Thread nD τ) (Oup c + Odn c) W
        ∗ ((xM : Memref sig .tc .vmem S512x512 .f32).view.loc (c : Thread nD τ) ↦[(xM : Memref sig .tc .vmem S512x512 .f32).view.set]{fullShare} xstg m c)
        ∗ ((oM : Memref sig .tc .vmem S512x512 .bf16).view.loc (c : Thread nD τ) ↦[(oM : Memref sig .tc .vmem S512x512 .bf16).view.set]{fullShare} g1)
        ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  have h1 : k0_cond1 c = 1#1 := (cond1_iff c).2 hu
  have h2 : k0_cond2 c = 1#1 := (cond2_iff c).2 hd
  have h5 : k0_cond5 c = 1#1 := (cond5_iff c).2 hu
  have h6 : k0_cond6 c = 1#1 := (cond6_iff c).2 hd
  have hfu : Scalar.cmpi .ne (Scalar.extui (upW c) : BitVec 32) 0#32 = 1#1 := (upFlag_iff c).2 hu
  have hfd : Scalar.cmpi .ne (Scalar.extui (dnW c) : BitVec 32) 0#32 = 1#1 := (dnFlag_iff c).2 hd
  unfold invs marks poss payToks upPts dnPts Oup Odn
  iintro ⟨⟨#HIbar, #HIs0, #HIs1, #HIr0, #HIr1, #HIbarP, #HIbarN, #HIr1P, #HIr0N⟩, ⟨#HrBP, #HrBN, #HrR1P, #HrR0N, #HrS0, #HrS1, #HrR0, #HrR1⟩, #Hlev,
    ⟨HatB, HatS0, HatS1, HatR0, HatR1⟩, ⟨HtBP, HtBN, HtR1P, HtR0N, HtS0, HtS1⟩, HcB, HcR0, HcR1, Hup, Hdn, HO, Hx, Hout, Hk⟩
  sl_unfold [cc0_body]
  sl_exec
  -- the two units on its own barrier, one at a time: the payloads of whichever neighbours have landed come with the
  -- first, the rest with the second; both are needed only after both
  rw [show (tallyAt (barCell c) () 2 : CellTallies nD τ sig Unit) = tallyAt (barCell c) () 1 + tallyAt (barCell c) () 1 from (tallyAt_add _ _ 1 1).symm]
  ihave HcB' := (cred_add (tallyAt (barCell c) () 1) (tallyAt (barCell c) () 1)).1 $$ HcB
  icases HcB' with ⟨HcB1, HcB2⟩
  have hOrows : ∀ g u, 0 < (tallyAt (r1Cell (prv c)) () N + tallyAt (r0Cell (nxt c)) () N : CellTallies nD τ sig Unit) g u → g = r1Cell (prv c) ∨ g = r0Cell (nxt c) := by
    intro g u h
    rw [Pi.add_apply, Finsupp.add_apply, tallyAt_apply, tallyAt_apply] at h
    by_contra hn
    rw [not_or] at hn
    rw [if_neg (fun h' => hn.1 h'.1), if_neg (fun h' => hn.2 h'.1)] at h
    exact Nat.lt_irrefl 0 h
  iapply (Rounds.wp_wait 𝒱₀ ER (haloRd m) (c : Thread nD τ) none (κ := K (c, 0))
      (wpE_semWait_eq 𝒱₀ (c : Thread nD τ) none Set.univ) (Set.mem_univ _) (cr := Finsupp.single () 1) {(SemLoc.reg barS, ())}
      (R := 0) (m := 0) (T := ∅) (by rw [Util.total_single]; decide) (image_single_subset _ _ _)) $$ [HcB1 HO HatB]
  · isplitr; · iexact HIbar
    isplitl [HcB1]; · iexact HcB1
    isplitl [HO]; · iexact HO
    isplitr; · iapply (mayWait_bar c _ hOrows); iexact Hlev
    iexact HatB
  iintro %S ⟨%hS, HO, HatB, Hpay1⟩
  have hmw := mayWait_bar (F := F) c _ hOrows
  sl_exec
  -- both neighbours' landing buffers, and that each is at round 0 of the receive cell the row will credit
  rw [Finset.sdiff_empty]
  ihave Hpay := (bigSep_rejoin S (fun d => (haloRd m).payload (barCell c) 0 d)) $$ [Hpay1 HatB_pay1]
  · isplitl [Hpay1]; · iexact Hpay1
    iexact HatB_pay1
  ihave Hp := (Entails.of_eq (bar_payloads m c)) $$ Hpay
  unfold barPayF barPayT dnPts upPts
  icases Hp with ⟨⟨⟨%fP, HdnP⟩, #HrR1P'⟩, ⟨%fN, HupN⟩, #HrR0N'⟩
  -- the block's staging buffer: a share to go on reading with, and a share of the first and of the last row to lend
  ihave Hx2 := (pointsTo_share (PosShare.mem_left_op_right fullShare)).1 $$ Hx
  icases Hx2 with ⟨HxL, HxR⟩
  ihave HxR2 := (pointsTo_share (PosShare.mem_left_op_right fullShare.right)).1 $$ HxR
  icases HxR2 with ⟨HxRL, HxRR⟩
  ihave Hx0' := (x0_split c fullShare.right.left (xstg m c)).1 $$ HxRL
  icases Hx0' with ⟨Hx0, Hx0c⟩
  ihave Hx511' := (x511_split c fullShare.right.right (xstg m c)).1 $$ HxRR
  icases Hx511' with ⟨Hx511, Hx511c⟩
  -- the first row, upwards into the buffer below `prv c`
  iapply (wp_send_up m K c _ (dev3_eq c h5) hu fP _ _ (tallyAt (r0Cell (nxt c)) () N) (add_comm _ _)) $$ [Hx0 HdnP HO HtS0 HtR1P]
  · isplitr; · iexact HIs0
    isplitr; · iexact HIr1P
    isplitl [Hx0]; · unfold x0Pts; iexact Hx0
    isplitl [HdnP]; · unfold dnPts; iexact HdnP
    isplitl [HO]; · iexact HO
    isplitl [HtS0]; · iexact HtS0
    isplitr; · iexact HrS0
    isplitl [HtR1P]; · iexact HtR1P
    iexact HrR1P
  iintro ⟨HcS0, HO⟩
  sl_exec
  -- the last row, downwards into the buffer above `nxt c`
  iapply (wp_send_dn m K c _ (dev4_eq c h6) hd fN _ _ 0 (zero_add _).symm) $$ [Hx511 HupN HO HtS1 HtR0N]
  · isplitr; · iexact HIs1
    isplitr; · iexact HIr0N
    isplitl [Hx511]; · unfold x511Pts; iexact Hx511
    isplitl [HupN]; · unfold upPts; iexact HupN
    isplitl [HO]; · iexact HO
    isplitl [HtS1]; · iexact HtS1
    isplitr; · iexact HrS1
    isplitl [HtR0N]; · iexact HtR0N
    iexact HrR0N
  iintro ⟨HcS1, HO⟩
  sl_exec
  -- what has landed: the row above from `prv c`, the row below from `nxt c`
  ihave HupL := (Entails.of_eq (payload_r0_own m c false)) $$ HatR0_pay1
  ihave HdnL := (Entails.of_eq (payload_r1_own m c false)) $$ HatR1_pay1
  sl_exec
  -- the four own cells close: their counters at zero are the core's again
  imod (Rounds.cell_close ER (haloRd m) (Set.mem_univ (K (c, 1))) (fun h => h) (R := 0 + 1) (duties_later m (s0Cell c))) $$ [HatS0] with HzS0
  · isplitr; · iexact HIs0
    iexact HatS0
  imod (Rounds.cell_close ER (haloRd m) (Set.mem_univ (K (c, 2))) (fun h => h) (R := 0 + 1) (duties_later m (s1Cell c))) $$ [HatS1] with HzS1
  · isplitr; · iexact HIs1
    iexact HatS1
  imod (Rounds.cell_close ER (haloRd m) (Set.mem_univ (K (c, 3))) (fun h => h) (R := 0 + 1) (duties_later m (r0Cell c))) $$ [HatR0] with HzR0
  · isplitr; · iexact HIr0
    iexact HatR0
  imod (Rounds.cell_close ER (haloRd m) (Set.mem_univ (K (c, 4))) (fun h => h) (R := 0 + 1) (duties_later m (r1Cell c))) $$ [HatR1] with HzR1
  · isplitr; · iexact HIr1
    iexact HatR1
  -- the block's staging buffer whole again
  ihave HxRL := (x0_split c fullShare.right.left (xstg m c)).2 $$ [HatS0_pay1 Hx0c]
  · isplitl [HatS0_pay1]; · iexact HatS0_pay1
    iexact Hx0c
  ihave HxRR := (x511_split c fullShare.right.right (xstg m c)).2 $$ [HatS1_pay1 Hx511c]
  · isplitl [HatS1_pay1]; · iexact HatS1_pay1
    iexact Hx511c
  ihave HxR := (pointsTo_share (PosShare.mem_left_op_right fullShare.right)).2 $$ [HxRL HxRR]
  · isplitl [HxRL]; · iexact HxRL
    iexact HxRR
  ihave Hx := (pointsTo_share (PosShare.mem_left_op_right fullShare)).2 $$ [HxL HxR]
  · isplitl [HxL]; · iexact HxL
    iexact HxR
  sl_step
  iapply Hk
  unfold bodyPost Φ₁ Dat.owesAt Pipeline.owesWithin
  rw [show (dats m 0 c).owed t₀.succ = 0 from rfl]
  isplitl [HupL HdnL HzS0 HzS1 HzR0 HzR1]
  · isplitl [HupL]; · iexists _; unfold upPts; iexact HupL
    isplitl [HdnL]; · iexists _; unfold dnPts; iexact HdnL
    isplitl [HzS0]; · iexact HzS0
    isplitl [HzS1]; · iexact HzS1
    isplitl [HzR0]; · iexact HzR0
    iexact HzR1
  isplitl [HO]
  · iexists _
    isplitr
    rotate_left
    · iexact HO
    · ipureintro; exact fun _ _ => Or.inl trivial
  isplitl [Hx]
  · iexists _; isplitr; · (ipureintro; rfl)
    rw [View.set_whole]
    iexact Hx
  iexists _
  isplitr
  rotate_left
  · rw [View.set_whole]
    iexact Hout
  · ipureintro
    sl_unfold_words
    unfold outAt OutSpec.outOf
    exact OutSpec.writes4_eq _ _ _ _ g1

end BodyMid

end Cert.Kernel.Halo

end
-- ==== Proof.Bits.BodyFirst.lean ====
/-
  The body of the first device of the line: nothing is exchanged upwards, and its top row is its own.
-/
import proofs.«900541_g7700000000000542_dist_halo_stencil_i_m512_n512_v7x_i16_bf16_1_alg».proof.Proof.Bits.BodyTables
import proofs.«900541_g7700000000000542_dist_halo_stencil_i_m512_n512_v7x_i16_bf16_1_alg».proof.Proof.Bits.OutWrites

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

attribute [local sl_rounds] mem_bar_prv mem_bar_nxt mem_r1_prv mem_r0_nxt mem_s0 mem_s1 amount_bar' amount_dma
  payload_bar_prv payload_bar_nxt duties_bar_both expect_bar_both
  payload_s0' payload_s1' payload_r1_prv payload_r0_nxt expect_s0 expect_r0 expect_s1 expect_r1
  duties_s0' duties_r0' duties_s1' duties_r1'
  expect_bar_one_dn expect_bar_one_up duties_bar_dn' duties_bar_up'
attribute [local sl_canon] dev1_eq dev2_eq dev3_eq dev4_eq

section BodyFirst
variable (K : Dev nD × Fin 5 → ℕ)

set_option maxHeartbeats 1600000 in
/-- The first device: no neighbour above. It signals and sends downwards only, and its top row is its own. -/
theorem sound_first (c : Dev nD) (hu : ¬ hasUp c) (hd : hasDn c) (Kt : PUnit → sProp 𝕄) (W : Waits sig Unit)
    (fu : Buf (Elt F) ((upM : Memref sig .tc .vmem S1x512 .f32).view.loc (c : Thread nD τ)))
    (fd : Buf (Elt F) ((dnM : Memref sig .tc .vmem S1x512 .f32).view.loc (c : Thread nD τ)))
    (g1 : Buf (Elt F) (((c : Dev nD) : Thread nD τ).loc cc0_stg1_0)) :
    iprop(invs m K c ∗ marks c ∗ levAts L lv
        ∗ poss c ∗ payToks c
        ∗ cred (tallyAt (barCell c) () 1) ∗ cred (tallyAt (r1Cell c) () N)
        ∗ upPts c fu ∗ dnPts c fd ∗ owes (c : Thread nD τ) (Odn c) W
        ∗ ((xM : Memref sig .tc .vmem S512x512 .f32).view.loc (c : Thread nD τ) ↦[(xM : Memref sig .tc .vmem S512x512 .f32).view.set]{fullShare} xstg m c)
        ∗ ((oM : Memref sig .tc .vmem S512x512 .bf16).view.loc (c : Thread nD τ) ↦[(oM : Memref sig .tc .vmem S512x512 .bf16).view.set]{fullShare} g1)
        ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  have hn1 : ¬ k0_cond1 c = 1#1 := fun h => hu ((cond1_iff c).1 h)
  have h2 : k0_cond2 c = 1#1 := (cond2_iff c).2 hd
  have hn5 : ¬ k0_cond5 c = 1#1 := fun h => hu ((cond5_iff c).1 h)
  have h6 : k0_cond6 c = 1#1 := (cond6_iff c).2 hd
  have hnfu : ¬ Scalar.cmpi .ne (Scalar.extui (upW c) : BitVec 32) 0#32 = 1#1 := fun h => hu ((upFlag_iff c).1 h)
  have hfd : Scalar.cmpi .ne (Scalar.extui (dnW c) : BitVec 32) 0#32 = 1#1 := (dnFlag_iff c).2 hd
  have hOrow : ∀ g u, 0 < (tallyAt (r0Cell (nxt c)) () N : CellTallies nD τ sig Unit) g u → g = r1Cell (prv c) ∨ g = r0Cell (nxt c) := by
    intro g u h
    rw [tallyAt_apply] at h
    by_contra hn
    rw [not_or] at hn
    rw [if_neg (fun h' => hn.2 h'.1)] at h
    exact Nat.lt_irrefl 0 h
  have hmw := mayWait_bar (F := F) c _ hOrow
  unfold invs marks poss payToks upPts dnPts Odn
  iintro ⟨⟨#HIbar, #HIs0, #HIs1, #HIr0, #HIr1, #HIbarP, #HIbarN, #HIr1P, #HIr0N⟩, ⟨#HrBP, #HrBN, #HrR1P, #HrR0N, #HrS0, #HrS1, #HrR0, #HrR1⟩, #Hlev,
    ⟨HatB, HatS0, HatS1, HatR0, HatR1⟩, ⟨-, HtBN, -, HtR0N, -, HtS1⟩, HcB, HcR1, Hup, Hdn, HO, Hx, Hout, Hk⟩
  sl_unfold [cc0_body]
  sl_exec
  -- the neighbour below is inside the kernel: its landing buffer for this device's last row
  ihave Hp := (Entails.of_eq (payload_bar_true m c)) $$ HatB_pay1
  unfold barPayT upPts
  icases Hp with ⟨⟨%fN, HupN⟩, #HrR0N'⟩
  -- the block's staging buffer: a share to go on reading with, and a share of the last row to lend
  ihave Hx2 := (pointsTo_share (PosShare.mem_left_op_right fullShare)).1 $$ Hx
  icases Hx2 with ⟨HxL, HxR⟩
  ihave HxR2 := (pointsTo_share (PosShare.mem_left_op_right fullShare.right)).1 $$ HxR
  icases HxR2 with ⟨HxRL, HxRR⟩
  ihave Hx511' := (x511_split c fullShare.right.right (xstg m c)).1 $$ HxRR
  icases Hx511' with ⟨Hx511, Hx511c⟩
  -- the last row, downwards into the buffer above `nxt c`
  iapply (wp_send_dn m K c _ (dev4_eq c h6) hd fN _ _ 0 (zero_add _).symm) $$ [Hx511 HupN HO HtS1 HtR0N]
  · isplitr; · iexact HIs1
    isplitr; · iexact HIr0N
    isplitl [Hx511]; · unfold x511Pts; iexact Hx511
    isplitl [HupN]; · unfold upPts; iexact HupN
    isplitl [HO]; · iexact HO
    isplitl [HtS1]; · iexact HtS1
    isplitr; · iexact HrS1
    isplitl [HtR0N]; · iexact HtR0N
    iexact HrR0N
  iintro ⟨HcS1, HO⟩
  sl_exec
  -- what has landed: the row below from `nxt c`
  ihave HdnL := (Entails.of_eq (payload_r1_own m c false)) $$ HatR1_pay1
  sl_exec
  -- the own cells close: those of the downward exchange after their round, those of the upward one never had a duty
  imod (Rounds.cell_close ER (haloRd m) (Set.mem_univ (K (c, 1))) (fun h => h) (R := 0) (duties_s0_none m c hu)) $$ [HatS0] with HzS0
  · isplitr; · iexact HIs0
    iexact HatS0
  imod (Rounds.cell_close ER (haloRd m) (Set.mem_univ (K (c, 2))) (fun h => h) (R := 0 + 1) (duties_later m (s1Cell c))) $$ [HatS1] with HzS1
  · isplitr; · iexact HIs1
    iexact HatS1
  imod (Rounds.cell_close ER (haloRd m) (Set.mem_univ (K (c, 3))) (fun h => h) (R := 0) (duties_r0_none m c hu)) $$ [HatR0] with HzR0
  · isplitr; · iexact HIr0
    iexact HatR0
  imod (Rounds.cell_close ER (haloRd m) (Set.mem_univ (K (c, 4))) (fun h => h) (R := 0 + 1) (duties_later m (r1Cell c))) $$ [HatR1] with HzR1
  · isplitr; · iexact HIr1
    iexact HatR1
  -- the block's staging buffer whole again
  ihave HxRR := (x511_split c fullShare.right.right (xstg m c)).2 $$ [HatS1_pay1 Hx511c]
  · isplitl [HatS1_pay1]; · iexact HatS1_pay1
    iexact Hx511c
  ihave HxR := (pointsTo_share (PosShare.mem_left_op_right fullShare.right)).2 $$ [HxRL HxRR]
  · isplitl [HxRL]; · iexact HxRL
    iexact HxRR
  ihave Hx := (pointsTo_share (PosShare.mem_left_op_right fullShare)).2 $$ [HxL HxR]
  · isplitl [HxL]; · iexact HxL
    iexact HxR
  sl_step
  iapply Hk
  unfold bodyPost Φ₁ Dat.owesAt Pipeline.owesWithin
  rw [show (dats m 0 c).owed t₀.succ = 0 from rfl]
  isplitl [Hup HdnL HzS0 HzS1 HzR0 HzR1]
  · isplitl [Hup]; · iexists _; unfold upPts; iexact Hup
    isplitl [HdnL]; · iexists _; unfold dnPts; iexact HdnL
    isplitl [HzS0]; · iexact HzS0
    isplitl [HzS1]; · iexact HzS1
    isplitl [HzR0]; · iexact HzR0
    iexact HzR1
  isplitl [HO]
  · iexists _
    isplitr
    rotate_left
    · iexact HO
    · ipureintro; exact fun _ _ => Or.inl trivial
  isplitl [Hx]
  · iexists _; isplitr; · (ipureintro; rfl)
    rw [View.set_whole]
    iexact Hx
  iexists _
  isplitr
  rotate_left
  · rw [View.set_whole]
    iexact Hout
  · ipureintro
    sl_unfold_words
    unfold outAt OutSpec.outOf
    have hT : OutSpec.rowTop (posW c) (xstg m c) (landedUp m c) = OutSpec.rowTop (posW c) (xstg m c) fu := by
      rw [posW_first c hu]; exact OutSpec.rowTop_first _ _ _
    rw [hT]
    exact OutSpec.writes4_eq _ _ _ _ g1

end BodyFirst

end Cert.Kernel.Halo

end
-- ==== Proof.Bits.BodyLast.lean ====
/-
  The body of the last device of the line: nothing is exchanged downwards, and its bottom row is its own.
-/
import proofs.«900541_g7700000000000542_dist_halo_stencil_i_m512_n512_v7x_i16_bf16_1_alg».proof.Proof.Bits.BodyTables
import proofs.«900541_g7700000000000542_dist_halo_stencil_i_m512_n512_v7x_i16_bf16_1_alg».proof.Proof.Bits.OutWrites

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

attribute [local sl_rounds] mem_bar_prv mem_bar_nxt mem_r1_prv mem_r0_nxt mem_s0 mem_s1 amount_bar' amount_dma
  payload_bar_prv payload_bar_nxt duties_bar_both expect_bar_both
  payload_s0' payload_s1' payload_r1_prv payload_r0_nxt expect_s0 expect_r0 expect_s1 expect_r1
  duties_s0' duties_r0' duties_s1' duties_r1'
  expect_bar_one_dn expect_bar_one_up duties_bar_dn' duties_bar_up'
attribute [local sl_canon] dev1_eq dev2_eq dev3_eq dev4_eq

section BodyLast
variable (K : Dev nD × Fin 5 → ℕ)

set_option maxHeartbeats 1600000 in
/-- The last device: no neighbour below. It signals and sends upwards only, and its bottom row is its own. -/
theorem sound_last (c : Dev nD) (hu : hasUp c) (hd : ¬ hasDn c) (Kt : PUnit → sProp 𝕄) (W : Waits sig Unit)
    (fu : Buf (Elt F) ((upM : Memref sig .tc .vmem S1x512 .f32).view.loc (c : Thread nD τ)))
    (fd : Buf (Elt F) ((dnM : Memref sig .tc .vmem S1x512 .f32).view.loc (c : Thread nD τ)))
    (g1 : Buf (Elt F) (((c : Dev nD) : Thread nD τ).loc cc0_stg1_0)) :
    iprop(invs m K c ∗ marks c ∗ levAts L lv
        ∗ poss c ∗ payToks c
        ∗ cred (tallyAt (barCell c) () 1) ∗ cred (tallyAt (r0Cell c) () N)
        ∗ upPts c fu ∗ dnPts c fd ∗ owes (c : Thread nD τ) (Oup c) W
        ∗ ((xM : Memref sig .tc .vmem S512x512 .f32).view.loc (c : Thread nD τ) ↦[(xM : Memref sig .tc .vmem S512x512 .f32).view.set]{fullShare} xstg m c)
        ∗ ((oM : Memref sig .tc .vmem S512x512 .bf16).view.loc (c : Thread nD τ) ↦[(oM : Memref sig .tc .vmem S512x512 .bf16).view.set]{fullShare} g1)
        ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  have h1 : k0_cond1 c = 1#1 := (cond1_iff c).2 hu
  have hn2 : ¬ k0_cond2 c = 1#1 := fun h => hd ((cond2_iff c).1 h)
  have h5 : k0_cond5 c = 1#1 := (cond5_iff c).2 hu
  have hn6 : ¬ k0_cond6 c = 1#1 := fun h => hd ((cond6_iff c).1 h)
  have hfu : Scalar.cmpi .ne (Scalar.extui (upW c) : BitVec 32) 0#32 = 1#1 := (upFlag_iff c).2 hu
  have hnfd : ¬ Scalar.cmpi .ne (Scalar.extui (dnW c) : BitVec 32) 0#32 = 1#1 := fun h => hd ((dnFlag_iff c).1 h)
  have hOrow : ∀ g u, 0 < (tallyAt (r1Cell (prv c)) () N : CellTallies nD τ sig Unit) g u → g = r1Cell (prv c) ∨ g = r0Cell (nxt c) := by
    intro g u h
    rw [tallyAt_apply] at h
    by_contra hn
    rw [not_or] at hn
    rw [if_neg (fun h' => hn.1 h'.1)] at h
    exact Nat.lt_irrefl 0 h
  have hmw := mayWait_bar (F := F) c _ hOrow
  unfold invs marks poss payToks upPts dnPts Oup
  iintro ⟨⟨#HIbar, #HIs0, #HIs1, #HIr0, #HIr1, #HIbarP, #HIbarN, #HIr1P, #HIr0N⟩, ⟨#HrBP, #HrBN, #HrR1P, #HrR0N, #HrS0, #HrS1, #HrR0, #HrR1⟩, #Hlev,
    ⟨HatB, HatS0, HatS1, HatR0, HatR1⟩, ⟨HtBP, -, HtR1P, -, HtS0, -⟩, HcB, HcR0, Hup, Hdn, HO, Hx, Hout, Hk⟩
  sl_unfold [cc0_body]
  sl_exec
  -- the neighbour above is inside the kernel: its landing buffer for this device's first row
  ihave Hp := (Entails.of_eq (payload_bar_false m c)) $$ HatB_pay1
  unfold barPayF dnPts
  icases Hp with ⟨⟨%fP, HdnP⟩, #HrR1P'⟩
  -- the block's staging buffer: a share to go on reading with, and a share of the first row to lend
  ihave Hx2 := (pointsTo_share (PosShare.mem_left_op_right fullShare)).1 $$ Hx
  icases Hx2 with ⟨HxL, HxR⟩
  ihave HxR2 := (pointsTo_share (PosShare.mem_left_op_right fullShare.right)).1 $$ HxR
  icases HxR2 with ⟨HxRL, HxRR⟩
  ihave Hx0' := (x0_split c fullShare.right.left (xstg m c)).1 $$ HxRL
  icases Hx0' with ⟨Hx0, Hx0c⟩
  -- the first row, upwards into the buffer below `prv c`
  iapply (wp_send_up m K c _ (dev3_eq c h5) hu fP _ _ 0 (zero_add _).symm) $$ [Hx0 HdnP HO HtS0 HtR1P]
  · isplitr; · iexact HIs0
    isplitr; · iexact HIr1P
    isplitl [Hx0]; · unfold x0Pts; iexact Hx0
    isplitl [HdnP]; · unfold dnPts; iexact HdnP
    isplitl [HO]; · iexact HO
    isplitl [HtS0]; · iexact HtS0
    isplitr; · iexact HrS0
    isplitl [HtR1P]; · iexact HtR1P
    iexact HrR1P
  iintro ⟨HcS0, HO⟩
  sl_exec
  -- what has landed: the row above from `prv c`
  ihave HupL := (Entails.of_eq (payload_r0_own m c false)) $$ HatR0_pay1
  sl_exec
  -- the own cells close: those of the upward exchange after their round, those of the downward one never had a duty
  imod (Rounds.cell_close ER (haloRd m) (Set.mem_univ (K (c, 1))) (fun h => h) (R := 0 + 1) (duties_later m (s0Cell c))) $$ [HatS0] with HzS0
  · isplitr; · iexact HIs0
    iexact HatS0
  imod (Rounds.cell_close ER (haloRd m) (Set.mem_univ (K (c, 2))) (fun h => h) (R := 0) (duties_s1_none m c hd)) $$ [HatS1] with HzS1
  · isplitr; · iexact HIs1
    iexact HatS1
  imod (Rounds.cell_close ER (haloRd m) (Set.mem_univ (K (c, 3))) (fun h => h) (R := 0 + 1) (duties_later m (r0Cell c))) $$ [HatR0] with HzR0
  · isplitr; · iexact HIr0
    iexact HatR0
  imod (Rounds.cell_close ER (haloRd m) (Set.mem_univ (K (c, 4))) (fun h => h) (R := 0) (duties_r1_none m c hd)) $$ [HatR1] with HzR1
  · isplitr; · iexact HIr1
    iexact HatR1
  -- the block's staging buffer whole again
  ihave HxRL := (x0_split c fullShare.right.left (xstg m c)).2 $$ [HatS0_pay1 Hx0c]
  · isplitl [HatS0_pay1]; · iexact HatS0_pay1
    iexact Hx0c
  ihave HxR := (pointsTo_share (PosShare.mem_left_op_right fullShare.right)).2 $$ [HxRL HxRR]
  · isplitl [HxRL]; · iexact HxRL
    iexact HxRR
  ihave Hx := (pointsTo_share (PosShare.mem_left_op_right fullShare)).2 $$ [HxL HxR]
  · isplitl [HxL]; · iexact HxL
    iexact HxR
  sl_step
  iapply Hk
  unfold bodyPost Φ₁ Dat.owesAt Pipeline.owesWithin
  rw [show (dats m 0 c).owed t₀.succ = 0 from rfl]
  isplitl [HupL Hdn HzS0 HzS1 HzR0 HzR1]
  · isplitl [HupL]; · iexists _; unfold upPts; iexact HupL
    isplitl [Hdn]; · iexists _; unfold dnPts; iexact Hdn
    isplitl [HzS0]; · iexact HzS0
    isplitl [HzS1]; · iexact HzS1
    isplitl [HzR0]; · iexact HzR0
    iexact HzR1
  isplitl [HO]
  · iexists _
    isplitr
    rotate_left
    · iexact HO
    · ipureintro; exact fun _ _ => Or.inl trivial
  isplitl [Hx]
  · iexists _; isplitr; · (ipureintro; rfl)
    rw [View.set_whole]
    iexact Hx
  iexists _
  isplitr
  rotate_left
  · rw [View.set_whole]
    iexact Hout
  · ipureintro
    sl_unfold_words
    unfold outAt OutSpec.outOf
    have hB : OutSpec.rowBot (posW c) (xstg m c) (landedDn m c) = OutSpec.rowBot (posW c) (xstg m c) fd := by
      rw [posW_last c hd]; exact OutSpec.rowBot_last _ _ _
    rw [hB]
    exact OutSpec.writes4_eq _ _ _ _ g1

end BodyLast

end Cert.Kernel.Halo

end
-- ==== Proof.Bits.Body.lean ====
/-
  The body of one device, run once at a symbolic place: the three kinds of device (first, interior, last) put
  together, and the library's body obligation from them.
-/
import proofs.«900541_g7700000000000542_dist_halo_stencil_i_m512_n512_v7x_i16_bf16_1_alg».proof.Proof.Bits.BodyMid
import proofs.«900541_g7700000000000542_dist_halo_stencil_i_m512_n512_v7x_i16_bf16_1_alg».proof.Proof.Bits.BodyFirst
import proofs.«900541_g7700000000000542_dist_halo_stencil_i_m512_n512_v7x_i16_bf16_1_alg».proof.Proof.Bits.BodyLast

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

section Body
variable (K : Dev nD × Fin 5 → ℕ)

omit [FloatOps F] in
theorem xPts_eq (c : Dev nD) (f : Buf (Elt F) ((c : Thread nD τ).loc cc0_stg0_0)) :
    ((xM : Memref sig .tc .vmem S512x512 .f32).view.loc (c : Thread nD τ) ↦[(xM : Memref sig .tc .vmem S512x512 .f32).view.set]{fullShare} f : sProp 𝕄)
      = (((c : Thread nD τ).loc cc0_stg0_0) ↦{fullShare} f) := by rw [View.set_whole]
omit [FloatOps F] in
theorem oPts_eq (c : Dev nD) (f : Buf (Elt F) ((c : Thread nD τ).loc cc0_stg1_0)) :
    ((oM : Memref sig .tc .vmem S512x512 .bf16).view.loc (c : Thread nD τ) ↦[(oM : Memref sig .tc .vmem S512x512 .bf16).view.set]{fullShare} f : sProp 𝕄)
      = (((c : Thread nD τ).loc cc0_stg1_0) ↦{fullShare} f) := by rw [View.set_whole]

/-- The body of any device from what the launch hands it. -/
theorem sound_body (c : Dev nD) (Kt : PUnit → sProp 𝕄) (W : Waits sig Unit)
    (fu : Buf (Elt F) ((upM : Memref sig .tc .vmem S1x512 .f32).view.loc (c : Thread nD τ)))
    (fd : Buf (Elt F) ((dnM : Memref sig .tc .vmem S1x512 .f32).view.loc (c : Thread nD τ)))
    (g1 : Buf (Elt F) (((c : Dev nD) : Thread nD τ).loc cc0_stg1_0)) :
    iprop(ghost m K c ∗ creds c ∗ levAts L lv ∗ upPts c fu ∗ dnPts c fd ∗ owes (c : Thread nD τ) (O₀ c) W
        ∗ (((c : Thread nD τ).loc cc0_stg0_0) ↦{fullShare} xstg m c) ∗ (((c : Thread nD τ).loc cc0_stg1_0) ↦{fullShare} g1)
        ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  unfold ghost creds O₀
  rw [← xPts_eq, ← oPts_eq]
  by_cases hu : hasUp c <;> by_cases hd : hasDn c
  · -- an interior device
    simp only [nbar, if_pos hu, if_pos hd]
    iintro ⟨⟨HI, Hm, Hp, Ht⟩, ⟨HcB, HcR0, HcR1⟩, Hlev, Hup, Hdn, HO, Hx, Hout, Hk⟩
    iapply (sound_mid m K c hu hd Kt W fu fd g1)
    isplitl [HI]; · iexact HI
    isplitl [Hm]; · iexact Hm
    isplitl [Hlev]; · iexact Hlev
    isplitl [Hp]; · iexact Hp
    isplitl [Ht]; · iexact Ht
    isplitl [HcB]; · iexact HcB
    isplitl [HcR0]; · iexact HcR0
    isplitl [HcR1]; · iexact HcR1
    isplitl [Hup]; · iexact Hup
    isplitl [Hdn]; · iexact Hdn
    isplitl [HO]; · iexact HO
    isplitl [Hx]; · iexact Hx
    isplitl [Hout]; · iexact Hout
    iexact Hk
  · -- the last device
    simp only [nbar, if_pos hu, if_neg hd, add_zero, Nat.add_zero]
    iintro ⟨⟨HI, Hm, Hp, Ht⟩, ⟨HcB, HcR0, -⟩, Hlev, Hup, Hdn, HO, Hx, Hout, Hk⟩
    iapply (sound_last m K c hu hd Kt W fu fd g1)
    isplitl [HI]; · iexact HI
    isplitl [Hm]; · iexact Hm
    isplitl [Hlev]; · iexact Hlev
    isplitl [Hp]; · iexact Hp
    isplitl [Ht]; · iexact Ht
    isplitl [HcB]; · iexact HcB
    isplitl [HcR0]; · iexact HcR0
    isplitl [Hup]; · iexact Hup
    isplitl [Hdn]; · iexact Hdn
    isplitl [HO]; · iexact HO
    isplitl [Hx]; · iexact Hx
    isplitl [Hout]; · iexact Hout
    iexact Hk
  · -- the first device
    simp only [nbar, if_neg hu, if_pos hd, zero_add, Nat.zero_add]
    iintro ⟨⟨HI, Hm, Hp, Ht⟩, ⟨HcB, -, HcR1⟩, Hlev, Hup, Hdn, HO, Hx, Hout, Hk⟩
    iapply (sound_first m K c hu hd Kt W fu fd g1)
    isplitl [HI]; · iexact HI
    isplitl [Hm]; · iexact Hm
    isplitl [Hlev]; · iexact Hlev
    isplitl [Hp]; · iexact Hp
    isplitl [Ht]; · iexact Ht
    isplitl [HcB]; · iexact HcB
    isplitl [HcR1]; · iexact HcR1
    isplitl [Hup]; · iexact Hup
    isplitl [Hdn]; · iexact Hdn
    isplitl [HO]; · iexact HO
    isplitl [Hx]; · iexact Hx
    isplitl [Hout]; · iexact Hout
    iexact Hk
  · exfalso
    have hu' : ¬ 0 < c.val := hu
    have hd' : ¬ c.val < 15 := hd
    omega

end Body

set_option maxRecDepth 4000 in
/-- The library's body obligation on core `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m c)
  unfold bodyPre Φ₀ start Dat.owesAt Pipeline.owesWithin
  iintro ⟨⟨⟨⟨%K, Hg⟩, Hcr, Hlev⟩, ⟨%fu, Hup⟩, ⟨%fd, Hdn⟩⟩, ⟨%W, %hW, HO⟩, ⟨%d0, %g0, %hg0, Hx⟩, ⟨%d1, %g1, %hg1, Hout⟩⟩
  have hx : g0 = xstg m c := by rw [hg0]; unfold Dat.before; rw [if_pos (fetch_0 t₀)]; rfl
  subst hx
  rw [show (dats m 0 c).owed t₀.castSucc = O₀ c from rfl]
  iapply (sound_body m K c (fun _ => bodyPost m c) W fu fd g1)
  isplitl [Hg]; · iexact Hg
  isplitl [Hcr]; · iexact Hcr
  isplitl [Hlev]; · iexact Hlev
  isplitl [Hup]; · iexact Hup
  isplitl [Hdn]; · iexact Hdn
  isplitl [HO]; · iexact HO
  isplitl [Hx]; · iexact Hx
  isplitl [Hout]; · iexact Hout
  iintro H; iexact H

end Cert.Kernel.Halo

end
-- ==== Proof.Bits.Launch.lean ====
/-
  The launch of the halo exchange on the line of sixteen devices: the ghost state of the eighty cells is minted and
  dealt around the ring (each device keeps its positions and receives the tokens of the duties it pays), the cells'
  invariants are allocated from the semaphores at zero, the units the neighbours owe a device at launch become its
  credit tokens (none towards a neighbour the line lacks), the staging waits are ordered below everything owed, and
  the library's launch theorem turns the body obligation into the run of the whole mesh.  The arrays after the run:
  the argument unchanged, the result what the one point wrote back.
-/
import proofs.«900541_g7700000000000542_dist_halo_stencil_i_m512_n512_v7x_i16_bf16_1_alg».proof.Proof.Bits.Body
import proofs.«900541_g7700000000000542_dist_halo_stencil_i_m512_n512_v7x_i16_bf16_1_alg».proof.Proof.Bits.Levels
import proofs.«900541_g7700000000000542_dist_halo_stencil_i_m512_n512_v7x_i16_bf16_1_alg».proof.Proof.Gen.Kernel.Frame

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The ring's arithmetic and the cells apart -/

theorem prv_eq_iff {d c : Dev nD} : prv d = c ↔ d = nxt c := ⟨fun h => by rw [← h, nxt_prv], fun h => by rw [h, prv_nxt]⟩
theorem nxt_eq_iff {d c : Dev nD} : nxt d = c ↔ d = prv c := ⟨fun h => by rw [← h, prv_nxt], fun h => by rw [h, nxt_prv]⟩
theorem hasUp_nxt_iff (c : Dev nD) : hasUp (nxt c) ↔ hasDn c := by revert c; decide
theorem hasDn_prv_iff (c : Dev nD) : hasDn (prv c) ↔ hasUp c := by revert c; decide

theorem s0_ne_bar : (SemLoc.dma s0S : SemLoc sig) ≠ .reg barS := fun h => by cases h
theorem s1_ne_bar : (SemLoc.dma s1S : SemLoc sig) ≠ .reg barS := fun h => by cases h

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem r0_eq_iff {a b : Dev nD} : Iff (r0Cell a = r0Cell b) (a = b) :=
  ⟨fun h => Fin.ext (congrArg (fun g : GSem nD τ sig => g.1.1.val) h), fun h => h ▸ rfl⟩
omit [FloatOps F] in
theorem r1_eq_iff {a b : Dev nD} : Iff (r1Cell a = r1Cell b) (a = b) :=
  ⟨fun h => Fin.ext (congrArg (fun g : GSem nD τ sig => g.1.1.val) h), fun h => h ▸ rfl⟩

/-! ## What a device owes, cell by cell; the staging waits -/

omit [FloatOps F] in
/-- What device `d` owes a cell `g`: towards each neighbour it has, the row's credit on that neighbour's receive cell
    and one unit on its barrier cell. -/
theorem O₀_apply (d : Dev nD) (g : GSem nD τ sig) :
    O₀ d g () = (if hasUp d then (if g = r1Cell (prv d) then N else 0) + (if g = barCell (prv d) then 1 else 0) else 0)
      + (if hasDn d then (if g = r0Cell (nxt d) then N else 0) + (if g = barCell (nxt d) then 1 else 0) else 0) := by
  unfold O₀ Oup Odn
  rw [Pi.add_apply, Finsupp.add_apply]
  congr 1
  · by_cases h : hasUp d
    · rw [if_pos h, if_pos h, Pi.add_apply, Finsupp.add_apply, tallyAt_apply, tallyAt_apply]
      simp only [eq_self_iff_true, and_true]
    · rw [if_neg h, if_neg h, Pi.zero_apply, Finsupp.zero_apply]
  · by_cases h : hasDn d
    · rw [if_pos h, if_pos h, Pi.add_apply, Finsupp.add_apply, tallyAt_apply, tallyAt_apply]
      simp only [eq_self_iff_true, and_true]
    · rw [if_neg h, if_neg h, Pi.zero_apply, Finsupp.zero_apply]

omit [FloatOps F] in
theorem O₀_pos {c : Dev nD} {g : GSem nD τ sig} {u : Unit} (h : 0 < O₀ c g u) :
    g = r1Cell (prv c) ∨ g = barCell (prv c) ∨ g = r0Cell (nxt c) ∨ g = barCell (nxt c) := by
  cases u
  rw [O₀_apply] at h
  by_contra hn
  rw [not_or, not_or, not_or] at hn
  simp only [if_neg hn.1, if_neg hn.2.1, if_neg hn.2.2.1, if_neg hn.2.2.2, Nat.add_zero, ite_self, Nat.lt_irrefl] at h

omit [FloatOps F] in
/-- A wait on a semaphore that is neither receive cell's sits at level 0, below everything a device may owe. -/
theorem mayWait_stage (c : Dev nD) (q : DmaSem sig) (hq0 : SemLoc.dma q ≠ .dma r0S) (hq1 : SemLoc.dma q ≠ .dma r1S)
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl | rfl <;> exact Finset.mem_singleton_self _)
      (fun p hp => by
        rw [Finset.mem_singleton.mp hp]; dsimp only [lv]
        rw [if_neg (fun h => by cases h), if_neg (not_or.mpr ⟨hq0, hq1⟩)])
      (fun g u hg => by
        rcases O₀_pos hg with rfl | rfl | rfl | rfl
        · dsimp only [lv]; rw [if_neg r1_ne_bar, if_pos (Or.inr rfl)]; decide
        · dsimp only [lv]; rw [if_pos rfl]; decide
        · dsimp only [lv]; rw [if_neg r0_ne_bar, if_pos (Or.inl rfl)]; decide
        · dsimp only [lv]; rw [if_pos rfl]; decide)
  · rw [MayWait_zero]; iintro -; iempintro

/-! ## The launch -/

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 5 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
/-- The eighty cells of the exchange. -/
def haloCells : Finset (GSem nD τ sig) := Finset.univ.map ⟨kcell, kcell_injective⟩

/-- A device's own cells' duty tokens as minted, uniformly for every device whether or not the line gives the duty a
    payer: (device, which duty) — its barrier's `false` and `true`, and `false` of its two send and two receive cells. -/
abbrev tokKey : Fin 6 → SemLoc sig × Bool
  | 0 => (.reg barS, false) | 1 => (.reg barS, true) | 2 => (.dma s0S, false) | 3 => (.dma s1S, false) | 4 => (.dma r0S, false) | 5 => (.dma r1S, false)
theorem tokKey_injective : Function.Injective tokKey := by decide
abbrev tokOf (cj : Dev nD × Fin 6) : GSem nD τ sig × ℕ × Bool := (((cj.1 : Thread nD τ), (tokKey cj.2).1), 0, (tokKey cj.2).2)
theorem tokOf_injective : Function.Injective (tokOf : Dev nD × Fin 6 → GSem nD τ sig × ℕ × Bool) := by
  rintro ⟨c, j⟩ ⟨c', j'⟩ h
  have h1 : c = c' := congrArg (fun x : GSem nD τ sig × ℕ × Bool => x.1.1.1) h
  subst h1
  have : j = j' := tokKey_injective (Prod.ext (congrArg (fun x : GSem nD τ sig × ℕ × Bool => x.1.2) h) (congrArg (fun x : GSem nD τ sig × ℕ × Bool => x.2.2) h))
  subst this; rfl
def haloToks : Finset (GSem nD τ sig × ℕ × Bool) := Finset.univ.map ⟨tokOf, tokOf_injective⟩

def u₀ : UU :=
  (initOf (Pipeline.cells cfgs cellOf_inj) (Pipeline.launchToks cfgs cellOf_inj), initOf haloCells haloToks)

/-- The duty tokens of device `c`'s own cells. -/
def toks (c : Dev nD) : sProp 𝕄 :=
  iprop(dutyTok ER (barCell c) 0 false ∗ dutyTok ER (barCell c) 0 true ∗ dutyTok ER (s0Cell c) 0 false ∗ dutyTok ER (s1Cell c) 0 false
    ∗ dutyTok ER (r0Cell c) 0 false ∗ dutyTok ER (r1Cell c) 0 false)

/-- What the launch element deals device `c`. -/
def G (c : Dev nD) : sProp 𝕄 :=
  iprop((bigSep Finset.univ fun k : Fin 5 => roundState ER (haloRd m) (kcell (c, k)) 0)
    ∗ (bigSep Finset.univ fun k : Fin 5 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
omit [FloatOps F] in
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem fund_halo : BI.own (ER (initOf haloCells haloToks)) ⊢ (|==> bigSep Finset.univ (G m) : sProp 𝕄) := by
  have hX (Φ : GSem nD τ sig → sProp 𝕄) : bigSep haloCells Φ = bigSep Finset.univ fun c : Dev nD => bigSep Finset.univ fun k : Fin 5 => Φ (kcell (c, k)) := by
    unfold haloCells; rw [bigSep_map, bigSep_univ_prod]; rfl
  have hT : bigSep haloToks (fun x => (dutyTok ER x.1 x.2.1 x.2.2 : sProp 𝕄)) = bigSep Finset.univ fun c : Dev nD => toks c := by
    unfold haloToks; rw [bigSep_map, bigSep_univ_prod]
    exact bigSep_congr fun c _ => by unfold toks; rw [bigSep_fin6]; rfl
  iintro HX
  imod (Rounds.fund ER (haloRd m) haloCells haloToks) $$ HX with ⟨Hst, Hr, Hat, Htok⟩
  imodintro
  ihave Hst' := (Entails.of_eq (hX fun g => roundState ER (haloRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The two send and the two receive semaphores are the kernel's own four; -/
theorem ownSems0_eq (c : Dev nD) : (Pipeline.ownSems0 (Ix := Unit) (Name := ℕ) (U := UU) (Lvl := ℕ) (Val := Elt F) (τ := τ) osem c : sProp 𝕄)
    = iprop(semVal (s0Cell c) 0 ∗ semVal (s1Cell c) 0 ∗ semVal (r0Cell c) 0 ∗ semVal (r1Cell c) 0) := by
  rw [Pipeline.ownSems0_eq_of_list c osem [0, 1, 2, 3] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 5 => semVal (kcell (c, k)) 0 : sProp 𝕄) := by
  rw [ownSems0_eq, unscopedSems0_eq, bigSep_fin5]
  iintro ⟨⟨H0, H1, H2, H3⟩, HB⟩
  isplitl [HB]; · iexact HB
  isplitl [H0]; · iexact H0
  isplitl [H1]; · iexact H1
  isplitl [H2] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (haloRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 5 => semVal (kcell (c, k)) 0) ∗ bigSep Finset.univ fun k : Fin 5 => roundState ER (haloRd m) (kcell (c, k)) 0)
      ⊢ (|={Set.univ}=> bigSep Finset.univ fun k => iprop(∃ κ : ℕ, cellInv ER (haloRd m) κ (kcell (c, k))) : sProp 𝕄) from by
        rw [← bigSep_sep']
        exact (bigSep_mono fun k _ => (Rounds.body_intro ER (haloRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The persistent records of the whole mesh: every cell's invariant under its name, and that round 0 of each is reached. -/
def records (K : Dev nD × Fin 5 → ℕ) : sProp 𝕄 :=
  iprop((bigSep Finset.univ fun ck : Dev nD × Fin 5 => cellInv ER (haloRd m) (K ck) (kcell ck))
    ∗ bigSep Finset.univ fun ck : Dev nD × Fin 5 => reached ER (kcell ck) 0)

instance records_persistent (K : Dev nD × Fin 5 → ℕ) : BI.Persistent (records m K) := by unfold records; infer_instance

theorem inv_at (K : Dev nD × Fin 5 → ℕ) (ck : Dev nD × Fin 5) :
    (bigSep Finset.univ fun ck : Dev nD × Fin 5 => (cellInv ER (haloRd m) (K ck) (kcell ck) : sProp 𝕄)) ⊢ cellInv ER (haloRd m) (K ck) (kcell ck) :=
  bigSep_elim (Finset.mem_univ ck)
omit [FloatOps F] in
theorem reached_at (ck : Dev nD × Fin 5) :
    (bigSep Finset.univ fun ck : Dev nD × Fin 5 => (reached ER (kcell ck) 0 : sProp 𝕄)) ⊢ reached ER (kcell ck) 0 :=
  bigSep_elim (Finset.mem_univ ck)

/-- What stays with device `c`: its positions, and the tokens of the duties IT pays. -/
def linear (c : Dev nD) : sProp 𝕄 := iprop(poss c ∗ payToks c)

theorem ghost_intro (K : Dev nD × Fin 5 → ℕ) (c : Dev nD) : iprop(records m K ∗ linear c) ⊢ G' m c := by
  unfold records linear G' ghost invs marks
  iintro ⟨⟨#HI, #HR⟩, Hp, Ht⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (prv c, 0)); iexact HI
    isplitr; · iapply (inv_at m K (nxt c, 0)); iexact HI
    isplitr; · iapply (inv_at m K (prv c, 4)); iexact HI
    iapply (inv_at m K (nxt c, 3)); iexact HI
  isplitr
  · isplitr; · iapply (reached_at (F := F) (prv c, 0)); iexact HR
    isplitr; · iapply (reached_at (F := F) (nxt c, 0)); iexact HR
    isplitr; · iapply (reached_at (F := F) (prv c, 4)); iexact HR
    isplitr; · iapply (reached_at (F := F) (nxt c, 3)); iexact HR
    isplitr; · iapply (reached_at (F := F) (c, 1)); iexact HR
    isplitr; · iapply (reached_at (F := F) (c, 2)); iexact HR
    isplitr; · iapply (reached_at (F := F) (c, 3)); iexact HR
    iapply (reached_at (F := F) (c, 4)); iexact HR
  isplitl [Hp]; · iexact Hp
  iexact Ht

omit [FloatOps F] in
/-- The tokens dealt around the ring: a barrier's `false` token and the upper receive cell's one device down (to `prv`),
    the barrier's `true` token and the lower receive cell's one device up (to `nxt`); the send tokens stay. -/
theorem toks_around : (bigSep Finset.univ fun c : Dev nD => (toks c : sProp 𝕄)) ⊢ bigSep Finset.univ fun c : Dev nD => payToks c := by
  unfold toks payToks
  simp only [bigSep_sep']
  rw [bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring (fun c : Dev nD => (dutyTok ER (r0Cell c) 0 false : sProp 𝕄)),
    bigSep_univ_equiv ring.symm (fun c : Dev nD => (dutyTok ER (r1Cell c) 0 false : sProp 𝕄))]
  iintro ⟨H1, H2, H3, H4, H5, H6⟩
  isplitl [H2]; · iexact H2
  isplitl [H1]; · iexact H1
  isplitl [H6]; · iexact H6
  isplitl [H5]; · iexact H5
  isplitl [H3]; · iexact H3
  iexact H4

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (haloRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 5 => iprop(∃ κ : ℕ, cellInv ER (haloRd m) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htok⟩
  ihave HK := (BI.bigSep_exists_pi Finset.univ (fun (ck : Dev nD × Fin 5) (κ : ℕ) => (cellInv ER (haloRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 5 => (atPos ER (kcell (c, k)) 0 ∅ 0 : sProp 𝕄)) payToks).symm).trans
      (bigSep_mono fun c _ => show _ ⊢ linear c from Entails.of_eq (by unfold linear poss; rw [bigSep_fin5])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] in
/-- What device `d` owes device `c`'s barrier cell: a unit if it is the neighbour above (which `c` has when it has one
    above), a unit if it is the neighbour below. -/
theorem owed_bar (d c : Dev nD) :
    O₀ d (barCell c) () = (if d = prv c then (if hasUp c then 1 else 0) else 0) + (if d = nxt c then (if hasDn c then 1 else 0) else 0) := by
  rw [O₀_apply, if_neg (show ¬ barCell c = r1Cell (prv d) from fun h => r1_ne_bar (congrArg Prod.snd h).symm),
    if_neg (show ¬ barCell c = r0Cell (nxt d) from fun h => r0_ne_bar (congrArg Prod.snd h).symm), Nat.zero_add, Nat.zero_add, Nat.add_comm]
  congr 1
  · by_cases h : d = prv c
    · subst h; rw [nxt_prv, if_pos rfl, if_pos rfl]; exact if_congr (hasDn_prv_iff c) rfl rfl
    · rw [if_neg h, if_neg (fun h1 => h (nxt_eq_iff.mp (bar_eq_iff.mp h1).symm)), ite_self]
  · by_cases h : d = nxt c
    · subst h; rw [prv_nxt, if_pos rfl, if_pos rfl]; exact if_congr (hasUp_nxt_iff c) rfl rfl
    · rw [if_neg h, if_neg (fun h1 => h (prv_eq_iff.mp (bar_eq_iff.mp h1).symm)), ite_self]

omit [FloatOps F] in
/-- The upper receive cell of `c` is owed the row of the neighbour above, -/
theorem owed_r0 (d c : Dev nD) : O₀ d (r0Cell c) () = if d = prv c then (if hasUp c then N else 0) else 0 := by
  rw [O₀_apply, if_neg (show ¬ r0Cell c = r1Cell (prv d) from fun h => r0_ne_r1 (congrArg Prod.snd h)),
    if_neg (show ¬ r0Cell c = barCell (prv d) from fun h => r0_ne_bar (congrArg Prod.snd h)),
    if_neg (show ¬ r0Cell c = barCell (nxt d) from fun h => r0_ne_bar (congrArg Prod.snd h))]
  simp only [Nat.add_zero, Nat.zero_add, ite_self]
  by_cases h : d = prv c
  · subst h; rw [nxt_prv, if_pos rfl, if_pos rfl]; exact if_congr (hasDn_prv_iff c) rfl rfl
  · rw [if_neg h, if_neg (fun h1 => h (nxt_eq_iff.mp (r0_eq_iff.mp h1).symm)), ite_self]

omit [FloatOps F] in
/-- the lower one the row of the neighbour below. -/
theorem owed_r1 (d c : Dev nD) : O₀ d (r1Cell c) () = if d = nxt c then (if hasDn c then N else 0) else 0 := by
  rw [O₀_apply, if_neg (show ¬ r1Cell c = r0Cell (nxt d) from fun h => r1_ne_r0 (congrArg Prod.snd h)),
    if_neg (show ¬ r1Cell c = barCell (prv d) from fun h => r1_ne_bar (congrArg Prod.snd h)),
    if_neg (show ¬ r1Cell c = barCell (nxt d) from fun h => r1_ne_bar (congrArg Prod.snd h))]
  simp only [Nat.add_zero, Nat.zero_add, ite_self]
  by_cases h : d = nxt c
  · subst h; rw [prv_nxt, if_pos rfl, if_pos rfl]; exact if_congr (hasUp_nxt_iff c) rfl rfl
  · rw [if_neg h, if_neg (fun h1 => h (prv_eq_iff.mp (r1_eq_iff.mp h1).symm)), ite_self]

omit [FloatOps F] in
theorem launch_bar (c : Dev nD) :
    tallyOn (barCell c) (launchCredit (Pipeline.owing O₀) 0 (barCell c)) = (tallyAt (barCell c) () (nbar c) : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => if hasUp c then 1 else 0, Finset.sum_ite_eq' Finset.univ (nxt c) fun _ => if hasDn c then 1 else 0,
    if_pos (Finset.mem_univ _), if_pos (Finset.mem_univ _)]

omit [FloatOps F] in
theorem launch_r0 (c : Dev nD) (h : hasUp c) :
    tallyOn (r0Cell c) (launchCredit (Pipeline.owing O₀) 0 (r0Cell c)) = (tallyAt (r0Cell c) () N : CellTallies nD τ sig Unit) := by
  unfold tallyAt; refine congrArg _ (Finsupp.ext fun u => ?_); cases u
  rw [Pipeline.launchCredit_owing, Finsupp.single_eq_same, Finset.sum_congr rfl fun d _ => owed_r0 d c,
    Finset.sum_ite_eq' Finset.univ (prv c) fun _ => if hasUp c then N else 0, if_pos (Finset.mem_univ _), if_pos h]

omit [FloatOps F] in
theorem launch_r1 (c : Dev nD) (h : hasDn c) :
    tallyOn (r1Cell c) (launchCredit (Pipeline.owing O₀) 0 (r1Cell c)) = (tallyAt (r1Cell c) () N : CellTallies nD τ sig Unit) := by
  unfold tallyAt; refine congrArg _ (Finsupp.ext fun u => ?_); cases u
  rw [Pipeline.launchCredit_owing, Finsupp.single_eq_same, Finset.sum_congr rfl fun d _ => owed_r1 d c,
    Finset.sum_ite_eq' Finset.univ (nxt c) fun _ => if hasDn c then N else 0, if_pos (Finset.mem_univ _), if_pos h]

omit [FloatOps F] in
theorem bigSep_erase_at {I : Type} [DecidableEq I] {s : Finset I} {i : I} (hi : i ∈ s) (Φ : I → sProp 𝕄) :
    bigSep s Φ = iprop(Φ i ∗ bigSep (s.erase i) Φ) := bigSep_erase hi

omit [FloatOps F] in
/-- The launch's credit tokens of device `c`: its barrier's units and, towards each neighbour it has, a row's credit. -/
theorem creds_intro (c : Dev nD) : (Pipeline.launchCred O₀ c : sProp 𝕄) ⊢ creds c := by
  have h1 : (bigSep ((Finset.univ.erase (SemLoc.reg barS)).erase (SemLoc.dma r0S)) fun sm : SemLoc sig =>
        (cred (tallyOn ((c : Thread nD τ), sm) (launchCredit (Pipeline.owing O₀) 0 ((c : Thread nD τ), sm))) : sProp 𝕄))
      ⊢ cred (tallyOn (r1Cell c) (launchCredit (Pipeline.owing O₀) 0 (r1Cell c))) :=
    bigSep_elim (Finset.mem_erase.mpr ⟨r1_ne_r0, Finset.mem_erase.mpr ⟨r1_ne_bar, Finset.mem_univ _⟩⟩)
  unfold Pipeline.launchCred creds
  rw [bigSep_univ_at _ (SemLoc.reg barS), launch_bar,
    bigSep_erase_at (i := SemLoc.dma r0S) (Finset.mem_erase.mpr ⟨r0_ne_bar, Finset.mem_univ _⟩)]
  iintro ⟨Hb, H0, Hrest⟩
  isplitl [Hb]; · iexact Hb
  isplitl [H0]
  · by_cases h : hasUp c
    · rw [if_pos h, ← launch_r0 c h]; iexact H0
    · rw [if_neg h]; iempintro
  · by_cases h : hasDn c
    · rw [if_pos h, ← launch_r1 c h]
      iapply h1; iexact Hrest
    · rw [if_neg h]; iempintro

/-! ### The theorem's side conditions -/

omit [FloatOps F] in
theorem up_set : (upM : Memref sig .tc .vmem S1x512 .f32).view.set = Finset.univ := View.set_whole _
omit [FloatOps F] in
theorem dn_set : (dnM : Memref sig .tc .vmem S1x512 .f32).view.set = Finset.univ := View.set_whole _
omit [FloatOps F] in
theorem upPts_eq (c : Dev nD) (f : Buf (Elt F) ((c : Thread nD τ).loc cc0_scratch0)) :
    upPts c f = (((c : Thread nD τ).loc cc0_scratch0) ↦{fullShare} f : sProp 𝕄) := by unfold upPts; rw [up_set]
omit [FloatOps F] in
theorem dnPts_eq (c : Dev nD) (f : Buf (Elt F) ((c : Thread nD τ).loc cc0_scratch1)) :
    dnPts c f = (((c : Thread nD τ).loc cc0_scratch1) ↦{fullShare} f : sProp 𝕄) := by unfold dnPts; rw [dn_set]

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hu⟩, ⟨%g, Hd⟩⟩
  isplitl [Hs]; · iexact Hs
  isplitl [Hu]
  · iexists f; rw [upPts_eq]; iexact Hu
  · iexists g; rw [dnPts_eq]; iexact Hd

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁
  iintro ⟨⟨%f, Hu⟩, ⟨%g, Hd⟩, H0, H1, H2, H3⟩
  isplitr; · iempintro
  isplitl [H0 H1 H2 H3]
  · isplitl [H0]; · iexact H0
    isplitl [H1]; · iexact H1
    isplitl [H2] <;> iassumption
  isplitl [Hu]
  · iexists f; rw [← upPts_eq]; iexact Hu
  · iexists g; rw [← dnPts_eq]; iexact Hd

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of sixteen devices, for any float values, from any memory with zero counters: every weakly fair
    execution of @main — the sixteen kernels handshaking with their neighbours on the barrier semaphore, then exchanging
    their outer rows along the line — terminates, and every final state has each device's result array at the computed
    contents and its block of `x` unchanged. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_halo m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- The `x` array after the run holds what it held. -/
theorem finalA_x (c : Dev nD) : finalA m c (0 : Fin 2) = m (win0_0.arr.view.loc (c : Thread nD τ)) :=
  (dats (F := F) m 0 c).arrAt_in (0 : Fin 2) rfl _

/-- The result array after the run holds what the one point wrote back: its window is the whole array at block index 0,
    written from the staging buffer the body left at `outAt`. -/
theorem finalA_out (c : Dev nD) : finalA m c (1 : Fin 2) = outAt m c := by
  show (dats m 0 c).arrAt (1 : Fin 2) (t₀.val + 1) = outAt m c
  rw [(dats (F := F) m 0 c).arrAt_succ (1 : Fin 2) t₀, if_pos (flush0_1 t₀)]
  exact Memref.write_access_unit_zero_univ (Elt F) main_v1 (funext fun a => Nat.zero_mul _) _ _ (outAt m c)

/-- info: 'Cert.Kernel.Halo.run_main' depends on axioms: [propext, Classical.choice, Quot.sound] -/
#guard_msgs in #print axioms run_main

end Cert.Kernel.Halo

end
-- ==== Proof.RefRun.lean ====
/-
  The reference's run and its result read at an index.

  @main is an allocation (a buffer of contents the program does not determine) followed by 29 host operations: three
  scatters write row 0, row 8191 and rows 1..8190 of an f32[8192, 512] array over the allocated buffer, and a final
  narrowing gives the bf16 result. Every row is written by exactly one of the three scatters, so the result does not
  depend on what the allocation held:
  * a left fold of point updates read at one point (`foldl_miss`, `foldl_hit`), and through it `stablehlo.scatter`
    with a body returning the update read at one operand index (`scatter_set_miss`, `scatter_set_hit`);
  * where the two scatter shapes of this program land an update (`resultIdx1`, `resultIdx2`);
  * the composed term `refTerm X A` of the argument `X` and the allocated contents `A`, read at rows 0, 8191 and
    between (`refTerm_first`, `refTerm_last`, `refTerm_mid`): no case mentions `A` (`refTerm_indep`);
  * the run: the allocation's rule hands the buffer back at contents not chosen, the line of 29 operations runs from
    there (`run_some`), and the result buffer is `refOut` of the argument whatever those contents were (`run`).
-/
import proofs.«900541_g7700000000000542_dist_halo_stencil_i_m512_n512_v7x_i16_bf16_1_alg».proof.ReferenceIdeal
import proofs.«900541_g7700000000000542_dist_halo_stencil_i_m512_n512_v7x_i16_bf16_1_alg».proof.Proof.Gen.ReferenceIdeal
import Idealize.ShloMosaic.Lib.ValueIdx
import Idealize.ShloMosaic.Lib.ValueLayout
import Idealize.ShloMosaic.Lib.IdealHost
import Idealize.ShloMosaic.Lib.StableHlo.Run

noncomputable section

namespace Cert.ReferenceIdeal.RefRun

open Cert.ReferenceIdeal Cert.ReferenceIdeal.Gen Idealize.ShloMosaic Idealize.SL.Sem Idealize.ShloMosaic.ValueIdx

/-! ## A left fold of point updates, read at one point -/

section Fold
variable {ι κ α : Type}

/-- A fold of steps none of which touches the point `i` leaves the accumulator's value there. -/
theorem foldl_miss (step : (κ → α) → ι → (κ → α)) (i : κ) (P : ι → Prop)
    (hmiss : ∀ r n, ¬ P n → step r n i = r i) :
    ∀ (l : List ι) (r : κ → α), (∀ n ∈ l, ¬ P n) → l.foldl step r i = r i
  | [], _, _ => rfl
  | a :: t, r, h => by
    rw [List.foldl_cons, foldl_miss step i P hmiss t _ fun n hn => h n (List.mem_cons_of_mem _ hn),
      hmiss r a (h a List.mem_cons_self)]

/-- A fold some step of which writes the point `i`, every writing step writing the same value `v`, ends with `v` there. -/
theorem foldl_hit (step : (κ → α) → ι → (κ → α)) (i : κ) (P : ι → Prop) (v : α)
    (hmiss : ∀ r n, ¬ P n → step r n i = r i) (hhit : ∀ r n, P n → step r n i = v) :
    ∀ (l : List ι) (r : κ → α), (∃ n ∈ l, P n) → l.foldl step r i = v
  | [], _, h => by obtain ⟨n, hn, _⟩ := h; cases hn
  | a :: t, r, h => by
    rw [List.foldl_cons]
    by_cases ht : ∃ n ∈ t, P n
    · exact foldl_hit step i P v hmiss hhit t _ ht
    · have ht' : ∀ n ∈ t, ¬ P n := fun n hn hP => ht ⟨n, hn, hP⟩
      rw [foldl_miss step i P hmiss t _ ht']
      obtain ⟨n, hn, hP⟩ := h
      rcases List.mem_cons.mp hn with rfl | hn
      · exact hhit r _ hP
      · exact absurd hP (ht' n hn)

end Fold

/-! ## `stablehlo.scatter` whose body returns the update, read at one operand index -/

section Scatter
variable {s si u : Shape} {w : Nat} {α : Type}

/-- An operand index no update lands at keeps the operand's element. -/
theorem scatter_set_miss (d : ScatterDims s si u) (x : s.Idx → α) (idx : IVec si w) (upd : u.Idx → α) (i : s.Idx)
    (h : ∀ j : u.Idx, d.resultIdx? j idx ≠ some i) :
    Host.scatter d (fun _ b => b) x idx upd i = x i := by
  unfold Host.scatter
  refine foldl_miss _ i (fun n => d.resultIdx? (u.rowMajor.symm n) idx = some i) (fun r n hP => ?_) _ _ (fun n _ => h _)
  dsimp only
  cases h0 : d.resultIdx? (u.rowMajor.symm n) idx with
  | none => rfl
  | some i0 =>
    have : i ≠ i0 := fun e => hP (e ▸ h0)
    show (if i = i0 then _ else _) = _
    rw [if_neg this]

/-- An operand index some update lands at, every update landing there carrying the value `v`, takes `v`. -/
theorem scatter_set_hit (d : ScatterDims s si u) (x : s.Idx → α) (idx : IVec si w) (upd : u.Idx → α) (i : s.Idx) (v : α)
    (hv : ∀ j : u.Idx, d.resultIdx? j idx = some i → upd j = v) (hex : ∃ j : u.Idx, d.resultIdx? j idx = some i) :
    Host.scatter d (fun _ b => b) x idx upd i = v := by
  unfold Host.scatter
  refine foldl_hit _ i (fun n => d.resultIdx? (u.rowMajor.symm n) idx = some i) v (fun r n hP => ?_) (fun r n hP => ?_) _ _ ?_
  · dsimp only
    cases h0 : d.resultIdx? (u.rowMajor.symm n) idx with
    | none => rfl
    | some i0 =>
      have : i ≠ i0 := fun e => hP (e ▸ h0)
      show (if i = i0 then _ else _) = _
      rw [if_neg this]
  · dsimp only
    have hvn := hv _ hP
    rw [hP]
    show (if i = i then _ else _) = _
    rw [if_pos rfl]
    exact hvn
  · obtain ⟨j, hj⟩ := hex
    exact ⟨u.rowMajor j, List.mem_finRange _, by rw [Equiv.symm_apply_apply]; exact hj⟩

end Scatter

/-! ## The two scatters' landing indices

Both scatters have ONE scatter index (a one-element index array) naming a start ROW; the first kind writes one row
(its update a row of 512), the second a band of 8190 rows from the start row on. -/

section Dims

/-- The start of the window: the index word read signed on the row axis, zero on the column axis. -/
theorem start1 (idx : IVec S1 32) (w : BitVec 32) (hidx : ∀ k, idx k = w) (j : S512.Idx) (a : Fin S8192x512.rank) :
    scatter_S8192x512_S1_S512_0_0_0_0.start j idx a = if a.val = 0 then w.toInt else 0 := by
  unfold ScatterDims.start
  match a with
  | ⟨0, _⟩ => rw [dif_pos (by decide +revert), hidx]; rfl
  | ⟨1, _⟩ => rw [dif_neg (by decide +revert)]; rfl

/-- The window coordinate: none on the row axis (it is inserted), the update's coordinate on the column axis. -/
theorem window1 (j : S512.Idx) (a : Fin S8192x512.rank) :
    scatter_S8192x512_S1_S512_0_0_0_0.window j a = if a.val = 0 then 0 else (j 0).val := by
  unfold ScatterDims.window
  match a with
  | ⟨0, _⟩ => rw [dif_neg (by decide +revert)]; rfl
  | ⟨1, _⟩ => rw [dif_pos (by decide +revert)]; rfl

/-- A row update at start row `r` lands its element `j` at `(r, j)`. -/
theorem resultIdx1 (idx : IVec S1 32) (w : BitVec 32) (hidx : ∀ k, idx k = w) (r : Fin 8192) (hw : w.toInt = (r.val : Int))
    (j : S512.Idx) : scatter_S8192x512_S1_S512_0_0_0_0.resultIdx? j idx = some (ix2 r (j 0)) := by
  have hj : (j 0).val < 512 := (j 0).isLt
  have hr : r.val < 8192 := r.isLt
  have hsum : ∀ a : Fin S8192x512.rank, scatter_S8192x512_S1_S512_0_0_0_0.start j idx a + scatter_S8192x512_S1_S512_0_0_0_0.window j a
      = if a.val = 0 then (r.val : Int) else ((j 0).val : Int) := by
    intro a; rw [start1 idx w hidx, window1, hw]; split <;> simp
  unfold ScatterDims.resultIdx?
  rw [dif_pos (fun a => by
    rw [hsum a]
    match a with
    | ⟨0, _⟩ => exact ⟨by simp, by show ((r.val : Int)) < 8192; omega⟩
    | ⟨1, _⟩ => exact ⟨by simp, by show (((j 0).val : Int)) < 512; omega⟩)]
  congr 1; funext a; apply Fin.ext
  show (scatter_S8192x512_S1_S512_0_0_0_0.start j idx a + scatter_S8192x512_S1_S512_0_0_0_0.window j a).toNat = _
  rw [hsum a]
  match a with
  | ⟨0, _⟩ => simp
  | ⟨1, _⟩ => simp

theorem start2 (idx : IVec S1 32) (w : BitVec 32) (hidx : ∀ k, idx k = w) (j : S8190x512.Idx) (a : Fin S8192x512.rank) :
    scatter_S8192x512_S1_S8190x512_01_n_0_0.start j idx a = if a.val = 0 then w.toInt else 0 := by
  unfold ScatterDims.start
  match a with
  | ⟨0, _⟩ => rw [dif_pos (by decide +revert), hidx]; rfl
  | ⟨1, _⟩ => rw [dif_neg (by decide +revert)]; rfl

/-- The window coordinate: the update's own coordinate on each axis. -/
theorem window2 (j : S8190x512.Idx) (a : Fin S8192x512.rank) :
    scatter_S8192x512_S1_S8190x512_01_n_0_0.window j a = if a.val = 0 then (j 0).val else (j 1).val := by
  unfold ScatterDims.window
  match a with
  | ⟨0, _⟩ => rw [dif_pos (by decide +revert)]; rfl
  | ⟨1, _⟩ => rw [dif_pos (by decide +revert)]; rfl

/-- A band update at start row `1` lands its element `(p, c)` at `(1 + p, c)`. -/
theorem resultIdx2 (idx : IVec S1 32) (w : BitVec 32) (hidx : ∀ k, idx k = w) (hw : w.toInt = 1)
    (j : S8190x512.Idx) (k : Fin 8192) (hk : k.val = 1 + (j 0).val) :
    scatter_S8192x512_S1_S8190x512_01_n_0_0.resultIdx? j idx = some (ix2 k (j 1)) := by
  have hj0 : (j 0).val < 8190 := (j 0).isLt
  have hj1 : (j 1).val < 512 := (j 1).isLt
  have hsum : ∀ a : Fin S8192x512.rank, scatter_S8192x512_S1_S8190x512_01_n_0_0.start j idx a + scatter_S8192x512_S1_S8190x512_01_n_0_0.window j a
      = if a.val = 0 then (k.val : Int) else ((j 1).val : Int) := by
    intro a; rw [start2 idx w hidx, window2, hw, hk]; split <;> simp
  unfold ScatterDims.resultIdx?
  rw [dif_pos (fun a => by
    rw [hsum a]
    match a with
    | ⟨0, _⟩ => exact ⟨by simp, by show ((k.val : Int)) < 8192; omega⟩
    | ⟨1, _⟩ => exact ⟨by simp, by show (((j 1).val : Int)) < 512; omega⟩)]
  congr 1; funext a; apply Fin.ext
  show (scatter_S8192x512_S1_S8190x512_01_n_0_0.start j idx a + scatter_S8192x512_S1_S8190x512_01_n_0_0.window j a).toNat = _
  rw [hsum a]
  match a with
  | ⟨0, _⟩ => simp
  | ⟨1, _⟩ => simp

end Dims

/-! ## The result as one term, and the term read at an index -/

section Value
variable {F : FTy → Type} [FloatOps F]

/-- The composed term of @main's result: the three scatters over allocated contents `A`, the argument `X`. -/
def refTerm (X A : (⟨S8192x512, .f32⟩ : BufTy).Contents (Elt F)) : (⟨S8192x512, .bf16⟩ : BufTy).Contents (Elt F) :=
  truncf .bf16
    (Host.scatter scatter_S8192x512_S1_S8190x512_01_n_0_0 (fun _ b => b)
      (Host.scatter scatter_S8192x512_S1_S512_0_0_0_0 (fun _ b => b)
        (Host.scatter scatter_S8192x512_S1_S512_0_0_0_0 (fun _ b => b) A
          (broadcastInDim S1 ![] bcast_S_S1 (constantI S_ 32 0#32))
          (shapeCast S512 (extractStridedSlice S1x512 ![0, 0] X slices_S8192x512_S1x512_0_0) shapeCasts_S1x512_S512))
        (broadcastInDim S1 ![] bcast_S_S1 (constantI S_ 32 8191#32))
        (shapeCast S512 (extractStridedSlice S1x512 ![8191, 0] X slices_S8192x512_S1x512_8191_0) shapeCasts_S1x512_S512))
      (broadcastInDim S1 ![] bcast_S_S1 (constantI S_ 32 1#32))
      (addf (addf (mulf (broadcastInDim S8190x512 ![] bcast_S_S8190x512 (constant S_ .f32 0x3E800000#32)) (extractStridedSlice S8190x512 ![0, 0] X slices_S8192x512_S8190x512_0_0))
                  (mulf (broadcastInDim S8190x512 ![] bcast_S_S8190x512 (constant S_ .f32 0x3F000000#32)) (extractStridedSlice S8190x512 ![1, 0] X slices_S8192x512_S8190x512_1_0)))
            (mulf (broadcastInDim S8190x512 ![] bcast_S_S8190x512 (constant S_ .f32 0x3E800000#32)) (extractStridedSlice S8190x512 ![2, 0] X slices_S8192x512_S8190x512_2_0))))
    bitsLt_bf16_f32

end Value

section AtIdeal

/-- The index array of each scatter is one word. -/
theorem idx_word (w : BitVec 32) (k : S1.Idx) : broadcastInDim S1 ![] bcast_S_S1 (constantI S_ 32 w) k = w := rfl

/-- Row 0 is the argument's row 0, whatever was allocated. -/
theorem refTerm_first (X A : (⟨S8192x512, .f32⟩ : BufTy).Contents (Elt Ideal)) (j : Fin 512) :
    refTerm X A (ix2 (⟨0, by decide⟩ : Fin 8192) j) = X (ix2 (⟨0, by decide⟩ : Fin 8192) j) := by
  unfold refTerm
  refine (truncf_apply (ψ := .bf16) (φ := .f32) _ bitsLt_bf16_f32 _).trans ?_
  -- the band of rows 1..8190 misses row 0
  refine (scatter_set_miss _ _ _ _ _ fun j' e => ?_).trans ?_
  · have hj0 : (j' 0).val < 8190 := (j' 0).isLt
    rw [resultIdx2 _ 1#32 (idx_word 1#32) (by decide) j' ⟨1 + (j' 0).val, by omega⟩ rfl] at e
    exact absurd (congrArg Fin.val (congrFun (Option.some.inj e) ⟨0, by decide⟩)) (by show 1 + (j' 0).val ≠ 0; omega)
  -- the row written at 8191 misses row 0
  refine (scatter_set_miss _ _ _ _ _ fun j' e => ?_).trans ?_
  · rw [resultIdx1 _ 8191#32 (idx_word 8191#32) ⟨8191, by decide⟩ (by decide) j'] at e
    exact absurd (congrArg Fin.val (congrFun (Option.some.inj e) ⟨0, by decide⟩)) (by show 8191 ≠ 0; decide)
  -- the row written at 0 is the argument's row 0
  refine (scatter_set_hit _ _ _ _ _ (X (ix2 (⟨0, by decide⟩ : Fin 8192) j)) (fun j' e => ?_) ⟨ix1 j, resultIdx1 _ 0#32 (idx_word 0#32) ⟨0, by decide⟩ (by decide) (ix1 j)⟩).trans rfl
  · rw [resultIdx1 _ 0#32 (idx_word 0#32) ⟨0, by decide⟩ (by decide) j'] at e
    have h1 : j' 0 = j := by
      have := congrFun (Option.some.inj e) ⟨1, by decide⟩
      exact this
    rw [eq_ix1 j', h1]
    refine (shapeCast_1a_a_apply _ _ j).trans ?_
    exact slice2_axis0_apply 0 X _ (0 : Fin 1) j ⟨0, by decide⟩ rfl

/-- Row 8191 is the argument's row 8191, whatever was allocated. -/
theorem refTerm_last (X A : (⟨S8192x512, .f32⟩ : BufTy).Contents (Elt Ideal)) (j : Fin 512) :
    refTerm X A (ix2 (⟨8191, by decide⟩ : Fin 8192) j) = X (ix2 (⟨8191, by decide⟩ : Fin 8192) j) := by
  unfold refTerm
  refine (truncf_apply (ψ := .bf16) (φ := .f32) _ bitsLt_bf16_f32 _).trans ?_
  refine (scatter_set_miss _ _ _ _ _ fun j' e => ?_).trans ?_
  · have hj0 : (j' 0).val < 8190 := (j' 0).isLt
    rw [resultIdx2 _ 1#32 (idx_word 1#32) (by decide) j' ⟨1 + (j' 0).val, by omega⟩ rfl] at e
    exact absurd (congrArg Fin.val (congrFun (Option.some.inj e) ⟨0, by decide⟩)) (by show 1 + (j' 0).val ≠ 8191; omega)
  refine (scatter_set_hit _ _ _ _ _ (X (ix2 (⟨8191, by decide⟩ : Fin 8192) j)) (fun j' e => ?_) ⟨ix1 j, resultIdx1 _ 8191#32 (idx_word 8191#32) ⟨8191, by decide⟩ (by decide) (ix1 j)⟩).trans rfl
  · rw [resultIdx1 _ 8191#32 (idx_word 8191#32) ⟨8191, by decide⟩ (by decide) j'] at e
    have h1 : j' 0 = j := by
      have := congrFun (Option.some.inj e) ⟨1, by decide⟩
      exact this
    rw [eq_ix1 j', h1]
    refine (shapeCast_1a_a_apply _ _ j).trans ?_
    exact slice2_axis0_apply 8191 X _ (0 : Fin 1) j ⟨8191, by decide⟩ rfl

/-- A row `R` between is the three-point stencil of the argument's rows `R - 1`, `R`, `R + 1`, whatever was allocated. -/
theorem refTerm_mid (X A : (⟨S8192x512, .f32⟩ : BufTy).Contents (Elt Ideal)) (R Rm Rp : Fin 8192)
    (hm : Rm.val + 1 = R.val) (hp : Rp.val = R.val + 1) (j : Fin 512) :
    refTerm X A (ix2 R j) =
      ((Ideal.ofBits .f32 0x3E800000#32 : EReal) * X (ix2 Rm j) + (Ideal.ofBits .f32 0x3F000000#32 : EReal) * X (ix2 R j))
        + (Ideal.ofBits .f32 0x3E800000#32 : EReal) * X (ix2 Rp j) := by
  have hR : R.val < 8192 := R.isLt
  have hRp : Rp.val < 8192 := Rp.isLt
  have hPm : Rm.val < 8190 := by omega
  unfold refTerm
  refine (truncf_apply (ψ := .bf16) (φ := .f32) _ bitsLt_bf16_f32 _).trans ?_
  refine (scatter_set_hit _ _ _ _ _
    (((Ideal.ofBits .f32 0x3E800000#32 : EReal) * X (ix2 Rm j) + (Ideal.ofBits .f32 0x3F000000#32 : EReal) * X (ix2 R j))
        + (Ideal.ofBits .f32 0x3E800000#32 : EReal) * X (ix2 Rp j)) (fun j' e => ?_)
    ⟨ix2 (⟨Rm.val, hPm⟩ : Fin 8190) j, resultIdx2 _ 1#32 (idx_word 1#32) (by decide) _ R (by show R.val = 1 + Rm.val; omega)⟩).trans rfl
  · have hj0 : (j' 0).val < 8190 := (j' 0).isLt
    rw [resultIdx2 _ 1#32 (idx_word 1#32) (by decide) j' ⟨1 + (j' 0).val, by omega⟩ rfl] at e
    have h0 : 1 + (j' 0).val = R.val := congrArg Fin.val (congrFun (Option.some.inj e) ⟨0, by decide⟩)
    have h1 : j' 1 = j := by
      have := congrFun (Option.some.inj e) ⟨1, by decide⟩
      exact this
    have hj' : j' = ix2 (⟨Rm.val, hPm⟩ : Fin 8190) j := by
      funext a
      match a with
      | ⟨0, _⟩ => exact Fin.ext (by show (j' 0).val = Rm.val; omega)
      | ⟨1, _⟩ => exact h1
    rw [hj']
    refine (addf_apply _ _ _).trans ?_
    refine congrArg₂ (· + ·) ((addf_apply _ _ _).trans (congrArg₂ (· + ·) ?_ ?_)) ?_
    · refine (mulf_apply _ _ _).trans (congrArg₂ (· * ·) (broadcastInDim_scalar_apply _ _ _) ?_)
      exact slice2_axis0_apply 0 X _ _ j Rm (by show Rm.val = 0 + Rm.val; omega)
    · refine (mulf_apply _ _ _).trans (congrArg₂ (· * ·) (broadcastInDim_scalar_apply _ _ _) ?_)
      exact slice2_axis0_apply 1 X _ _ j R (by show R.val = 1 + Rm.val; omega)
    · refine (mulf_apply _ _ _).trans (congrArg₂ (· * ·) (broadcastInDim_scalar_apply _ _ _) ?_)
      exact slice2_axis0_apply 2 X _ _ j Rp (by show Rp.val = 2 + Rm.val; omega)

end AtIdeal

/-! ## The run: the allocation, then the 29 operations in a line -/

section Run
open Idealize.SL Idealize.SL.RA Idealize.SL.BI
open scoped Idealize.SL.BI
open Idealize.SL.BI.BIBase Idealize.SL.BI.Laws Idealize.SL.ProofMode
open Idealize.ShloMosaic.StableHlo Idealize.ShloMosaic.TcCoe
variable {F : FTy → Type} [FloatOps F]

/-- @main's 29 operations after the allocation, in order. -/
abbrev ops : List (HloOp τ sig (Elt F)) :=
  [ unary main_arg0 main_v1 ((extractStridedSlice S1x512 ![0, 0] · slices_S8192x512_S1x512_0_0) : (⟨S8192x512, .f32⟩ : BufTy).Contents (Elt F) → (⟨S1x512, .f32⟩ : BufTy).Contents (Elt F)),
    reshape main_v1 main_v2 rfl shapeCasts_S1x512_S512,
    nullary main_c (constantI S_ 32 0#32),
    unary main_c main_v3 (broadcastInDim S1 ![] bcast_S_S1 : (⟨S_, .i32⟩ : BufTy).Contents (Elt F) → (⟨S1, .i32⟩ : BufTy).Contents (Elt F)),
    ternary main_v0 main_v3 main_v2 main_v4 ((fun x i u => Host.scatter scatter_S8192x512_S1_S512_0_0_0_0 (fun _ b => b) x i u) : (⟨S8192x512, .f32⟩ : BufTy).Contents (Elt F) → (⟨S1, .i32⟩ : BufTy).Contents (Elt F) → (⟨S512, .f32⟩ : BufTy).Contents (Elt F) → (⟨S8192x512, .f32⟩ : BufTy).Contents (Elt F)),
    unary main_arg0 main_v5 ((extractStridedSlice S1x512 ![8191, 0] · slices_S8192x512_S1x512_8191_0) : (⟨S8192x512, .f32⟩ : BufTy).Contents (Elt F) → (⟨S1x512, .f32⟩ : BufTy).Contents (Elt F)),
    reshape main_v5 main_v6 rfl shapeCasts_S1x512_S512,
    nullary main_c_0 (constantI S_ 32 8191#32),
    unary main_c_0 main_v7 (broadcastInDim S1 ![] bcast_S_S1 : (⟨S_, .i32⟩ : BufTy).Contents (Elt F) → (⟨S1, .i32⟩ : BufTy).Contents (Elt F)),
    ternary main_v4 main_v7 main_v6 main_v8 ((fun x i u => Host.scatter scatter_S8192x512_S1_S512_0_0_0_0 (fun _ b => b) x i u) : (⟨S8192x512, .f32⟩ : BufTy).Contents (Elt F) → (⟨S1, .i32⟩ : BufTy).Contents (Elt F) → (⟨S512, .f32⟩ : BufTy).Contents (Elt F) → (⟨S8192x512, .f32⟩ : BufTy).Contents (Elt F)),
    unary main_arg0 main_v9 ((extractStridedSlice S8190x512 ![0, 0] · slices_S8192x512_S8190x512_0_0) : (⟨S8192x512, .f32⟩ : BufTy).Contents (Elt F) → (⟨S8190x512, .f32⟩ : BufTy).Contents (Elt F)),
    nullary main_cst (constant S_ .f32 0x3E800000#32),
    unary main_cst main_v10 (broadcastInDim S8190x512 ![] bcast_S_S8190x512 : (⟨S_, .f32⟩ : BufTy).Contents (Elt F) → (⟨S8190x512, .f32⟩ : BufTy).Contents (Elt F)),
    binary main_v10 main_v9 main_v11 (mulf : (⟨S8190x512, .f32⟩ : BufTy).Contents (Elt F) → (⟨S8190x512, .f32⟩ : BufTy).Contents (Elt F) → (⟨S8190x512, .f32⟩ : BufTy).Contents (Elt F)),
    unary main_arg0 main_v12 ((extractStridedSlice S8190x512 ![1, 0] · slices_S8192x512_S8190x512_1_0) : (⟨S8192x512, .f32⟩ : BufTy).Contents (Elt F) → (⟨S8190x512, .f32⟩ : BufTy).Contents (Elt F)),
    nullary main_cst_1 (constant S_ .f32 0x3F000000#32),
    unary main_cst_1 main_v13 (broadcastInDim S8190x512 ![] bcast_S_S8190x512 : (⟨S_, .f32⟩ : BufTy).Contents (Elt F) → (⟨S8190x512, .f32⟩ : BufTy).Contents (Elt F)),
    binary main_v13 main_v12 main_v14 (mulf : (⟨S8190x512, .f32⟩ : BufTy).Contents (Elt F) → (⟨S8190x512, .f32⟩ : BufTy).Contents (Elt F) → (⟨S8190x512, .f32⟩ : BufTy).Contents (Elt F)),
    binary main_v11 main_v14 main_v15 (addf : (⟨S8190x512, .f32⟩ : BufTy).Contents (Elt F) → (⟨S8190x512, .f32⟩ : BufTy).Contents (Elt F) → (⟨S8190x512, .f32⟩ : BufTy).Contents (Elt F)),
    unary main_arg0 main_v16 ((extractStridedSlice S8190x512 ![2, 0] · slices_S8192x512_S8190x512_2_0) : (⟨S8192x512, .f32⟩ : BufTy).Contents (Elt F) → (⟨S8190x512, .f32⟩ : BufTy).Contents (Elt F)),
    nullary main_cst_2 (constant S_ .f32 0x3E800000#32),
    unary main_cst_2 main_v17 (broadcastInDim S8190x512 ![] bcast_S_S8190x512 : (⟨S_, .f32⟩ : BufTy).Contents (Elt F) → (⟨S8190x512, .f32⟩ : BufTy).Contents (Elt F)),
    binary main_v17 main_v16 main_v18 (mulf : (⟨S8190x512, .f32⟩ : BufTy).Contents (Elt F) → (⟨S8190x512, .f32⟩ : BufTy).Contents (Elt F) → (⟨S8190x512, .f32⟩ : BufTy).Contents (Elt F)),
    binary main_v15 main_v18 main_v19 (addf : (⟨S8190x512, .f32⟩ : BufTy).Contents (Elt F) → (⟨S8190x512, .f32⟩ : BufTy).Contents (Elt F) → (⟨S8190x512, .f32⟩ : BufTy).Contents (Elt F)),
    nullary main_c_3 (constantI S_ 32 1#32),
    unary main_c_3 main_v20 (broadcastInDim S1 ![] bcast_S_S1 : (⟨S_, .i32⟩ : BufTy).Contents (Elt F) → (⟨S1, .i32⟩ : BufTy).Contents (Elt F)),
    ternary main_v8 main_v20 main_v19 main_v21 ((fun x i u => Host.scatter scatter_S8192x512_S1_S8190x512_01_n_0_0 (fun _ b => b) x i u) : (⟨S8192x512, .f32⟩ : BufTy).Contents (Elt F) → (⟨S1, .i32⟩ : BufTy).Contents (Elt F) → (⟨S8190x512, .f32⟩ : BufTy).Contents (Elt F) → (⟨S8192x512, .f32⟩ : BufTy).Contents (Elt F)),
    unary main_v21 main_v22 ((truncf .bf16 · bitsLt_bf16_f32) : (⟨S8192x512, .f32⟩ : BufTy).Contents (Elt F) → (⟨S8192x512, .bf16⟩ : BufTy).Contents (Elt F)) ]

/-- The allocated buffer, as a device buffer. -/
abbrev y0 : DevRef τ sig := Proc.devRef .tc main_v0

theorem main_eq (c : Dev nD) : main (F := F) c
    = (hlo rfl (allocateBuffer main_v0) fun _ => .ret (⟨⟩ : PUnit)) >>= fun _ => (seq ops >>= fun u => Pure.pure u) :=
  (show main (F := F) c = (hlo rfl (allocateBuffer main_v0) fun _ => .ret (⟨⟩ : PUnit)) >>= fun _ => seq ops from rfl).trans
    (congrArg (fun k => (hlo rfl (allocateBuffer main_v0) fun _ => .ret (⟨⟩ : PUnit)) >>= k) (funext fun _ => (bind_pure _).symm))
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., reshape_bufs_sub .., nullary_bufs_sub .., unary_bufs_sub .., ternary_bufs_sub .., unary_bufs_sub .., reshape_bufs_sub .., nullary_bufs_sub .., unary_bufs_sub .., ternary_bufs_sub .., unary_bufs_sub .., nullary_bufs_sub .., unary_bufs_sub .., binary_bufs_sub .., unary_bufs_sub .., nullary_bufs_sub .., unary_bufs_sub .., binary_bufs_sub .., binary_bufs_sub .., unary_bufs_sub .., nullary_bufs_sub .., unary_bufs_sub .., binary_bufs_sub .., binary_bufs_sub .., nullary_bufs_sub .., unary_bufs_sub .., ternary_bufs_sub .., unary_bufs_sub ..⟩
theorem ops_fresh : ∀ op ∈ (ops : List (HloOp τ sig (Elt F))), op.fresh = ∅ := by
  intro _ h; (repeat (cases h with | head => rfl | tail _ h => ?_)); exact nomatch h

/-- A valuation with the allocated buffer's contents replaced. -/
def withAlloc (V : Valuation τ sig (Elt F)) (A : (y0 : DevRef τ sig).ty.Contents (Elt F)) : Valuation τ sig (Elt F) :=
  Function.update V y0 A

local notation "𝕄" => MT nD τ sig Unit (Elt F) ℕ (Option PUnit) Unit

theorem y0_sub : ({y0} : Finset (DevRef τ sig)) ⊆ tcRefs τ sig :=
  Finset.singleton_subset_iff.mpr (devRef_mem_tcRefs main_v0)

theorem held_single (c : Thread nD τ) (V : Valuation τ sig (Elt F)) :
    (held c {y0} V : sProp 𝕄) = ((c.1, y0) ↦{fullShare} V y0) := by
  unfold held; exact bigSep_singleton

/-- All the TensorCore's buffers, the allocated one at `A`: that buffer and the others as they were. -/
theorem held_withAlloc (c : Thread nD τ) (V : Valuation τ sig (Elt F)) (A : (y0 : DevRef τ sig).ty.Contents (Elt F)) :
    (held c (tcRefs τ sig) (withAlloc V A) : sProp 𝕄)
      = iprop(((c.1, y0) ↦{fullShare} A) ∗ held c (tcRefs τ sig \ {y0}) V) := by
  rw [held_sub_split c y0_sub, held_single]
  have e1 : withAlloc V A y0 = A := by unfold withAlloc; rw [Function.update_self]
  have e2 : (held c (tcRefs τ sig \ {y0}) (withAlloc V A) : sProp 𝕄) = held c (tcRefs τ sig \ {y0}) V :=
    held_congr c fun b hb => Function.update_of_ne (fun e => (Finset.mem_sdiff.mp hb).2 (Finset.mem_singleton.mpr e)) _ _
  rw [e1, e2]

theorem boundary_intro_tc (d : Dev nD) : (opIdle (d.tc : Thread nD τ) : sProp 𝕄) ⊢ boundary (d.tc : Thread nD τ) :=
  boundary_of_opIdle (d.tc : Thread nD τ) (by rw [scopedRefs_tc, scopedRefs_eq, Finset.map_empty])
    (by rw [show (d.tc : Thread nD τ) = (d, .tc) from rfl, scopedCells_tc, scopedSems_eq, Finset.map_empty])

theorem launchBufs_held (m : (ℓ : Loc nD τ sig) → Buf (Elt F) ℓ) (ρ : Dev nD → PrngReg) (d : Dev nD) :
    (bigSep Finset.univ fun b : Ref sig .tc =>
        ((d.tc : Thread nD τ).loc b ↦{fullShare} (⟨m, fun _ => 0, ρ⟩ : MemSt nD τ sig (Elt F)).mem ((d.tc : Thread nD τ).loc b) : sProp 𝕄))
      = held (d.tc : Thread nD τ) (tcRefs τ sig) (launchContents m d) := by
  unfold held tcRefs; rw [bigSep_map]; rfl

/-- What each core ends holding: all its buffers at the operations' fold, from some allocated contents. -/
def ΦC (m : (ℓ : Loc nD τ sig) → Buf (Elt F) ℓ) (d : Dev nD) : sProp 𝕄 :=
  iprop(∃ A : (y0 : DevRef τ sig).ty.Contents (Elt F),
    held (d.tc : Thread nD τ) (tcRefs τ sig) (after ops (withAlloc (launchContents m d) A)))

set_option backward.isDefEq.respectTransparency.types false in
theorem step (m : (ℓ : Loc nD τ sig) → Buf (Elt F) ℓ) (ρ : Dev nD → PrngReg) (d : Dev nD) :
    iprop((bigSep Finset.univ fun b : Ref sig .tc =>
            ((d.tc : Thread nD τ).loc b ↦{fullShare} (⟨m, fun _ => 0, ρ⟩ : MemSt nD τ sig (Elt F)).mem ((d.tc : Thread nD τ).loc b)))
        ∗ owes (d.tc : Thread nD τ) 0 ∅ ∗ prngReg d (ρ d) ∗ opIdle (d.tc : Thread nD τ))
      ⊢ wp frame (wpE (defs (F := F)) Variants.none (d.tc : Thread nD τ) none) Set.univ (main (F := F) d)
          (fun _ => post (liftTc (ΦC m) BI.emp) (d.tc : Thread nD τ) : PUnit → sProp 𝕄) := by
  rw [launchBufs_held, main_eq, held_sub_split (d.tc : Thread nD τ) y0_sub, held_single, wp_bind]
  iintro ⟨⟨Hy, Hrest⟩, HO, -, Hidle⟩
  ihave Hb := (boundary_intro_tc (F := F) d) $$ Hidle
  iapply (wp_allocateBuffer Variants.none (d.tc : Thread nD τ) none Set.univ main_v0 ⟨by decide, rfl⟩ (hp := rfl)) $$ [Hb Hy]
  · isplitl [Hb]; · iexact Hb
    iexact Hy
  iintro %r ⟨Hb, Hy⟩
  rw [wp_ret]; imodintro
  ihave Hall := (Entails.of_eq (held_withAlloc (F := F) (d.tc : Thread nD τ) (launchContents m d) (r ⟨y0, Finset.mem_singleton_self _⟩)).symm) $$ [Hy Hrest]
  · isplitl [Hy]; · iexact Hy
    iexact Hrest
  iapply (wp_seq Variants.none none Set.univ d (tcRefs τ sig) (fun u => Pure.pure u) ops (List.forall_iff_forall_mem.1 ops_sub) ops_fresh
    (withAlloc (launchContents m d) (r ⟨y0, Finset.mem_singleton_self _⟩))) $$ [Hb Hall]
  · isplitl [Hb]; · iexact Hb
    iexact Hall
  iintro ⟨-, Hheld⟩
  rw [wp_pure]; imodintro
  unfold post ΦC; simp only [liftTc_tc]
  isplitl [Hheld]; · iexists _; iexact Hheld
  iexists ∅; iexact HO

theorem post_seq (m : (ℓ : Loc nD τ sig) → Buf (Elt F) ℓ) (d : Dev nD) (s' : Phys nD τ sig (Elt F)) :
    iprop(ΦC m d ∗ SI s')
      ⊢ (⌜∃ A : (y0 : DevRef τ sig).ty.Contents (Elt F), ∀ b : Ref sig .tc,
            s'.mem.mem ((d.tc : Thread nD τ).loc b) = after ops (withAlloc (launchContents m d) A) (Proc.devRef .tc b)⌝ : sProp 𝕄) := by
  unfold ΦC held
  iintro ⟨⟨%A, H⟩, HSI⟩
  ihave %h := (SI_pointsTo_bufs_agree (qs := fun _ => fullShare) (tcRefs τ sig)) $$ [HSI H]
  · isplitl [HSI]; · iexact HSI
    iexact H
  ipureintro
  exact ⟨A, fun b => h _ (devRef_mem_tcRefs b)⟩

/-- From any memory with zero counters every weakly fair execution of @main terminates, each buffer at the fold of
    the 29 operations over the launch contents with the allocated buffer at SOME contents. -/
theorem run_some (m : (ℓ : Loc nD τ sig) → Buf (Elt F) ℓ) (ρ : Dev nD → PrngReg) :
    θ_run (defs (F := F)) (onTc (τ := τ) (main (F := F))) ⟨m, fun _ => 0, ρ⟩ fun r =>
      ∀ d : Dev nD, ∃ A : (y0 : DevRef τ sig).ty.Contents (Elt F), ∀ b : Ref sig .tc,
        r.2.mem ((d.tc : Thread nD τ).loc b) = after ops (withAlloc (launchContents m d) A) (Proc.devRef .tc b) :=
  adequate_tpu defs _ _ _ (reflect_intro_silent_tc (Ix := Unit) (Name := ℕ) (U := Option PUnit) (Lvl := Unit)
    Variants.none none (ΦC m)
    (fun d mem => ∃ A : (y0 : DevRef τ sig).ty.Contents (Elt F), ∀ b : Ref sig .tc,
        mem.mem ((d.tc : Thread nD τ).loc b) = after ops (withAlloc (launchContents m d) A) (Proc.devRef .tc b))
    (step m ρ) (post_seq m) (fun _ h d => h d))

end Run

/-! ## The reference's result and its run -/

section Final
open Idealize.ShloMosaic.StableHlo Idealize.ShloMosaic.TcCoe

section AnyInstance
variable {F : FTy → Type} [FloatOps F]

/-- The result buffer after the 29 operations, from any contents: the composed term of the argument and of what the
    allocated buffer held. -/
theorem after_v22 (W : Valuation τ sig (Elt F)) :
    after ops W (Proc.devRef .tc main_v22) = refTerm (W (Proc.devRef .tc main_arg0)) (W (Proc.devRef .tc main_v0)) := by
  after_results_simp
  rfl

/-- No operation writes the argument. -/
theorem after_arg0 (W : Valuation τ sig (Elt F)) :
    after ops W (Proc.devRef .tc main_arg0) = W (Proc.devRef .tc main_arg0) := by
  after_results_simp

theorem withAlloc_v0 (V : Valuation τ sig (Elt F)) (A : (y0 : DevRef τ sig).ty.Contents (Elt F)) :
    withAlloc V A (Proc.devRef .tc main_v0) = A := by
  unfold withAlloc; rw [Function.update_self]

theorem withAlloc_arg0 (V : Valuation τ sig (Elt F)) (A : (y0 : DevRef τ sig).ty.Contents (Elt F)) :
    withAlloc V A (Proc.devRef .tc main_arg0) = V (Proc.devRef .tc main_arg0) := by
  unfold withAlloc; exact Function.update_of_ne (devRef_ne_of_ne (by decide)) _ _

end AnyInstance

/-- Every row of the result is written by one of the three scatters: the term does not depend on the allocated contents. -/
theorem refTerm_indep (X A A' : (⟨S8192x512, .f32⟩ : BufTy).Contents (Elt Ideal)) : refTerm X A = refTerm X A' := by
  funext i
  obtain ⟨R, j, rfl⟩ : ∃ (R : Fin 8192) (j : Fin 512), i = ix2 R j := ⟨i 0, i 1, eq_ix2 i⟩
  have hR : R.val < 8192 := R.isLt
  by_cases h0 : R.val = 0
  · obtain rfl : R = ⟨0, by decide⟩ := Fin.ext h0
    rw [refTerm_first, refTerm_first]
  by_cases h1 : R.val = 8191
  · obtain rfl : R = ⟨8191, by decide⟩ := Fin.ext h1
    rw [refTerm_last, refTerm_last]
  · rw [refTerm_mid X A R ⟨R.val - 1, by omega⟩ ⟨R.val + 1, by omega⟩ (by show R.val - 1 + 1 = R.val; omega) rfl j,
      refTerm_mid X A' R ⟨R.val - 1, by omega⟩ ⟨R.val + 1, by omega⟩ (by show R.val - 1 + 1 = R.val; omega) rfl j]

/-- The reference's result as one whole-array function of its argument, at the ideal instance (the allocated contents
    fixed at the argument's: by `refTerm_indep` any choice gives the same array). -/
noncomputable def refOut (X : (⟨S8192x512, .f32⟩ : BufTy).Contents (Elt Ideal)) : (⟨S8192x512, .bf16⟩ : BufTy).Contents (Elt Ideal) :=
  refTerm X X

/-- From any memory with zero counters, every weakly fair execution of the reference terminates with its result buffer
    at `refOut` of the argument's launch contents and the argument unchanged. -/
theorem run (m' : (ℓ : Loc nD τ sig) → Buf (Elt Ideal) ℓ) (g' : Dev nD → PrngReg) :
    θ_run (defs (F := Ideal)) (onTc (τ := τ) (main (F := Ideal))) ⟨m', fun _ => 0, g'⟩ (fun r =>
      r.2.mem (((0 : Dev nD).tc : Thread nD τ).loc main_v22) = refOut (m' (((0 : Dev nD).tc : Thread nD τ).loc main_arg0))
      ∧ r.2.mem (((0 : Dev nD).tc : Thread nD τ).loc main_arg0) = m' (((0 : Dev nD).tc : Thread nD τ).loc main_arg0)) :=
  (θ_run defs _ _).mono (fun _ h => by
      obtain ⟨A, hA⟩ := h 0
      refine ⟨(hA main_v22).trans ?_, (hA main_arg0).trans ?_⟩
      · rw [after_v22, withAlloc_v0, withAlloc_arg0]
        exact refTerm_indep _ _ _
      · rw [after_arg0, withAlloc_arg0])
    (run_some m' g')

/-- Row 0 is copied. -/
theorem refOut_apply_first (X : (⟨S8192x512, .f32⟩ : BufTy).Contents (Elt Ideal)) (j : Fin 512) :
    refOut X (ix2 (⟨0, by decide⟩ : Fin 8192) j) = X (ix2 (⟨0, by decide⟩ : Fin 8192) j) := refTerm_first X X j

/-- Row 8191 is copied. -/
theorem refOut_apply_last (X : (⟨S8192x512, .f32⟩ : BufTy).Contents (Elt Ideal)) (j : Fin 512) :
    refOut X (ix2 (⟨8191, by decide⟩ : Fin 8192) j) = X (ix2 (⟨8191, by decide⟩ : Fin 8192) j) := refTerm_last X X j

/-- A row `R` strictly between, with `Rm` the row above and `Rp` the row below: (1/4·X[Rm] + 1/2·X[R]) + 1/4·X[Rp], the
    constants as the printed words. -/
theorem refOut_apply_mid (X : (⟨S8192x512, .f32⟩ : BufTy).Contents (Elt Ideal)) (R Rm Rp : Fin 8192)
    (hm : Rm.val + 1 = R.val) (hp : Rp.val = R.val + 1) (j : Fin 512) :
    refOut X (ix2 R j) =
      ((Ideal.ofBits .f32 0x3E800000#32 : EReal) * X (ix2 Rm j) + (Ideal.ofBits .f32 0x3F000000#32 : EReal) * X (ix2 R j))
        + (Ideal.ofBits .f32 0x3E800000#32 : EReal) * X (ix2 Rp j) := refTerm_mid X X R Rm Rp hm hp j

/-- Read at an index: rows 0 and 8191 are copied, every other row `R` is (1/4·X[R-1] + 1/2·X[R]) + 1/4·X[R+1], with the
    constants kept as the printed words. -/
theorem refOut_apply (X : (⟨S8192x512, .f32⟩ : BufTy).Contents (Elt Ideal)) (R : Fin 8192) (j : Fin 512) :
    refOut X (ix2 R j) =
      if h0 : R.val = 0 then X (ix2 R j)
      else if h1 : R.val = 8191 then X (ix2 R j)
      else ((Ideal.ofBits .f32 0x3E800000#32 : EReal) * X (ix2 (⟨R.val - 1, by omega⟩ : Fin 8192) j)
              + (Ideal.ofBits .f32 0x3F000000#32 : EReal) * X (ix2 R j))
            + (Ideal.ofBits .f32 0x3E800000#32 : EReal) * X (ix2 (⟨R.val + 1, by omega⟩ : Fin 8192) j) := by
  have hR : R.val < 8192 := R.isLt
  by_cases h0 : R.val = 0
  · rw [dif_pos h0]
    obtain rfl : R = ⟨0, by decide⟩ := Fin.ext h0
    exact refOut_apply_first X j
  rw [dif_neg h0]
  by_cases h1 : R.val = 8191
  · rw [dif_pos h1]
    obtain rfl : R = ⟨8191, by decide⟩ := Fin.ext h1
    exact refOut_apply_last X j
  rw [dif_neg h1]
  exact refOut_apply_mid X R ⟨R.val - 1, by omega⟩ ⟨R.val + 1, by omega⟩ (by show R.val - 1 + 1 = R.val; omega) rfl j

end Final

/-- info: 'Cert.ReferenceIdeal.RefRun.run' depends on axioms: [propext, Classical.choice, Quot.sound] -/
#guard_msgs in #print axioms run
/-- info: 'Cert.ReferenceIdeal.RefRun.refOut_apply' depends on axioms: [propext, Classical.choice, Quot.sound] -/
#guard_msgs in #print axioms refOut_apply

end Cert.ReferenceIdeal.RefRun

end
-- ==== Proof.Bridge.lean ====
/-
  The result block of one device read at an index, at the ideal instance: the three-point stencil over the device's
  block and its two halo rows; and the bridge to the reference: block `c` of the whole array's stencil is the result
  block of device `c`, computed from block `c` of the argument, the last row of the block before it and the first row
  of the block after it.
-/
import proofs.«900541_g7700000000000542_dist_halo_stencil_i_m512_n512_v7x_i16_bf16_1_alg».proof.Proof.OutSpec
import Idealize.ShloMosaic.Lib.Layout
import Idealize.ShloMosaic.PureOps.Ideal
import Idealize.ShloMosaic.Lib.ValueIdx
import Idealize.ShloMosaic.Lib.Pipeline.Value

noncomputable section

namespace Cert.KernelIdeal.Bridge

open Cert.KernelIdeal Cert.KernelIdeal.Gen Cert.KernelIdeal.OutSpec
open Idealize.ShloMosaic Idealize.ShloMosaic.TcCoe Idealize.SL.Sem
open Idealize.ShloMosaic.ValueIdx

/-! ## The two coefficients -/

/-- One quarter and one half, as the single-precision literals the edge rows and the reference spell. -/
abbrev qv : EReal := Ideal.ofBits .f32 0x3E800000#32
abbrev hv : EReal := Ideal.ofBits .f32 0x3F000000#32

theorem qv_eq : qv = ((1 / 4 : ℝ) : EReal) := by
  simp [qv, Ideal.ofBits, Ideal.ieee, -EReal.coe_mul]; norm_num
theorem hv_eq : hv = ((1 / 2 : ℝ) : EReal) := by
  simp [hv, Ideal.ofBits, Ideal.ieee, -EReal.coe_mul]; norm_num
/-- The half-width literals of the two slabs denote the same two reals. -/
theorem quarter_bf16 : Ideal.ofBits .bf16 0x3E80#16 = qv := by
  rw [qv_eq]; simp [Ideal.ofBits, Ideal.ieee, -EReal.coe_mul]; norm_num
theorem half_bf16 : Ideal.ofBits .bf16 0x3F00#16 = hv := by
  rw [hv_eq]; simp [Ideal.ofBits, Ideal.ieee, -EReal.coe_mul]; norm_num

/-! ## Loads and payloads read at an index -/

/-- A load of `n` rows at row `k` of the block reads row `k + a` at its row `a`. -/
theorem ld_apply {F : FTy → Type} {n : ℕ} (k : ℕ)
    (inb : ∀ a, (![k, 0] : Fin 2 → Nat) a + (⟨2, ![n, 512]⟩ : Shape).size a ≤ S512x512.size a)
    (X : XC (F := F)) (a : Fin n) (j : Fin 512) :
    (xM : Memref sig .tc .vmem S512x512 .f32).view.readAt (Elt F) (Rect.unit (s := S512x512) ![k, 0] (⟨2, ![n, 512]⟩ : Shape).size inb).toLoadRect X (ix2 a j)
      = X (ix2 (⟨k + a.val, by have h1 : k + n ≤ 512 := inb 0; have h2 := a.isLt; omega⟩ : Fin 512) j) := by
  rw [View.readAt_apply, View.read_apply, cast_eq]
  refine congrArg X (funext fun b => Fin.ext ?_)
  match b with
  | ⟨0, _⟩ => show k + 1 * a.val = k + a.val; omega
  | ⟨1, _⟩ => show 0 + 1 * j.val = j.val; omega

/-- The two halo buffers are read whole. -/
theorem hz : (![0, 0] : Fin 2 → Nat) = fun _ => 0 := funext fun a => by fin_cases a <;> rfl
theorem ldUp_eq {F : FTy → Type} (u : HC (F := F)) : ldUp u = u :=
  Memref.readAt_unit_zero (Elt F) cc0_scratch0 hz _ u
theorem ldDn_eq {F : FTy → Type} (d : (cc0_scratch1 : Ref sig .tc).ty.Contents (Elt F)) : ldDn d = d :=
  Memref.readAt_unit_zero (Elt F) cc0_scratch1 hz _ d

/-- An interior slab's payload at an index: the three-point stencil of the three loads. -/
theorem pay1_apply (v10 v15 v21 : Vec Ideal S255x512 .f32) (i : S255x512.Idx) :
    k0_pay1 (F := Ideal) v10 v15 v21 i = (show EReal from (qv * v10 i + hv * v15 i) + qv * v21 i) := by
  unfold k0_pay1
  simp only [shapeCast_self]
  show (Ideal.ofBits .bf16 0x3E80#16 * v10 i + Ideal.ofBits .bf16 0x3F00#16 * v15 i) + Ideal.ofBits .bf16 0x3E80#16 * v21 i = _
  rw [quarter_bf16, half_bf16]
theorem pay2_apply (v36 v41 v47 : Vec Ideal S255x512 .f32) (i : S255x512.Idx) :
    k0_pay2 (F := Ideal) v36 v41 v47 i = (show EReal from (qv * v36 i + hv * v41 i) + qv * v47 i) := by
  unfold k0_pay2
  simp only [shapeCast_self]
  show (Ideal.ofBits .bf16 0x3E80#16 * v36 i + Ideal.ofBits .bf16 0x3F00#16 * v41 i) + Ideal.ofBits .bf16 0x3E80#16 * v47 i = _
  rw [quarter_bf16, half_bf16]

theorem ld1_apply {F : FTy → Type} (k : ℕ) (h : ∀ a, (![k, 0] : Fin 2 → Nat) a + S1x512.size a ≤ S512x512.size a)
    (X : XC (F := F)) (j : Fin 512) :
    ld1 k h X (ix2 (0 : Fin 1) j) = X (ix2 (⟨k, by have h1 : k + 1 ≤ 512 := h 0; omega⟩ : Fin 512) j) :=
  (ld_apply (n := 1) k h X 0 j).trans (congrArg (fun a => X (ix2 a j)) (Fin.ext (Nat.add_zero k)))
theorem ld255_apply {F : FTy → Type} (k : ℕ) (h : ∀ a, (![k, 0] : Fin 2 → Nat) a + S255x512.size a ≤ S512x512.size a)
    (X : XC (F := F)) (a : Fin 255) (j : Fin 512) :
    ld255 k h X (ix2 a j) = X (ix2 (⟨k + a.val, by have h1 : k + 255 ≤ 512 := h 0; have h2 := a.isLt; omega⟩ : Fin 512) j) :=
  ld_apply (n := 255) k h X a j

/-- A select between two vectors on one condition, read at an index. -/
theorem select_vec_apply {α : Type} {s : Shape} (c : BitVec 1) (a b : s.Idx → α) (i : s.Idx) :
    (Scalar.select c a b) i = Scalar.select c (a i) (b i) := by
  unfold Scalar.select; split <;> rfl
theorem cmpi_eq_self (x : BitVec 32) : Scalar.cmpi .eq x x = 1#1 := by
  simp [Scalar.cmpi, IntOp.cmpi]
theorem cmpi_eq_of_ne {x y : BitVec 32} (h : x ≠ y) : Scalar.cmpi .eq x y = 0#1 := by
  have hb : (x == y) = false := beq_eq_false_iff_ne.mpr h
  simp [Scalar.cmpi, IntOp.cmpi, hb]

/-- The top row at an index: the block's own first row on the first device, else the stencil over the row above. -/
theorem rowTop_apply (pos : BitVec 32) (X : XC (F := Ideal)) (u : HC (F := Ideal)) (j : Fin 512) :
    rowTop (F := Ideal) pos X u (ix2 (0 : Fin 1) j) =
      if pos = 0#32 then X (ix2 (0 : Fin 512) j)
      else (show EReal from (qv * u (ix2 (0 : Fin 1) j) + hv * X (ix2 (0 : Fin 512) j)) + qv * X (ix2 (1 : Fin 512) j)) := by
  unfold rowTop k0_pay6 k0_pay3 k0_pay4 k0_pay5
  simp only [shapeCast_self, ldUp_eq]
  refine (select_vec_apply _ _ _ _).trans ?_
  by_cases hp : pos = 0#32
  · rw [if_pos hp, hp, cmpi_eq_self, select_one]
    exact ld1_apply 0 _ X j
  · rw [if_neg hp, cmpi_eq_of_ne hp, select_zero]
    show (Ideal.ofBits .f32 0x3E800000#32 * u (ix2 (0 : Fin 1) j) + Ideal.ofBits .f32 0x3F000000#32 * ld1 0 _ X (ix2 (0 : Fin 1) j))
      + Ideal.ofBits .f32 0x3E800000#32 * ld1 1 _ X (ix2 (0 : Fin 1) j) = _
    rw [ld1_apply, ld1_apply]
    rfl

/-- The bottom row at an index: the block's own last row on the last device, else the stencil over the row below. -/
theorem rowBot_apply (pos : BitVec 32) (X : XC (F := Ideal)) (d : (cc0_scratch1 : Ref sig .tc).ty.Contents (Elt Ideal)) (j : Fin 512) :
    rowBot (F := Ideal) pos X d (ix2 (0 : Fin 1) j) =
      if pos = 15#32 then X (ix2 (511 : Fin 512) j)
      else (show EReal from (qv * X (ix2 (510 : Fin 512) j) + hv * X (ix2 (511 : Fin 512) j)) + qv * d (ix2 (0 : Fin 1) j)) := by
  unfold rowBot k0_pay7
  simp only [shapeCast_self, ldDn_eq]
  refine (select_vec_apply _ _ _ _).trans ?_
  by_cases hp : pos = 15#32
  · rw [if_pos hp, hp, cmpi_eq_self, select_one]
    exact ld1_apply 511 _ X j
  · rw [if_neg hp, cmpi_eq_of_ne hp, select_zero]
    show (Ideal.ofBits .f32 0x3E800000#32 * ld1 510 _ X (ix2 (0 : Fin 1) j) + Ideal.ofBits .f32 0x3F000000#32 * ld1 511 _ X (ix2 (0 : Fin 1) j))
      + Ideal.ofBits .f32 0x3E800000#32 * d (ix2 (0 : Fin 1) j) = _
    rw [ld1_apply, ld1_apply]
    rfl

/-! ## The result block at an index -/

theorem ld255_at {F : FTy → Type} (k : ℕ) (h : ∀ a, (![k, 0] : Fin 2 → Nat) a + S255x512.size a ≤ S512x512.size a)
    (X : XC (F := F)) (a : Fin 255) (j : Fin 512) (R : Fin 512) (hR : R.val = k + a.val) :
    ld255 k h X (ix2 a j) = X (ix2 R j) :=
  (ld255_apply k h X a j).trans (congrArg (fun b => X (ix2 b j)) (Fin.ext hR.symm))

/-- Row 0 of the result block. -/
theorem outOf_row0 (pos : BitVec 32) (X : XC (F := Ideal)) (u : HC (F := Ideal))
    (d : (cc0_scratch1 : Ref sig .tc).ty.Contents (Elt Ideal)) (j : Fin 512) :
    outOf (F := Ideal) pos X u d (ix2 (0 : Fin 512) j) =
      if pos = 0#32 then X (ix2 (0 : Fin 512) j)
      else (show EReal from (qv * u (ix2 (0 : Fin 1) j) + hv * X (ix2 (0 : Fin 512) j)) + qv * X (ix2 (1 : Fin 512) j)) := by
  unfold outOf
  rw [outFn_ix2, dif_pos (show (0 : Fin 512).val = 0 from rfl)]
  exact rowTop_apply pos X u j

/-- Row 511 of the result block. -/
theorem outOf_row511 (pos : BitVec 32) (X : XC (F := Ideal)) (u : HC (F := Ideal))
    (d : (cc0_scratch1 : Ref sig .tc).ty.Contents (Elt Ideal)) (j : Fin 512) :
    outOf (F := Ideal) pos X u d (ix2 (511 : Fin 512) j) =
      if pos = 15#32 then X (ix2 (511 : Fin 512) j)
      else (show EReal from (qv * X (ix2 (510 : Fin 512) j) + hv * X (ix2 (511 : Fin 512) j)) + qv * d (ix2 (0 : Fin 1) j)) := by
  unfold outOf
  rw [outFn_ix2, dif_neg (show ¬ (511 : Fin 512).val = 0 by decide), dif_neg (show ¬ (511 : Fin 512).val ≤ 255 by decide),
    dif_neg (show ¬ (511 : Fin 512).val ≤ 510 by decide)]
  exact rowBot_apply pos X d j

/-- Rows 1 to 510 of the result block, from either slab: the stencil inside the block. -/
theorem outOf_mid (pos : BitVec 32) (X : XC (F := Ideal)) (u : HC (F := Ideal))
    (d : (cc0_scratch1 : Ref sig .tc).ty.Contents (Elt Ideal)) (r : Fin 512) (j : Fin 512) (h1 : 1 ≤ r.val) (h2 : r.val ≤ 510) :
    outOf (F := Ideal) pos X u d (ix2 r j) =
      (show EReal from (qv * X (ix2 (⟨r.val - 1, by omega⟩ : Fin 512) j) + hv * X (ix2 r j)) + qv * X (ix2 (⟨r.val + 1, by omega⟩ : Fin 512) j)) := by
  unfold outOf
  rw [outFn_ix2, dif_neg (show ¬ r.val = 0 by omega)]
  by_cases h : r.val ≤ 255
  · rw [dif_pos h]
    unfold slabA
    rw [pay1_apply,
      ld255_at 0 inb_S512x512_S255x512_0_0 X (⟨r.val - 1, by omega⟩ : Fin 255) j (⟨r.val - 1, by omega⟩ : Fin 512) (by show r.val - 1 = 0 + (r.val - 1); omega),
      ld255_at 1 inb_S512x512_S255x512_1_0 X (⟨r.val - 1, by omega⟩ : Fin 255) j r (by show r.val = 1 + (r.val - 1); omega),
      ld255_at 2 inb_S512x512_S255x512_2_0 X (⟨r.val - 1, by omega⟩ : Fin 255) j (⟨r.val + 1, by omega⟩ : Fin 512) (by show r.val + 1 = 2 + (r.val - 1); omega)]
  · rw [dif_neg h, dif_pos h2]
    unfold slabB
    rw [pay2_apply,
      ld255_at 255 inb_S512x512_S255x512_255_0 X (⟨r.val - 256, by omega⟩ : Fin 255) j (⟨r.val - 1, by omega⟩ : Fin 512) (by show r.val - 1 = 255 + (r.val - 256); omega),
      ld255_at 256 inb_S512x512_S255x512_256_0 X (⟨r.val - 256, by omega⟩ : Fin 255) j r (by show r.val = 256 + (r.val - 256); omega),
      ld255_at 257 inb_S512x512_S255x512_257_0 X (⟨r.val - 256, by omega⟩ : Fin 255) j (⟨r.val + 1, by omega⟩ : Fin 512) (by show r.val + 1 = 257 + (r.val - 256); omega)]

/-! ## The bridge to the whole array -/

abbrev BS : Shape := ⟨2, ![512, 512]⟩
abbrev WS : Shape := ⟨2, ![8192, 512]⟩

/-- The device's position as the body computes it. -/
abbrev posWord (c : Dev nD) : BitVec 32 := Scalar.remsi (Scalar.divsi (Dev.word c) 1#32) 16#32
theorem posWord_first (c : Dev nD) : posWord c = 0#32 ↔ c.val = 0 := by revert c; decide +kernel
theorem posWord_last (c : Dev nD) : posWord c = 15#32 ↔ c.val = 15 := by revert c; decide +kernel

/-- The device's own first and last row, as the rows the exchange sends. -/
abbrev x0M : Memref sig .tc .vmem S1x512 .f32 := (xM : Memref sig .tc .vmem S512x512 .f32).slice (Rect.unit (s := S512x512) ![0, 0] S1x512.size inb_S512x512_S1x512_0_0) (fun _ => rfl)
abbrev x511M : Memref sig .tc .vmem S1x512 .f32 := (xM : Memref sig .tc .vmem S512x512 .f32).slice (Rect.unit (s := S512x512) ![511, 0] S1x512.size inb_S512x512_S1x512_511_0) (fun _ => rfl)

theorem read_x0 {F : FTy → Type} (f : XC (F := F)) (j : Fin 512) :
    (x0M : Memref sig .tc .vmem S1x512 .f32).view.read (Elt F) f (ix2 (0 : Fin 1) j) = f (ix2 (0 : Fin 512) j) := by
  rw [View.read_apply, cast_eq]
  refine congrArg f (funext fun b => Fin.ext ?_)
  match b with
  | ⟨0, _⟩ => rfl
  | ⟨1, _⟩ => show 0 + 1 * j.val = j.val; omega
theorem read_x511 {F : FTy → Type} (f : XC (F := F)) (j : Fin 512) :
    (x511M : Memref sig .tc .vmem S1x512 .f32).view.read (Elt F) f (ix2 (0 : Fin 1) j) = f (ix2 (511 : Fin 512) j) := by
  rw [View.read_apply, cast_eq]
  refine congrArg f (funext fun b => Fin.ext ?_)
  match b with
  | ⟨0, _⟩ => rfl
  | ⟨1, _⟩ => show 0 + 1 * j.val = j.val; omega

/-- Block `c` of the whole array at the block's row `r`: row `512 c + r` of the whole. -/
theorem block_ix2 {α : Type} (c : Fin 16) (V : WS.Idx → α) (r j : Fin 512) :
    (Layout.block BS WS 0 16 c V) (ix2 r j) = V (ix2 (⟨c.val * 512 + r.val, by omega⟩ : Fin 8192) j) := by
  rw [Layout.block_apply]
  refine congrArg V (funext fun b => Fin.ext ?_)
  match b with
  | ⟨0, _⟩ => rfl
  | ⟨1, _⟩ => rfl

/-- THE BRIDGE. `G` is the stencil of the whole array `X'` (identity on its first and last row); then block `c` of `G` is
    the result block of device `c` from block `c` of `X'`, the last row of block `p` (the device before, on the ring) and
    the first row of block `n` (the device after). -/
theorem block_out (X' : (⟨WS, .f32⟩ : BufTy).Contents (Elt Ideal)) (G : (⟨WS, .bf16⟩ : BufTy).Contents (Elt Ideal))
    (hFirst : ∀ (R : Fin 8192) (j : Fin 512), R.val = 0 → G (ix2 R j) = X' (ix2 R j))
    (hLast : ∀ (R : Fin 8192) (j : Fin 512), R.val = 8191 → G (ix2 R j) = X' (ix2 R j))
    (hMid : ∀ (R Rm Rp : Fin 8192) (j : Fin 512), Rm.val + 1 = R.val → Rp.val = R.val + 1 →
      G (ix2 R j) = (show EReal from qv * X' (ix2 Rm j) + hv * X' (ix2 R j) + qv * X' (ix2 Rp j)))
    (c p n : Dev nD) (hp : p.val = (c.val + 15) % 16) (hn : n.val = (c.val + 1) % 16) :
    Layout.block BS WS 0 16 c G
      = outOf (F := Ideal) (posWord c) (Layout.block BS WS 0 16 c X')
          ((x511M : Memref sig .tc .vmem S1x512 .f32).view.read (Elt Ideal) (Layout.block BS WS 0 16 p X'))
          ((x0M : Memref sig .tc .vmem S1x512 .f32).view.read (Elt Ideal) (Layout.block BS WS 0 16 n X')) := by
  funext i
  obtain ⟨r, j, rfl⟩ : ∃ (r j : Fin 512), i = ix2 r j := ⟨i 0, i 1, eq_ix2 (n0 := 512) (n1 := 512) i⟩
  have hc : c.val < 16 := c.isLt
  have hpl : p.val < 16 := p.isLt
  have hnl : n.val < 16 := n.isLt
  rw [block_ix2]
  by_cases hr0 : r.val = 0
  · obtain rfl : r = (0 : Fin 512) := Fin.ext hr0
    rw [outOf_row0]
    by_cases hc0 : c.val = 0
    · rw [if_pos ((posWord_first c).mpr hc0), block_ix2]
      exact hFirst _ j (by show c.val * 512 + 0 = 0; omega)
    · rw [if_neg (mt (posWord_first c).mp hc0), read_x511, block_ix2, block_ix2, block_ix2]
      refine (hMid _ ⟨p.val * 512 + 511, by omega⟩ ⟨c.val * 512 + 1, by omega⟩ j ?_ ?_).trans rfl
      · show p.val * 512 + 511 + 1 = c.val * 512 + 0; omega
      · show c.val * 512 + 1 = c.val * 512 + 0 + 1; omega
  by_cases hr1 : r.val = 511
  · obtain rfl : r = (511 : Fin 512) := Fin.ext hr1
    rw [outOf_row511]
    by_cases hc15 : c.val = 15
    · rw [if_pos ((posWord_last c).mpr hc15), block_ix2]
      exact hLast _ j (by show c.val * 512 + 511 = 8191; omega)
    · rw [if_neg (mt (posWord_last c).mp hc15), read_x0, block_ix2, block_ix2, block_ix2]
      refine (hMid _ ⟨c.val * 512 + 510, by omega⟩ ⟨n.val * 512 + 0, by omega⟩ j ?_ ?_).trans rfl
      · show c.val * 512 + 510 + 1 = c.val * 512 + 511; omega
      · show n.val * 512 + 0 = c.val * 512 + 511 + 1; omega
  · rw [outOf_mid _ _ _ _ r j (by omega) (by omega), block_ix2, block_ix2, block_ix2]
    refine (hMid _ ⟨c.val * 512 + (r.val - 1), by omega⟩ ⟨c.val * 512 + (r.val + 1), by omega⟩ j ?_ ?_).trans rfl
    · show c.val * 512 + (r.val - 1) + 1 = c.val * 512 + r.val; omega
    · show c.val * 512 + (r.val + 1) = c.val * 512 + r.val + 1; omega

/-- The same bridge with the reference's result given by ONE equation and the two neighbours named on the ring of sixteen. -/
theorem block_out_ring (X' : (⟨WS, .f32⟩ : BufTy).Contents (Elt Ideal)) (G : (⟨WS, .bf16⟩ : BufTy).Contents (Elt Ideal))
    (hG : ∀ (R : Fin 8192) (j : Fin 512), G (ix2 R j) =
      if h0 : R.val = 0 then X' (ix2 R j) else if h1 : R.val = 8191 then X' (ix2 R j)
      else (show EReal from qv * X' (ix2 (⟨R.val - 1, by omega⟩ : Fin 8192) j) + hv * X' (ix2 R j)
        + qv * X' (ix2 (⟨R.val + 1, by omega⟩ : Fin 8192) j)))
    (c : Dev nD) :
    Layout.block BS WS 0 16 c G
      = outOf (F := Ideal) (posWord c) (Layout.block BS WS 0 16 c X')
          ((x511M : Memref sig .tc .vmem S1x512 .f32).view.read (Elt Ideal)
            (Layout.block BS WS 0 16 (⟨(c.val + 15) % 16, Nat.mod_lt _ (by decide)⟩ : Dev nD) X'))
          ((x0M : Memref sig .tc .vmem S1x512 .f32).view.read (Elt Ideal)
            (Layout.block BS WS 0 16 (⟨(c.val + 1) % 16, Nat.mod_lt _ (by decide)⟩ : Dev nD) X')) := by
  refine block_out X' G (fun R j h => ?_) (fun R j h => ?_) (fun R Rm Rp j hm hp => ?_) c _ _ rfl rfl
  · rw [hG, dif_pos h]
  · rw [hG, dif_neg (by omega), dif_pos h]
  · rw [hG, dif_neg (by omega), dif_neg (by omega)]
    have e1 : (⟨R.val - 1, by omega⟩ : Fin 8192) = Rm := Fin.ext (by show R.val - 1 = Rm.val; omega)
    have e2 : (⟨R.val + 1, by omega⟩ : Fin 8192) = Rp := Fin.ext (by show R.val + 1 = Rp.val; omega)
    show qv * X' (ix2 (⟨R.val - 1, _⟩ : Fin 8192) j) + hv * X' (ix2 R j) + qv * X' (ix2 (⟨R.val + 1, _⟩ : Fin 8192) j) = _
    rw [e1, e2]

/-- info: 'Cert.KernelIdeal.Bridge.block_out' depends on axioms: [propext, Classical.choice, Quot.sound] -/
#guard_msgs in #print axioms block_out

/-- info: 'Cert.KernelIdeal.Bridge.block_out_ring' depends on axioms: [propext, Classical.choice, Quot.sound] -/
#guard_msgs in #print axioms block_out_ring

end Cert.KernelIdeal.Bridge

end
-- ==== Proof.lean ====
/-
  The halo stencil on a line of sixteen devices against the three-point stencil on the whole array.
  Each device computes the interior rows of its block from the block itself, and its first and last row from the
  block and the neighbouring blocks' last and first rows, which the neighbours send it; the first row of the first
  block and the last row of the last block are copied.  Over the extended reals the conversion to the narrow float
  format changes nothing, the constants one quarter and one half are the same numbers in both programs, and both
  programs add the three products in the same order: device `c`'s result block is block `c` of the reference's result,
  index by index.  The three frames are the runs with the values dropped.
-/
import proofs.«900541_g7700000000000542_dist_halo_stencil_i_m512_n512_v7x_i16_bf16_1_alg».proof.Defs
import proofs.«900541_g7700000000000542_dist_halo_stencil_i_m512_n512_v7x_i16_bf16_1_alg».proof.Proof.Launch
import proofs.«900541_g7700000000000542_dist_halo_stencil_i_m512_n512_v7x_i16_bf16_1_alg».proof.Proof.Bits.Launch
import proofs.«900541_g7700000000000542_dist_halo_stencil_i_m512_n512_v7x_i16_bf16_1_alg».proof.Proof.RefRun
import proofs.«900541_g7700000000000542_dist_halo_stencil_i_m512_n512_v7x_i16_bf16_1_alg».proof.Proof.Bridge
import proofs.«900541_g7700000000000542_dist_halo_stencil_i_m512_n512_v7x_i16_bf16_1_alg».proof.Proof.Gen.Kernel
import proofs.«900541_g7700000000000542_dist_halo_stencil_i_m512_n512_v7x_i16_bf16_1_alg».proof.Proof.Gen.KernelIdeal
import proofs.«900541_g7700000000000542_dist_halo_stencil_i_m512_n512_v7x_i16_bf16_1_alg».proof.Proof.Gen.ReferenceIdeal
import proofs.«900541_g7700000000000542_dist_halo_stencil_i_m512_n512_v7x_i16_bf16_1_alg».proof.Proof.Gen.Pre_finite_inputs_Kernel
import proofs.«900541_g7700000000000542_dist_halo_stencil_i_m512_n512_v7x_i16_bf16_1_alg».proof.Proof.Gen.Pre_finite_inputs_ReferenceIdeal
import Idealize.ShloMosaic.Adequacy
import Idealize.ShloMosaic.Init

noncomputable section

namespace Cert.Proof

open Idealize.ShloMosaic Idealize.SL.Sem

/-! ## The frames -/

theorem frame_k : Cert.frame_Kernel := fun m g _ =>
  (θ_run (Cert.Kernel.defs (F := Bits)) _ _).mono (fun _ h c => (h c (0 : Fin 2)).trans (Cert.Kernel.Halo.finalA_x m c))
    (Cert.Kernel.Halo.run_main (F := Bits) m g)

theorem frame_ki : Cert.frame_KernelIdeal := fun m g _ =>
  (θ_run (Cert.KernelIdeal.defs (F := Ideal)) _ _).mono (fun _ h c => (h c (0 : Fin 2)).trans (Cert.KernelIdeal.Halo.finalA_x m c))
    (Cert.KernelIdeal.Halo.run_main (F := Ideal) m g)

theorem frame_ri : Cert.frame_ReferenceIdeal := fun m g _ =>
  (θ_run (Cert.ReferenceIdeal.defs (F := Ideal)) _ _).mono
    (fun _ h c => by have hc : c = 0 := Subsingleton.elim _ _; subst hc; exact h.2)
    (Cert.ReferenceIdeal.RefRun.run m g)

/-! ## The values -/

open Cert.KernelIdeal Cert.KernelIdeal.Halo in
/-- A device's block of `x` as its staging buffer holds it is the block itself: the one window is the whole array. -/
theorem xstg_eq (m : (ℓ : Loc Cert.KernelIdeal.nD Cert.KernelIdeal.τ Cert.KernelIdeal.sig) → Buf (Elt Ideal) ℓ) (c : Dev Cert.KernelIdeal.nD) :
    xstg m c = m ((c.tc : Thread Cert.KernelIdeal.nD Cert.KernelIdeal.τ).loc main_arg0) :=
  Memref.read_access_unit_zero (Elt Ideal) main_arg0 (funext fun a => Nat.zero_mul _) _ _

open Cert.KernelIdeal Cert.KernelIdeal.Halo Idealize.ShloMosaic.ValueIdx in
/-- Device `c`'s result is block `c` of the reference's result, when the devices hold the blocks of the reference's argument. -/
theorem out_block (m : (ℓ : Loc Cert.KernelIdeal.nD Cert.KernelIdeal.τ Cert.KernelIdeal.sig) → Buf (Elt Ideal) ℓ)
    (X' : (⟨⟨2, ![8192, 512]⟩, .f32⟩ : BufTy).Contents (Elt Ideal))
    (hblk : ∀ c : Dev Cert.KernelIdeal.nD, m ((c.tc : Thread Cert.KernelIdeal.nD Cert.KernelIdeal.τ).loc main_arg0)
      = Layout.block ⟨2, ![512, 512]⟩ ⟨2, ![8192, 512]⟩ 0 16 c X') (c : Dev Cert.KernelIdeal.nD) :
    outAt m c = Layout.block ⟨2, ![512, 512]⟩ ⟨2, ![8192, 512]⟩ 0 16 c (Cert.ReferenceIdeal.RefRun.refOut X') := by
  unfold outAt landedUp landedDn
  rw [xstg_eq m c, xstg_eq m (prv c), xstg_eq m (nxt c), hblk c, hblk (prv c), hblk (nxt c)]
  exact (Cert.KernelIdeal.Bridge.block_out X' (Cert.ReferenceIdeal.RefRun.refOut X')
    (fun R j h => by rw [Cert.ReferenceIdeal.RefRun.refOut_apply, dif_pos h])
    (fun R j h => by rw [Cert.ReferenceIdeal.RefRun.refOut_apply, dif_neg (by omega), dif_pos h])
    (fun R Rm Rp j hm hp => Cert.ReferenceIdeal.RefRun.refOut_apply_mid X' R Rm Rp hm hp j)
    c (prv c) (nxt c) rfl rfl).symm

theorem alg : Cert.algebraic_KernelIdeal_ReferenceIdeal := by
  intro m g m' g' _ hblk
  refine ⟨Cert.ReferenceIdeal.RefRun.refOut (m' (((0 : Dev Cert.ReferenceIdeal.nD).tc : Thread Cert.ReferenceIdeal.nD Cert.ReferenceIdeal.τ).loc Cert.ReferenceIdeal.main_arg0)), ?_, ?_⟩
  · refine (θ_run (Cert.KernelIdeal.defs (F := Ideal)) _ _).mono (fun _ h c => ⟨?_, ?_⟩) (Cert.KernelIdeal.Halo.run_main (F := Ideal) m g)
    · exact ((h c (1 : Fin 2)).trans (Cert.KernelIdeal.Halo.finalA_out m c)).trans (out_block m _ hblk c)
    · exact (h c (0 : Fin 2)).trans (Cert.KernelIdeal.Halo.finalA_x m c)
  · exact Cert.ReferenceIdeal.RefRun.run m' g'

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, trivial, alg⟩

end Cert.Proof

end
